-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x256 : Shape := ⟨2, ![1024, 256]⟩
abbrev S1x1024 : Shape := ⟨2, ![1, 1024]⟩
abbrev S1024x1 : Shape := ⟨2, ![1024, 1]⟩
abbrev S256x1024 : Shape := ⟨2, ![256, 1024]⟩
abbrev S1024x1024 : Shape := ⟨2, ![1024, 1024]⟩
abbrev S1024 : Shape := ⟨1, ![1024]⟩
abbrev S1x1 : Shape := ⟨2, ![1, 1]⟩
abbrev S1 : Shape := ⟨1, ![1]⟩

abbrev nBuf : Space → Nat
  | .hbm => 18
  | .vmem => 22
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S8192x256, .bf16⟩
  | .hbm, ⟨13, _⟩ => ⟨S1x8192, .i32⟩
  | .hbm, ⟨14, _⟩ => ⟨S1x8192, .f32⟩
  | .hbm, ⟨15, _⟩ => ⟨S1x8192, .f32⟩
  | .hbm, ⟨16, _⟩ => ⟨S1x1, .f32⟩
  | .hbm, ⟨17, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1x1024, .i32⟩
  | .local _ .vmem, ⟨5, _⟩ => ⟨S1x1024, .i32⟩
  | .local _ .vmem, ⟨6, _⟩ => ⟨S1x1024, .i32⟩
  | .local _ .vmem, ⟨7, _⟩ => ⟨S1x1024, .i32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x1, .f32⟩
  | .local _ .vmem, ⟨13, _⟩ => ⟨S1024x1, .f32⟩
  | .local _ .vmem, ⟨14, _⟩ => ⟨S1024x256, .f32⟩
  | .local _ .vmem, ⟨15, _⟩ => ⟨S1024x256, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1, .f32⟩
  | .local _ .vmem, ⟨21, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v35 : BitVec 1 := Scalar.cmpi .eq arg1 c7_i32
  let v36 : BitVec 32 := Scalar.extui v35
  let c0_i32_20 : BitVec 32 := 0#32
  let v37 : BitVec 1 := Scalar.cmpi .ne v36 c0_i32_20
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v39 : BitVec 1 := Scalar.cmpi .eq arg0 c7_i32
  let v40 : BitVec 32 := Scalar.extui v39
  let c0_i32_18 : BitVec 32 := 0#32
  let v41 : BitVec 1 := Scalar.cmpi .ne v40 c0_i32_18
  v41

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bitsLt_bf16_f32 : FTy.bits .bf16 < FTy.bits .f32
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  transposes_S1x1024_p1_0_S1024x1 : S1x1024.Transposes [1, 0] S1024x1
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  transposes_S1024x1_p1_0_S1x1024 : S1024x1.Transposes [1, 0] S1x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1024x1_S1024x256 : S1024x1.Broadcasts S1024x256
  reduces_S1024x256_S1024 : S1024x256.Reduces [1] S1024
  reduces_S1024x1_S1 : S1024x1.Reduces [0] S1
  shapeCasts_S1_S1x1 : S1.ShapeCasts S1x1
  shapeCasts_S1x1_S_ : S1x1.ShapeCasts S_
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .i32 = 32 ∨ (Rect.block (s := S1x8192) S1x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x8192.size a
  hwx1_1 : ∀ i : grid1.Coords, EltTy.bits .f32 = 32 ∨ (Rect.block (s := S1x8192) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v5) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S1x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S1x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_0) S1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7_1) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S256x8192 : Shape := ⟨2, ![256, 8192]⟩
abbrev S8192x8192 : Shape := ⟨2, ![8192, 8192]⟩
abbrev S1x8192 : Shape := ⟨2, ![1, 8192]⟩

abbrev nBuf : Space → Nat
  | .hbm => 60
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S256x8192, .f32⟩
  | .hbm, ⟨13, _⟩ => ⟨S8192x8192, .f32⟩
  | .hbm, ⟨14, _⟩ => ⟨S8192x1, .i32⟩
  | .hbm, ⟨15, _⟩ => ⟨S1x8192, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S_, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x256, .f32⟩
  | .hbm, ⟨33, _⟩ => ⟨S8192x256, .f32⟩
  | .hbm, ⟨34, _⟩ => ⟨S_, .f32⟩
  | .hbm, ⟨35, _⟩ => ⟨S8192x256, .f32⟩
  | .hbm, ⟨36, _⟩ => ⟨S8192x256, .f32⟩
  | .hbm, ⟨37, _⟩ => ⟨S8192x256, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192x1, .f32⟩
  | .hbm, ⟨42, _⟩ => ⟨S8192x256, .f32⟩
  | .hbm, ⟨43, _⟩ => ⟨S8192x256, .f32⟩
  | .hbm, ⟨44, _⟩ => ⟨S_, .f32⟩
  | .hbm, ⟨45, _⟩ => ⟨S8192x256, .f32⟩
  | .hbm, ⟨46, _⟩ => ⟨S8192x256, .f32⟩
  | .hbm, ⟨47, _⟩ => ⟨S8192x256, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S_, .f32⟩
  | .hbm, ⟨59, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_call1_v0 : Ref sig .tc := ⟨.hbm, 20, rfl⟩
abbrev main_call1_v1 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_call2_v0 : Ref sig .tc := ⟨.hbm, 26, rfl⟩
abbrev main_call2_v1 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_call3_v0 : Ref sig .tc := ⟨.hbm, 37, rfl⟩
abbrev main_call3_cst : Ref sig .tc := ⟨.hbm, 38, rfl⟩
abbrev main_call3_v1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_call4_v0 : Ref sig .tc := ⟨.hbm, 47, rfl⟩
abbrev main_call4_cst : Ref sig .tc := ⟨.hbm, 48, rfl⟩
abbrev main_call4_v1 : Ref sig .tc := ⟨.hbm, 49, rfl⟩
abbrev main_v27 : Ref sig .tc := ⟨.hbm, 50, rfl⟩
abbrev main_v28 : Ref sig .tc := ⟨.hbm, 51, rfl⟩
abbrev main_cst_6 : Ref sig .tc := ⟨.hbm, 52, rfl⟩
abbrev main_v29 : Ref sig .tc := ⟨.hbm, 53, rfl⟩
abbrev main_v30 : Ref sig .tc := ⟨.hbm, 54, rfl⟩
abbrev main_cst_7 : Ref sig .tc := ⟨.hbm, 55, rfl⟩
abbrev main_v31 : Ref sig .tc := ⟨.hbm, 56, rfl⟩
abbrev main_v32 : Ref sig .tc := ⟨.hbm, 57, rfl⟩
abbrev main_cst_8 : Ref sig .tc := ⟨.hbm, 58, rfl⟩
abbrev main_v33 : Ref sig .tc := ⟨.hbm, 59, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  bcast_S_S8192x256 : S_.BroadcastsInDim S8192x256 (![] : Fin 0 → Fin S8192x256.rank)
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.Kernel.Runs0.lean ====
import proofs.«163277_j61710090109327_1_alg».proof.Proof.Gen.Kernel.Launch
import proofs.«163277_j61710090109327_1_alg».proof.Proof.Gen.Kernel.Skeleton
import proofs.«163277_j61710090109327_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The mining kernel at one grid point

The kernel keeps, per row of its block of rows, a running minimum over the positives and a running maximum
over the negatives in two scratch columns. At the first point of a row of the grid it resets them, at every
point it folds the current block of columns in, and at the last point of the row it writes the two columns
out, transposed. The three statements below say so for one call of the body on whole buffers. -/

/-- The body resets its running columns: the grid's second coordinate is zero. -/
abbrev cond0_first (i : grid0.Coords) : Prop :=
  (Scalar.cmpi .ne (Scalar.extui (Scalar.cmpi .eq (BitVec.ofNat 32 (i 1).val) 0#32)) 0#32) = 1#1
/-- The body writes its running columns out: the grid's second coordinate is the last. -/
abbrev cond0_last (i : grid0.Coords) : Prop := k0_cond2 i = 1#1

/-- The running minimum after a point, from the four blocks the point reads and the column it started from. -/
def newMin (x0 x1 : Vec F S1024x256 .bf16) (l2 l3 : Vec F S1x1024 .i32) (s : Vec F S1024x1 .f32) : Vec F S1024x1 .f32 := k0_pay8 x0 x1 l2 l3 s
/-- The running maximum after a point, likewise. -/
def newMax (x0 x1 : Vec F S1024x256 .bf16) (l2 l3 : Vec F S1x1024 .i32) (s : Vec F S1024x1 .f32) : Vec F S1024x1 .f32 := k0_pay1 (k0_pay9 x0 x1 l2 l3 s)

/-! ## Whole-buffer loads and stores

Every load and every store of the body goes through the rectangle that is the whole buffer. A load of such a
buffer reads its contents, and after a last store of that kind the buffer reads the payload of that store. -/

/-- The zero offsets of a rectangle of rank two, as a function of the axis. -/
theorem zero2 : (![0, 0] : Fin 2 → Nat) = fun _ => 0 := funext fun a => by fin_cases a <;> rfl

/-- A load of the whole of a whole buffer reads its contents. -/
theorem readAt_whole {S : Shape} {e : EltTy} {m : Memref sig .tc .vmem S e} (h : m.IsWhole) {off : Fin S.rank → Nat}
    (hz : off = fun _ => 0) (inb : ∀ a, off a + S.size a ≤ S.size a) (X : S.Idx → Elt F e) :
    View.readAt (Elt F) m.view (Rect.unit off S.size inb).toLoadRect (h.unread X) = X := by
  rw [View.readAt_eq_ld, h.read_unread]; exact View.ld_unit_zero hz inb X

/-- After a last store of the whole buffer the buffer reads that store's payload, whatever was stored before. -/
theorem read_writes_whole {S : Shape} {e : EltTy} (m : Memref sig .tc .vmem S e) (f : m.view.ty.Contents (Elt F))
    {off : Fin S.rank → Nat} (hz : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

/-! ## The three cases -/

set_option maxHeartbeats 1000000 in
/-- At the first point of a row of the grid: whatever the scratch columns held, they end at the fold of this
    point's blocks into the reset values; the output buffers are left as they were. -/
theorem run0_first (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : cond0_first i) (hc1 : ¬cond0_last i)
    (x0 x1 : Vec F S1024x256 .bf16) (l2 l3 : Vec F S1x1024 .i32) (xi4 xi5 : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare l2 ∗ owns (c : Thread nD τ) arg5 fullShare l3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare l2 ∗ owns (c : Thread nD τ) arg5 fullShare l3 ∗ owns (c : Thread nD τ) arg6 fullShare xi4 ∗ owns (c : Thread nD τ) arg7 fullShare xi5
            ∗ owns (c : Thread nD τ) arg8 fullShare (newMin x0 x1 l2 l3 (k0_pay4 (F := F))) ∗ owns (c : Thread nD τ) arg9 fullShare (newMax x0 x1 l2 l3 (k0_pay5 (F := F)))) -∗ K ⟨⟩))
      ⊢ wp frame (wpE (defs₀ (F := F)) Variants.none c none) E (cc0__mine_kernel i arg2 harg2 arg3 harg3 arg4 harg4 arg5 harg5 arg6 harg6 arg7 harg7 arg8 harg8 arg9 harg9) K := by
  simp only [cc0__mine_kernel_eq_skeleton]; unfold cc0__mine_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H8]
  · iexists _; isplitr; swap; · iexact H8
    ipureintro
    sl_unfold_words
    refine (read_writes_whole arg8 _ zero2 _ _ _).trans ?_
    unfold newMin
    rw [readAt_whole harg2 zero2, readAt_whole harg3 zero2, readAt_whole harg4 zero2, readAt_whole harg5 zero2, View.readCov_unit_zero (S := S1024x1) _ zero2]
  · iexists _; isplitr; swap; · iexact H9
    ipureintro
    sl_unfold_words
    refine (read_writes_whole arg9 _ zero2 _ _ _).trans ?_
    unfold newMax
    dsimp only
    rw [readAt_whole harg2 zero2, readAt_whole harg3 zero2, readAt_whole harg4 zero2, readAt_whole harg5 zero2, View.readCov_unit_zero (S := S1024x1) _ zero2]

set_option maxHeartbeats 1000000 in
/-- At a point that is neither first nor last in its row: the scratch columns go from what the point before left
    to the fold of this point's blocks into that; the output buffers are left as they were. -/
theorem run0_mid (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬cond0_first i) (hc1 : ¬cond0_last i)
    (x0 x1 : Vec F S1024x256 .bf16) (l2 l3 : Vec F S1x1024 .i32) (xi4 xi5 : Vec F S1x1024 .f32) (xs8 xs9 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare l2 ∗ owns (c : Thread nD τ) arg5 fullShare l3 ∗ owns (c : Thread nD τ) arg6 fullShare xi4 ∗ owns (c : Thread nD τ) arg7 fullShare xi5 ∗ owns (c : Thread nD τ) arg8 fullShare xs8 ∗ owns (c : Thread nD τ) arg9 fullShare xs9
        ∗ (iprop(owns (c : Thread nD τ) arg2 fullShare x0 ∗ owns (c : Thread nD τ) arg3 fullShare x1 ∗ owns (c : Thread nD τ) arg4 fullShare l2 ∗ owns (c : Thread nD τ) arg5 fullShare l3 ∗ owns (c : Thread nD τ) arg6 fullShare xi4 ∗ owns (c : Thread nD τ) arg7 fullShare xi5
            ∗ owns (c : Thread nD τ) arg8 fullShare (newMin x0 x1 l2 l3 xs8) ∗ owns (c : Thread nD τ) arg9 fullShare (newMax x0 x1 l2 l3 xs9)) -∗ K ⟨⟩))
      ⊢ wp frame (wpE (defs₀ (F := F)) Variants.none c none) E (cc0__mine_kernel i arg2 harg2 arg3 harg3 arg4 harg4 arg5 harg5 arg6 harg6 arg7 harg7 arg8 harg8 arg9 harg9) K := by
  simp only [cc0__mine_kernel_eq_skeleton]; unfold cc0__mine_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg8.eq_unread hf8; obtain rfl := harg9.eq_unread hf9
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H8]
  · iexists _; isplitr; swap; · iexact H8
    ipureintro
    refine (read_writes_whole arg8 _ zero2 _ _ _).trans ?_
    unfold newMin
    rw [readAt_whole harg2 zero2, readAt_whole harg3 zero2, readAt_whole harg4 zero2, readAt_whole harg5 zero2, readAt_whole harg8 zero2]
  · iexists _; isplitr; swap; · iexact H9
    ipureintro
    refine (read_writes_whole arg9 _ zero2 _ _ _).trans ?_
    unfold newMax
    dsimp only
    rw [readAt_whole harg2 zero2, readAt_whole harg3 zero2, readAt_whole harg4 zero2, readAt_whole harg5 zero2, readAt_whole harg9 zero2]

set_option maxHeartbeats 1000000 in
/-- At the last point of a row of the grid: the scratch columns are folded as at any later point, and the two
    output buffers, whatever they held, end at the transposed columns. -/
theorem run0_last (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬cond0_first i) (hc1 : cond0_last i)
    (x0 x1 : Vec F S1024x256 .bf16) (l2 l3 : Vec F S1x1024 .i32) (xs8 xs9 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare l2 ∗ owns (c : Thread nD τ) arg5 fullShare l3 ∗ (∃ d, owns (c : Thread nD τ) arg6 fullShare d) ∗ (∃ d, owns (c : Thread nD τ) arg7 fullShare d) ∗ owns (c : Thread nD τ) arg8 fullShare xs8 ∗ owns (c : Thread nD τ) arg9 fullShare xs9
        ∗ (iprop(owns (c : Thread nD τ) arg2 fullShare x0 ∗ owns (c : Thread nD τ) arg3 fullShare x1 ∗ owns (c : Thread nD τ) arg4 fullShare l2 ∗ owns (c : Thread nD τ) arg5 fullShare l3 ∗ owns (c : Thread nD τ) arg6 fullShare (k0_pay2 (newMin x0 x1 l2 l3 xs8)) ∗ owns (c : Thread nD τ) arg7 fullShare (k0_pay3 (newMax x0 x1 l2 l3 xs9))
            ∗ owns (c : Thread nD τ) arg8 fullShare (newMin x0 x1 l2 l3 xs8) ∗ owns (c : Thread nD τ) arg9 fullShare (newMax x0 x1 l2 l3 xs9)) -∗ K ⟨⟩))
      ⊢ wp frame (wpE (defs₀ (F := F)) Variants.none c none) E (cc0__mine_kernel i arg2 harg2 arg3 harg3 arg4 harg4 arg5 harg5 arg6 harg6 arg7 harg7 arg8 harg8 arg9 harg9) K := by
  simp only [cc0__mine_kernel_eq_skeleton]; unfold cc0__mine_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg8.eq_unread hf8; obtain rfl := harg9.eq_unread hf9
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    sl_unfold_words
    refine (read_writes_whole arg6 _ zero2 _ _ _).trans ?_
    unfold newMin
    rw [View.readCov_unit_zero (S := S1024x1) _ zero2, readAt_whole harg2 zero2, readAt_whole harg3 zero2, readAt_whole harg4 zero2, readAt_whole harg5 zero2, readAt_whole harg8 zero2]
  isplitl [H5]
  · iexists _; isplitr; swap; · iexact H5
    ipureintro
    sl_unfold_words
    refine (read_writes_whole arg7 _ zero2 _ _ _).trans ?_
    unfold newMax
    rw [View.readCov_unit_zero (S := S1024x1) _ zero2]
    dsimp only
    rw [readAt_whole harg2 zero2, readAt_whole harg3 zero2, readAt_whole harg4 zero2, readAt_whole harg5 zero2, readAt_whole harg9 zero2]
  isplitl [H8]
  · iexists _; isplitr; swap; · iexact H8
    ipureintro
    sl_unfold_words
    refine (read_writes_whole arg8 _ zero2 _ _ _).trans ?_
    unfold newMin
    rw [readAt_whole harg2 zero2, readAt_whole harg3 zero2, readAt_whole harg4 zero2, readAt_whole harg5 zero2, readAt_whole harg8 zero2]
  · iexists _; isplitr; swap; · iexact H9
    ipureintro
    sl_unfold_words
    refine (read_writes_whole arg9 _ zero2 _ _ _).trans ?_
    unfold newMax
    dsimp only
    rw [readAt_whole harg2 zero2, readAt_whole harg3 zero2, readAt_whole harg4 zero2, readAt_whole harg5 zero2, readAt_whole harg9 zero2]

end Cert.Kernel.Frm

end
-- ==== Proof.Kernel.Data0.lean ====
import proofs.«163277_j61710090109327_1_alg».proof.Proof.Gen.Kernel.Launch
import proofs.«163277_j61710090109327_1_alg».proof.Proof.Gen.Kernel.Skeleton
import proofs.«163277_j61710090109327_1_alg».proof.Proof.Gen.Kernel.Points
import proofs.«163277_j61710090109327_1_alg».proof.Proof.Kernel.Runs0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The mining region: what its buffers hold point by point, and the body's obligation

The region is entered with the core's buffers at a valuation `V`. Its four input windows read two arrays (the
scaled rows twice, the labels twice); its two output windows are written back once per row of the grid, at the
row's last point. The running minimum and maximum live in two scratch columns carried from point to point. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The four blocks a point reads, at their literal types: the block of rows, the block of columns (rows again),
    the rows' labels, the columns' labels. -/
abbrev xq (c : Dev nD) (t : Fin cfg0.N) : Vec F S1024x256 .bf16 := iblk0 V c 0 t
abbrev xk (c : Dev nD) (t : Fin cfg0.N) : Vec F S1024x256 .bf16 := iblk0 V c 1 t
abbrev lq (c : Dev nD) (t : Fin cfg0.N) : Vec F S1x1024 .i32 := iblk0 V c 2 t
abbrev lk (c : Dev nD) (t : Fin cfg0.N) : Vec F S1x1024 .i32 := iblk0 V c 3 t

/-! ## The grid's closed forms -/

/-- The reset is taken at the points ≡ 0 (mod 8). -/
theorem hcond0_first : ∀ t : Fin cfg0.N, cond0_first (grid0.coords t) ↔ t.val % 8 = 0 :=
  (by decide +kernel : ∀ t : Fin grid0.N, cond0_first (grid0.coords t) ↔ t.val % 8 = 0)
/-- The write-out is taken at the points ≡ 7 (mod 8). -/
theorem hcond0_last : ∀ t : Fin cfg0.N, cond0_last (grid0.coords t) ↔ t.val % 8 = 7 :=
  (by decide +kernel : ∀ t : Fin grid0.N, cond0_last (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from a row's last point the outputs are idle and not written back; at it they are live. -/
theorem idleAt0_4 : ∀ t : Fin cfg0.N, ¬cond0_last (grid0.coords t) → cfg0.idle 4 (grid0.coords t) = true := by decide +kernel
theorem noFlush0_4 : ∀ t : Fin cfg0.N, ¬cond0_last (grid0.coords t) → (cfg0.win 4).flush t = false := by decide +kernel
theorem liveAt0_4 : ∀ t : Fin cfg0.N, cond0_last (grid0.coords t) → cfg0.idle 4 (grid0.coords t) = false := by decide +kernel
theorem idleAt0_5 : ∀ t : Fin cfg0.N, ¬cond0_last (grid0.coords t) → cfg0.idle 5 (grid0.coords t) = true := by decide +kernel
theorem noFlush0_5 : ∀ t : Fin cfg0.N, ¬cond0_last (grid0.coords t) → (cfg0.win 5).flush t = false := by decide +kernel
theorem liveAt0_5 : ∀ t : Fin cfg0.N, cond0_last (grid0.coords t) → cfg0.idle 5 (grid0.coords t) = false := by decide +kernel

/-! ## The staging and scratch memrefs -/

abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
/-- The two scratch columns. -/
abbrev scM0_0 : Memref sig .tc .vmem S1024x1 .f32 := Memref.whole cc0_scratch0
abbrev scM0_1 : Memref sig .tc .vmem S1024x1 .f32 := Memref.whole cc0_scratch1

/-- The core's scoped buffers this region neither stages through nor names, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_scratch0), ((c : Thread nD τ).loc cc1_scratch0) ↦{fullShare} f))

/-- The region's entry invariant, with the two scratch columns as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

/-! ## The running columns -/

/-- What the two scratch columns hold after the body at position `n`: at the first point of a row of the grid the
    fold of that point's blocks into the reset values, afterwards the fold into what the point before left. -/
def acc0 (c : Dev nD) : (n : ℕ) → n < cfg0.N → Vec F S1024x1 .f32 × Vec F S1024x1 .f32
  | 0, hn => (newMin (xq V c ⟨0, hn⟩) (xk V c ⟨0, hn⟩) (lq V c ⟨0, hn⟩) (lk V c ⟨0, hn⟩) (k0_pay4 (F := F)),
      newMax (xq V c ⟨0, hn⟩) (xk V c ⟨0, hn⟩) (lq V c ⟨0, hn⟩) (lk V c ⟨0, hn⟩) (k0_pay5 (F := F)))
  | n + 1, hn =>
    if (n + 1) % 8 = 0 then
      (newMin (xq V c ⟨n + 1, hn⟩) (xk V c ⟨n + 1, hn⟩) (lq V c ⟨n + 1, hn⟩) (lk V c ⟨n + 1, hn⟩) (k0_pay4 (F := F)),
        newMax (xq V c ⟨n + 1, hn⟩) (xk V c ⟨n + 1, hn⟩) (lq V c ⟨n + 1, hn⟩) (lk V c ⟨n + 1, hn⟩) (k0_pay5 (F := F)))
    else
      (newMin (xq V c ⟨n + 1, hn⟩) (xk V c ⟨n + 1, hn⟩) (lq V c ⟨n + 1, hn⟩) (lk V c ⟨n + 1, hn⟩) (acc0 c n (Nat.lt_of_succ_lt hn)).1,
        newMax (xq V c ⟨n + 1, hn⟩) (xk V c ⟨n + 1, hn⟩) (lq V c ⟨n + 1, hn⟩) (lk V c ⟨n + 1, hn⟩) (acc0 c n (Nat.lt_of_succ_lt hn)).2)

/-- At a row's first point. -/
theorem acc0_first (c : Dev nD) (t : Fin cfg0.N) (h : t.val % 8 = 0) :
    acc0 V c t.val t.isLt = (newMin (xq V c t) (xk V c t) (lq V c t) (lk V c t) (k0_pay4 (F := F)),
      newMax (xq V c t) (xk V c t) (lq V c t) (lk V c t) (k0_pay5 (F := F))) := by
  obtain ⟨n, hn⟩ := t
  cases n with
  | zero => rfl
  | succ n => exact (if_pos h).trans rfl

/-- At a later point of a row. -/
theorem acc0_later (c : Dev nD) (t : Fin cfg0.N) (h : ¬t.val % 8 = 0) :
    acc0 V c t.val t.isLt = (newMin (xq V c t) (xk V c t) (lq V c t) (lk V c t) (acc0 V c (t.val - 1) (Nat.lt_of_le_of_lt (Nat.sub_le _ _) t.isLt)).1,
      newMax (xq V c t) (xk V c t) (lq V c t) (lk V c t) (acc0 V c (t.val - 1) (Nat.lt_of_le_of_lt (Nat.sub_le _ _) t.isLt)).2) := by
  obtain ⟨n, hn⟩ := t
  cases n with
  | zero => exact absurd (Nat.zero_mod _) h
  | succ n => exact (if_neg h).trans rfl

/-- The region invariant before position `n`: at the start the core's scoped buffers at anything; afterwards the
    two scratch columns at what the point before left, the other scoped buffers at anything. -/
def Phi0 (c : Dev nD) : (n : ℕ) → n ≤ cfg0.N → sProp 𝕄
  | 0, _ => Pipeline.ΦA spec0 c
  | n + 1, hn => iprop(iprop(owns (c : Thread nD τ) scM0_0 fullShare (acc0 V c n hn).1 ∗ owns (c : Thread nD τ) scM0_1 fullShare (acc0 V c n hn).2 ∗ rest0 c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(owns (c : Thread nD τ) scM0_0 fullShare (acc0 V c n hn).1 ∗ owns (c : Thread nD τ) scM0_1 fullShare (acc0 V c n hn).2 ∗ rest0 c) ∗ (∃ r, prngReg c r)) := rfl

theorem Phi0_pos (c : Dev nD) (n : ℕ) (h : n ≤ cfg0.N) (hz : n ≠ 0) :
    Phi0 V c n h = iprop(iprop(owns (c : Thread nD τ) scM0_0 fullShare (acc0 V c (n - 1) (by omega)).1 ∗ owns (c : Thread nD τ) scM0_1 fullShare (acc0 V c (n - 1) (by omega)).2 ∗ rest0 c) ∗ (∃ r, prngReg c r)) := by
  cases n with
  | zero => exact absurd rfl hz
  | succ n => rfl

/-! ## The proof data -/

/-- The region's proof data on core `c`: the arrays as the region finds them; after the body each input's buffer
    at its block and each output's at the transposed running column; the invariant above; the two arrays read
    through two windows each held half and half; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay2 (acc0 V c t.val t.isLt).1
    | ⟨5, _⟩ => k0_pay3 (acc0 V c t.val t.isLt).2
  Φ t := Phi0 V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay2 (acc0 V c t.val t.isLt).1 := by dsimp only [dat0]
theorem after0_5 (c : Dev nD) (t : Fin cfg0.N) : (dat0 V c).after 5 t = k0_pay3 (acc0 V c t.val t.isLt).2 := by dsimp only [dat0]

/-- Each input's current staging buffer holds its block at every point, fetched there or not: where it is not
    fetched its block index has not moved. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

end Cert.Kernel.Frm

end
-- ==== Proof.Kernel.Body0.lean ====
import proofs.«163277_j61710090109327_1_alg».proof.Proof.Gen.Kernel.Launch
import proofs.«163277_j61710090109327_1_alg».proof.Proof.Gen.Kernel.Skeleton
import proofs.«163277_j61710090109327_1_alg».proof.Proof.Gen.Kernel.Points
import proofs.«163277_j61710090109327_1_alg».proof.Proof.Kernel.Data0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The mining region: the body's obligation at every point -/

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem leaves0_0 (c : Dev nD) (t : Fin cfg0.N) :
    (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) :
    (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) :
    (dat0 V c).leavesExact 3 t = owns (c : Thread nD τ) (ms0_3 t) fullShare (iblk0 V c 3 t) := by
  unfold Dat.leavesExact; rw [liveAt0_3 t, after0_3]

set_option maxHeartbeats 4000000 in
/-- The body at any point. The inputs' buffers hold their blocks; the closed forms say which of the three cases
    the point is in; the invariant hands the body the two scratch columns at what the point before left (at
    anything at the very first point, and the reset does not look), and takes them back at this point's fold;
    away from a row's last point the outputs' buffers are handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = Phi0 V c (t.val + 1) t.isLt from rfl, Phi0_succ]
  rw [leaves0_0, leaves0_1, leaves0_2, leaves0_3]
  have hN : t.val < 64 := lt_of_lt_of_eq t.isLt (show cfg0.N = 64 from N_0)
  by_cases h0 : t.val % 8 = 0
  · have hl : ¬cond0_last (grid0.coords t) := fun h => by have := (hcond0_last t).mp h; omega
    have hf : cond0_first (grid0.coords t) := (hcond0_first t).mpr h0
    rw [Dat.leavesExact_idle (dat0 V c) 4 t (idleAt0_4 t hl) (noFlush0_4 t hl),
      Dat.leavesExact_idle (dat0 V c) 5 t (idleAt0_5 t hl) (noFlush0_5 t hl)]
    rw [acc0_first V c t h0]
    dsimp only
    by_cases hz : t.val = 0
    · rw [Phi0_castSucc V c t, Phi0_zero V c _ _ hz, PhiA0_eq]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply (run0_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hf hl
        (xq V c t) (xk V c t) (lq V c t) (lk V c t) ((dat0 V c).before 4 t d4) ((dat0 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 HR Hg]
      · isplitr [Hg]
        · isplitl [HS0]; · iexact HS0
          isplitl [HS1]; · iexact HS1
          iexact HR
        · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [Phi0_castSucc V c t, Phi0_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply (run0_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hf hl
        (xq V c t) (xk V c t) (lq V c t) (lk V c t) ((dat0 V c).before 4 t d4) ((dat0 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, HS0, HS1⟩
      isplitl [HS0 HS1 HR Hg]
      · isplitr [Hg]
        · isplitl [HS0]; · iexact HS0
          isplitl [HS1]; · iexact HS1
          iexact HR
        · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hf : ¬cond0_first (grid0.coords t) := fun h => h0 ((hcond0_first t).mp h)
    have hz : t.val ≠ 0 := fun e => h0 (by rw [e])
    rw [acc0_later V c t h0]
    dsimp only
    rw [Phi0_castSucc V c t, Phi0_pos V c _ _ hz]
    by_cases h1 : t.val % 8 = 7
    · have hl : cond0_last (grid0.coords t) := (hcond0_last t).mpr h1
      rw [show (dat0 V c).leavesExact 4 t = owns (c : Thread nD τ) (ms0_4 t) fullShare ((dat0 V c).after 4 t) from by
        unfold Dat.leavesExact; rw [liveAt0_4 t hl], after0_4]
      rw [show (dat0 V c).leavesExact 5 t = owns (c : Thread nD τ) (ms0_5 t) fullShare ((dat0 V c).after 5 t) from by
        unfold Dat.leavesExact; rw [liveAt0_5 t hl], after0_5]
      rw [acc0_later V c t h0]
      dsimp only
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply (run0_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hf hl
        (xq V c t) (xk V c t) (lq V c t) (lk V c t) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 HR Hg]
      · isplitr [Hg]
        · isplitl [HS0]; · iexact HS0
          isplitl [HS1]; · iexact HS1
          iexact HR
        · iexact Hg
      isplitl [Ho]; · iexact Ho
      isplitl [H0]; · iexact H0
      isplitl [H1]; · iexact H1
      isplitl [H2]; · iexact H2
      isplitl [H3]; · iexact H3
      isplitl [H4]; · iexact H4
      iexact H5
    · have hl : ¬cond0_last (grid0.coords t) := fun h => h1 ((hcond0_last t).mp h)
      rw [Dat.leavesExact_idle (dat0 V c) 4 t (idleAt0_4 t hl) (noFlush0_4 t hl),
        Dat.leavesExact_idle (dat0 V c) 5 t (idleAt0_5 t hl) (noFlush0_5 t hl)]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply (run0_mid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hf hl
        (xq V c t) (xk V c t) (lq V c t) (lk V c t) ((dat0 V c).before 4 t d4) ((dat0 V c).before 5 t d5) _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 HR Hg]
      · isplitr [Hg]
        · isplitl [HS0]; · iexact HS0
          isplitl [HS1]; · iexact HS1
          iexact HR
        · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives the scoped buffers back: the scratch columns' contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = Phi0 V c (Fin.last cfg0.N).val (Nat.le_of_lt_succ (Fin.last cfg0.N).isLt) from rfl,
    Phi0_pos V c _ _ ht, PhiA0_eq]
  iintro ⟨⟨HS0, HS1, HR⟩, Hg⟩
  isplitr [Hg]
  · isplitl [HS0]; · iexists _; iexact HS0
    isplitl [HS1]; · iexists _; iexact HS1
    iexact HR
  · iexact Hg

end Cert.Kernel.Frm

end
-- ==== Proof.Kernel.Runs1.lean ====
import proofs.«163277_j61710090109327_1_alg».proof.Proof.Gen.Kernel.Launch
import proofs.«163277_j61710090109327_1_alg».proof.Proof.Gen.Kernel.Skeleton
import proofs.«163277_j61710090109327_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The finishing kernel at one grid point

The kernel keeps a running sum of the rows' losses in a one-entry scratch buffer: reset at the first point,
increased by the sum over the current block of rows at every point, and copied to the output at the last. -/

/-- The body resets its running sum: the grid's coordinate is zero. -/
abbrev cond1_first (i : grid1.Coords) : Prop :=
  (Scalar.cmpi .ne (Scalar.extui (Scalar.cmpi .eq (BitVec.ofNat 32 (i 0).val) 0#32)) 0#32) = 1#1
/-- The body copies its running sum out: the grid's coordinate is the last. -/
abbrev cond1_last (i : grid1.Coords) : Prop := k1_cond2 i = 1#1

/-- The running sum after a point, from the three blocks the point reads and the sum it started from. -/
def newSum (x0 : Vec F S1024x256 .f32) (a1 a2 : Vec F S1x1024 .f32) (s : Vec F S1x1 .f32) : Vec F S1x1 .f32 := k1_pay1 (k1_pay3 a1 a2 x0 x0 s)

/-- The zero offsets of a whole-buffer access, however spelt. -/
theorem run1_hz : (![0, 0] : Fin 2 → Nat) = fun _ => 0 := funext fun a => by fin_cases a <;> rfl

set_option maxHeartbeats 1000000 in
/-- At the first point: whatever the scratch held, it ends at this block's sum added to the reset value; the
    output buffer is left as it was. -/
theorem run1_first (c : Dev nD) (i : grid1.Coords) (arg1 : Memref sig .tc .vmem S1024x256 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : cond1_first i) (hc1 : ¬cond1_last i)
    (x0 : Vec F S1024x256 .f32) (a1 a2 : Vec F S1x1024 .f32) (xi3 : Vec F S1x1 .f32) (E : Set ℕ) (K : PUnit → sProp 𝕄) :
    iprop(owns (c : Thread nD τ) arg1 fullShare x0 ∗ owns (c : Thread nD τ) arg2 fullShare a1 ∗ owns (c : Thread nD τ) arg3 fullShare a2 ∗ owns (c : Thread nD τ) arg4 fullShare xi3 ∗ (∃ d, owns (c : Thread nD τ) arg5 fullShare d)
        ∗ (iprop(owns (c : Thread nD τ) arg1 fullShare x0 ∗ owns (c : Thread nD τ) arg2 fullShare a1 ∗ owns (c : Thread nD τ) arg3 fullShare a2 ∗ owns (c : Thread nD τ) arg4 fullShare xi3 ∗ owns (c : Thread nD τ) arg5 fullShare (newSum x0 a1 a2 (k1_pay2 (F := F)))) -∗ K ⟨⟩))
      ⊢ wp frame (wpE (defs₀ (F := F)) Variants.none c none) E (cc1__finalize_kernel i arg1 harg1 arg2 harg2 arg3 harg3 arg4 harg4 arg5 harg5) K := by
  simp only [cc1__finalize_kernel_eq_skeleton]; unfold cc1__finalize_kernel_skel
  simp only [k1_part1_eq_skeleton]
  unfold owns
  iintro ⟨⟨%f1, %hf1, H1⟩, ⟨%f2, %hf2, H2⟩, ⟨%f3, %hf3, H3⟩, ⟨%f4, %hf4, H4⟩, ⟨%d5, %f5, -, H5⟩, Hk⟩
  obtain rfl := harg1.eq_unread hf1; obtain rfl := harg2.eq_unread hf2; obtain rfl := harg3.eq_unread hf3
  obtain rfl := harg4.eq_unread hf4
  -- run the body's loads and stores, each branch decided by the case's two facts
  sl_exec (disch := first | exact hc0 | exact hc1)
  sl_step
  iapply Hk
  -- the buffers only read are handed back at their contents
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  -- the last store into the running sum covers it, so it reads as that store's payload
  rw [View.read_writes_eq_canon _ _ _ (fun y => ⟨_, List.mem_cons_self .., View.mem_set_unit_zero run1_hz inb_S1x1_S1x1_0_0 y⟩)]
  sl_unfold_words
  rw [View.canon_cons_unit_zero (S := S1x1) run1_hz]
  unfold newSum
  simp only [View.readAt_eq_ld, harg1.read_unread, harg2.read_unread, harg3.read_unread, harg4.read_unread, harg5.read_unread, View.ld_unit_zero (S := S1x1024) run1_hz, View.ld_unit_zero (S := S1024x256) run1_hz, View.ld_unit_zero (S := S1x1) run1_hz, View.readCov_unit_zero (S := S1x1) _ run1_hz]

set_option maxHeartbeats 1000000 in
/-- At a point that is neither first nor last: the scratch goes from what the point before left to that plus
    this block's sum; the output buffer is left as it was. -/
theorem run1_mid (c : Dev nD) (i : grid1.Coords) (arg1 : Memref sig .tc .vmem S1024x256 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : ¬cond1_first i) (hc1 : ¬cond1_last i)
    (x0 : Vec F S1024x256 .f32) (a1 a2 : Vec F S1x1024 .f32) (xi3 : Vec F S1x1 .f32) (xs : Vec F S1x1 .f32) (E : Set ℕ) (K : PUnit → sProp 𝕄) :
    iprop(owns (c : Thread nD τ) arg1 fullShare x0 ∗ owns (c : Thread nD τ) arg2 fullShare a1 ∗ owns (c : Thread nD τ) arg3 fullShare a2 ∗ owns (c : Thread nD τ) arg4 fullShare xi3 ∗ owns (c : Thread nD τ) arg5 fullShare xs
        ∗ (iprop(owns (c : Thread nD τ) arg1 fullShare x0 ∗ owns (c : Thread nD τ) arg2 fullShare a1 ∗ owns (c : Thread nD τ) arg3 fullShare a2 ∗ owns (c : Thread nD τ) arg4 fullShare xi3 ∗ owns (c : Thread nD τ) arg5 fullShare (newSum x0 a1 a2 xs)) -∗ K ⟨⟩))
      ⊢ wp frame (wpE (defs₀ (F := F)) Variants.none c none) E (cc1__finalize_kernel i arg1 harg1 arg2 harg2 arg3 harg3 arg4 harg4 arg5 harg5) K := by
  simp only [cc1__finalize_kernel_eq_skeleton]; unfold cc1__finalize_kernel_skel
  simp only [k1_part1_eq_skeleton]
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  -- run the body's loads and stores, each branch decided by the case's two facts
  sl_exec (disch := first | exact hc0 | exact hc1)
  sl_step
  iapply Hk
  -- the buffers only read are handed back at their contents
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  -- the last store into the running sum covers it, so it reads as that store's payload
  rw [View.read_writes_eq_canon _ _ _ (fun y => ⟨_, List.mem_singleton_self _, View.mem_set_unit_zero run1_hz inb_S1x1_S1x1_0_0 y⟩)]
  sl_unfold_words
  rw [View.canon_unit_zero run1_hz]
  unfold newSum
  simp only [View.readAt_eq_ld, harg1.read_unread, harg2.read_unread, harg3.read_unread, harg4.read_unread, harg5.read_unread, View.ld_unit_zero (S := S1x1024) run1_hz, View.ld_unit_zero (S := S1024x256) run1_hz, View.ld_unit_zero (S := S1x1) run1_hz]

set_option maxHeartbeats 1000000 in
/-- At the last point: the scratch is increased as at any later point, and the output buffer, whatever it held,
    ends at the scratch's new contents. -/
theorem run1_last (c : Dev nD) (i : grid1.Coords) (arg1 : Memref sig .tc .vmem S1024x256 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : ¬cond1_first i) (hc1 : cond1_last i)
    (x0 : Vec F S1024x256 .f32) (a1 a2 : Vec F S1x1024 .f32) (xs : Vec F S1x1 .f32) (E : Set ℕ) (K : PUnit → sProp 𝕄) :
    iprop(owns (c : Thread nD τ) arg1 fullShare x0 ∗ owns (c : Thread nD τ) arg2 fullShare a1 ∗ owns (c : Thread nD τ) arg3 fullShare a2 ∗ (∃ d, owns (c : Thread nD τ) arg4 fullShare d) ∗ owns (c : Thread nD τ) arg5 fullShare xs
        ∗ (iprop(owns (c : Thread nD τ) arg1 fullShare x0 ∗ owns (c : Thread nD τ) arg2 fullShare a1 ∗ owns (c : Thread nD τ) arg3 fullShare a2 ∗ owns (c : Thread nD τ) arg4 fullShare (newSum x0 a1 a2 xs) ∗ owns (c : Thread nD τ) arg5 fullShare (newSum x0 a1 a2 xs)) -∗ K ⟨⟩))
      ⊢ wp frame (wpE (defs₀ (F := F)) Variants.none c none) E (cc1__finalize_kernel i arg1 harg1 arg2 harg2 arg3 harg3 arg4 harg4 arg5 harg5) K := by
  simp only [cc1__finalize_kernel_eq_skeleton]; unfold cc1__finalize_kernel_skel
  simp only [k1_part1_eq_skeleton]
  unfold owns
  iintro ⟨⟨%f1, %hf1, H1⟩, ⟨%f2, %hf2, H2⟩, ⟨%f3, %hf3, H3⟩, ⟨%d4, %f4, -, H4⟩, ⟨%f5, %hf5, H5⟩, Hk⟩
  obtain rfl := harg1.eq_unread hf1; obtain rfl := harg2.eq_unread hf2; obtain rfl := harg3.eq_unread hf3
  obtain rfl := harg5.eq_unread hf5
  -- run the body's loads and stores, each branch decided by the case's two facts
  sl_exec (disch := first | exact hc0 | exact hc1)
  sl_step
  iapply Hk
  -- the buffers only read are handed back at their contents
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    -- the output's one store covers it with what the running sum was just read to hold
    sl_unfold_words
    rw [View.read_writes_eq_canon _ _ _ (fun y => ⟨_, List.mem_singleton_self _, View.mem_set_unit_zero run1_hz inb_S1x1_S1x1_0_0 y⟩)]
    rw [View.canon_unit_zero run1_hz]
    unfold newSum
    simp only [View.readAt_eq_ld, harg1.read_unread, harg2.read_unread, harg3.read_unread, harg4.read_unread, harg5.read_unread, View.ld_unit_zero (S := S1x1024) run1_hz, View.ld_unit_zero (S := S1024x256) run1_hz, View.ld_unit_zero (S := S1x1) run1_hz, View.readCov_unit_zero (S := S1x1) _ run1_hz]
  iexists _; isplitr
  swap; · iexact H5
  ipureintro
  -- the last store into the running sum covers it, so it reads as that store's payload
  sl_unfold_words
  rw [View.read_writes_eq_canon _ _ _ (fun y => ⟨_, List.mem_singleton_self _, View.mem_set_unit_zero run1_hz inb_S1x1_S1x1_0_0 y⟩)]
  rw [View.canon_unit_zero run1_hz]
  unfold newSum
  simp only [View.readAt_eq_ld, harg1.read_unread, harg2.read_unread, harg3.read_unread, harg4.read_unread, harg5.read_unread, View.ld_unit_zero (S := S1x1024) run1_hz, View.ld_unit_zero (S := S1024x256) run1_hz, View.ld_unit_zero (S := S1x1) run1_hz]

end Cert.Kernel.Frm

end
-- ==== Proof.Kernel.Data1.lean ====
import proofs.«163277_j61710090109327_1_alg».proof.Proof.Gen.Kernel.Launch
import proofs.«163277_j61710090109327_1_alg».proof.Proof.Gen.Kernel.Skeleton
import proofs.«163277_j61710090109327_1_alg».proof.Proof.Gen.Kernel.Points
import proofs.«163277_j61710090109327_1_alg».proof.Proof.Kernel.Runs1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The finishing region: what its buffers hold point by point

The region is entered with the core's buffers at a valuation `V`. Its three input windows read the inputs' rows
and the two mined columns; its one output window, a single entry, is written back after the last point. The
running sum lives in a one-entry scratch buffer carried from point to point. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three blocks a point reads, at their literal types: the block of rows and the two mined values per row. -/
abbrev xr (c : Dev nD) (t : Fin cfg1.N) : Vec F S1024x256 .f32 := iblk1 V c 0 t
abbrev apr (c : Dev nD) (t : Fin cfg1.N) : Vec F S1x1024 .f32 := iblk1 V c 1 t
abbrev anr (c : Dev nD) (t : Fin cfg1.N) : Vec F S1x1024 .f32 := iblk1 V c 2 t

/-! ## The grid's closed forms -/

theorem hcond1_first : ∀ t : Fin cfg1.N, cond1_first (grid1.coords t) ↔ t.val = 0 :=
  (by decide +kernel : ∀ t : Fin grid1.N, cond1_first (grid1.coords t) ↔ t.val = 0)
theorem hcond1_last : ∀ t : Fin cfg1.N, cond1_last (grid1.coords t) ↔ t.val = 7 :=
  (by decide +kernel : ∀ t : Fin grid1.N, cond1_last (grid1.coords t) ↔ t.val = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_last (grid1.coords t) → cfg1.idle 3 (grid1.coords t) = true := by decide +kernel
theorem noFlush1_3 : ∀ t : Fin cfg1.N, ¬cond1_last (grid1.coords t) → (cfg1.win 3).flush t = false := by decide +kernel
theorem liveAt1_3 : ∀ t : Fin cfg1.N, cond1_last (grid1.coords t) → cfg1.idle 3 (grid1.coords t) = false := by decide +kernel

/-! ## The staging and scratch memrefs -/

abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
/-- The scratch entry. -/
abbrev scM1_0 : Memref sig .tc .vmem S1x1 .f32 := Memref.whole cc1_scratch0

/-- The core's scoped buffers this region neither stages through nor names, each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The same buffers beside one more resource, in the order the core lists its scoped buffers (the scratch entry is
    the last of them). -/
def rest1With (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ X)

theorem rest1With_split (c : Dev nD) (X : sProp 𝕄) : rest1With c X ⊢ iprop(rest1 c ∗ X) := by
  unfold rest1With rest1
  iintro ⟨H1, H2, H3, H4, H5, H6, H7, H8, H9, H10, H11, H12, H13, H14, HX⟩
  isplitr [HX]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · iexact HX

theorem rest1With_join (c : Dev nD) (X : sProp 𝕄) : iprop(rest1 c ∗ X) ⊢ rest1With c X := by
  unfold rest1With rest1
  iintro ⟨⟨H1, H2, H3, H4, H5, H6, H7, H8, H9, H10, H11, H12, H13, H14⟩, HX⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact HX

/-- The region's entry invariant, with the scratch entry as a memref owned at some contents. -/
theorem PhiA1_eq (c : Dev nD) :
    (Pipeline.ΦA spec1 c : sProp 𝕄)
      = iprop(rest1With c iprop(∃ d, owns (c : Thread nD τ) scM1_0 fullShare d) ∗ (∃ r, prngReg c r)) := by
  unfold Pipeline.ΦA rest1With; rw [scopedRest1_eq]; simp only [scM1_0, owns_whole]; try rfl

/-! ## The running sum -/

/-- What the scratch entry holds after the body at position `n`: at the first point this block's sum added to
    the reset value, afterwards added to what the point before left. -/
def acc1 (c : Dev nD) : (n : ℕ) → n < cfg1.N → Vec F S1x1 .f32
  | 0, hn => newSum (xr V c ⟨0, hn⟩) (apr V c ⟨0, hn⟩) (anr V c ⟨0, hn⟩) (k1_pay2 (F := F))
  | n + 1, hn => newSum (xr V c ⟨n + 1, hn⟩) (apr V c ⟨n + 1, hn⟩) (anr V c ⟨n + 1, hn⟩) (acc1 c n (Nat.lt_of_succ_lt hn))

theorem acc1_first (c : Dev nD) (t : Fin cfg1.N) (h : t.val = 0) :
    acc1 V c t.val t.isLt = newSum (xr V c t) (apr V c t) (anr V c t) (k1_pay2 (F := F)) := by
  obtain ⟨n, hn⟩ := t
  cases n with
  | zero => rfl
  | succ n => exact absurd h (Nat.succ_ne_zero _)

theorem acc1_later (c : Dev nD) (t : Fin cfg1.N) (h : ¬t.val = 0) :
    acc1 V c t.val t.isLt = newSum (xr V c t) (apr V c t) (anr V c t) (acc1 V c (t.val - 1) (Nat.lt_of_le_of_lt (Nat.sub_le _ _) t.isLt)) := by
  obtain ⟨n, hn⟩ := t
  cases n with
  | zero => exact absurd rfl h
  | succ n => rfl

/-- The region invariant before position `n`: at the start the core's scoped buffers at anything; afterwards the
    scratch entry at what the point before left, the other scoped buffers at anything. -/
def Phi1 (c : Dev nD) : (n : ℕ) → n ≤ cfg1.N → sProp 𝕄
  | 0, _ => Pipeline.ΦA spec1 c
  | n + 1, hn => iprop(rest1With c (owns (c : Thread nD τ) scM1_0 fullShare (acc1 V c n hn)) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(rest1With c (owns (c : Thread nD τ) scM1_0 fullShare (acc1 V c n hn)) ∗ (∃ r, prngReg c r)) := rfl

theorem Phi1_pos (c : Dev nD) (n : ℕ) (h : n ≤ cfg1.N) (hz : n ≠ 0) :
    Phi1 V c n h = iprop(rest1With c (owns (c : Thread nD τ) scM1_0 fullShare (acc1 V c (n - 1) (by omega))) ∗ (∃ r, prngReg c r)) := by
  cases n with
  | zero => exact absurd rfl hz
  | succ n => rfl

/-! ## The proof data -/

/-- The region's proof data on core `c`: the arrays as the region finds them; after the body each input's buffer
    at its block and the output's at the running sum; the invariant above; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => acc1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = acc1 V c t.val t.isLt := by dsimp only [dat1]

/-- Each input's current staging buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

end Cert.Kernel.Frm

end
-- ==== Proof.Kernel.Body1.lean ====
import proofs.«163277_j61710090109327_1_alg».proof.Proof.Gen.Kernel.Launch
import proofs.«163277_j61710090109327_1_alg».proof.Proof.Gen.Kernel.Skeleton
import proofs.«163277_j61710090109327_1_alg».proof.Proof.Gen.Kernel.Points
import proofs.«163277_j61710090109327_1_alg».proof.Proof.Kernel.Data1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The finishing region: the body's obligation at every point -/

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]

set_option maxHeartbeats 4000000 in
/-- The body at any point. The inputs' buffers hold their blocks; the closed forms say which of the three cases
    the point is in; the invariant hands the body the scratch entry at what the point before left (at anything
    at the first point, and the reset does not look), and takes it back at this point's sum; away from the
    last point the output's buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [leaves1_0, leaves1_1, leaves1_2]
  have hN : t.val < 8 := lt_of_lt_of_eq t.isLt (show cfg1.N = 8 from N_1)
  by_cases h0 : t.val = 0
  · have hl : ¬cond1_last (grid1.coords t) := fun h => by have := (hcond1_last t).mp h; omega
    have hf : cond1_first (grid1.coords t) := (hcond1_first t).mpr h0
    rw [Dat.leavesExact_idle (dat1 V c) 3 t (idleAt1_3 t hl) (noFlush1_3 t hl)]
    rw [acc1_first V c t h0]
    rw [Phi1_castSucc V c t, Phi1_zero V c _ _ h0, PhiA1_eq]
    iintro ⟨⟨HRS, Hg⟩, Ho, ⟨%d0, H0⟩, ⟨%d1, H1⟩, ⟨%d2, H2⟩, ⟨%d3, H3⟩⟩
    ihave HRS' := (rest1With_split c _) $$ HRS
    icases HRS' with ⟨HR, HS⟩
    iapply (run1_first c (grid1.coords t) (ms1_0 t) (hs1_0 t) (ms1_1 t) (hs1_1 t) (ms1_2 t) (hs1_2 t) (ms1_3 t) (hs1_3 t) scM1_0 (Memref.isWhole_whole _) hf hl
      (xr V c t) (apr V c t) (anr V c t) ((dat1 V c).before 3 t d3) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitr [Hg]
      · iapply (rest1With_join c _)
        isplitl [HR]; · iexact HR
        iexact HS
      · iexact Hg
    isplitl [Ho]; · iexact Ho
    isplitl [H0]; · iexact H0
    isplitl [H1]; · iexact H1
    isplitl [H2]; · iexact H2
    iexists _; iexact H3
  · have hf : ¬cond1_first (grid1.coords t) := fun h => h0 ((hcond1_first t).mp h)
    rw [acc1_later V c t h0]
    rw [Phi1_castSucc V c t, Phi1_pos V c _ _ h0]
    by_cases h1 : t.val = 7
    · have hl : cond1_last (grid1.coords t) := (hcond1_last t).mpr h1
      rw [show (dat1 V c).leavesExact 3 t = owns (c : Thread nD τ) (ms1_3 t) fullShare ((dat1 V c).after 3 t) from by
        unfold Dat.leavesExact; rw [liveAt1_3 t hl], after1_3]
      rw [acc1_later V c t h0]
      iintro ⟨⟨HRS, Hg⟩, Ho, ⟨%d0, H0⟩, ⟨%d1, H1⟩, ⟨%d2, H2⟩, ⟨%d3, H3⟩⟩
      ihave HRS' := (rest1With_split c _) $$ HRS
      icases HRS' with ⟨HR, HS⟩
      iapply (run1_last c (grid1.coords t) (ms1_0 t) (hs1_0 t) (ms1_1 t) (hs1_1 t) (ms1_2 t) (hs1_2 t) (ms1_3 t) (hs1_3 t) scM1_0 (Memref.isWhole_whole _) hf hl
        (xr V c t) (apr V c t) (anr V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitr [Hg]
        · iapply (rest1With_join c _)
          isplitl [HR]; · iexact HR
          iexact HS
        · iexact Hg
      isplitl [Ho]; · iexact Ho
      isplitl [H0]; · iexact H0
      isplitl [H1]; · iexact H1
      isplitl [H2]; · iexact H2
      iexact H3
    · have hl : ¬cond1_last (grid1.coords t) := fun h => h1 ((hcond1_last t).mp h)
      rw [Dat.leavesExact_idle (dat1 V c) 3 t (idleAt1_3 t hl) (noFlush1_3 t hl)]
      iintro ⟨⟨HRS, Hg⟩, Ho, ⟨%d0, H0⟩, ⟨%d1, H1⟩, ⟨%d2, H2⟩, ⟨%d3, H3⟩⟩
      ihave HRS' := (rest1With_split c _) $$ HRS
      icases HRS' with ⟨HR, HS⟩
      iapply (run1_mid c (grid1.coords t) (ms1_0 t) (hs1_0 t) (ms1_1 t) (hs1_1 t) (ms1_2 t) (hs1_2 t) (ms1_3 t) (hs1_3 t) scM1_0 (Memref.isWhole_whole _) hf hl
        (xr V c t) (apr V c t) (anr V c t) ((dat1 V c).before 3 t d3) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitr [Hg]
        · iapply (rest1With_join c _)
          isplitl [HR]; · iexact HR
          iexact HS
        · iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the scoped buffers back: the scratch entry's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 8 := N_1; omega
  rw [show (dat1 V c).Φ (Fin.last cfg1.N) = Phi1 V c (Fin.last cfg1.N).val (Nat.le_of_lt_succ (Fin.last cfg1.N).isLt) from rfl,
    Phi1_pos V c _ _ ht, PhiA1_eq]
  iintro ⟨HRS, Hg⟩
  isplitr [Hg]
  · ihave HRS' := (rest1With_split c _) $$ HRS
    icases HRS' with ⟨HR, HS⟩
    iapply (rest1With_join c _)
    isplitl [HR]; · iexact HR
    iexists _; iexact HS
  · iexact Hg

end Cert.Kernel.Frm

end
-- ==== Proof.Kernel.Shares0.lean ====
import proofs.«163277_j61710090109327_1_alg».proof.Proof.Gen.Kernel.Launch
import proofs.«163277_j61710090109327_1_alg».proof.Proof.Gen.Kernel.Skeleton
import proofs.«163277_j61710090109327_1_alg».proof.Proof.Gen.Kernel.Points
import proofs.«163277_j61710090109327_1_alg».proof.Proof.Kernel.Data0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The mining region's arrays, dealt among its windows

Two of the region's four arrays are read through two windows each. The pipeline holds an array once per window,
at the window's share; the buffer behind an array read twice is therefore held half and half. The four distinct
buffers, each whole at the full share, are the six windows' arrays at their shares, and back. -/

variable (V : (c : Dev nD) → (b : Ref sig .tc) → Buf (Elt F) ((c : Thread nD τ).loc b))

/-- The distinct buffers behind the windows' arrays, listed. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v5) ↦{fullShare} W main_v5) ∗ (((c : Thread nD τ).loc main_v6) ↦{fullShare} W main_v6)
          ∗ (((c : Thread nD τ).loc main_v7_0) ↦{fullShare} W main_v7_0) ∗ (((c : Thread nD τ).loc main_v7_1) ↦{fullShare} W main_v7_1)) := by
  unfold Pipeline.arrBufs
  rw [bigSep_eq_bigSepL_of_eq [main_v5, main_v6, main_v7_0, main_v7_1] (by decide) (by decide)]
  rfl

/-- The six windows' arrays at the proof data's shares, listed. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_v5) ↦{fullShare.left} G 0) ∗ (((c : Thread nD τ).loc main_v5) ↦{fullShare.right} G 1)
          ∗ (((c : Thread nD τ).loc main_v6) ↦{fullShare.left} G 2) ∗ (((c : Thread nD τ).loc main_v6) ↦{fullShare.right} G 3)
          ∗ (((c : Thread nD τ).loc main_v7_0) ↦{fullShare} G 4) ∗ (((c : Thread nD τ).loc main_v7_1) ↦{fullShare} G 5)) := by
  unfold Dat.arrays
  rw [bigSep_W0]
  rw [(arr_whole0 0).set_eq_univ, (arr_whole0 2).set_eq_univ, (arr_whole0 4).set_eq_univ, (arr_whole0 5).set_eq_univ]
  rfl

/-- Dealing: the four buffers at a valuation `W` are the six arrays at contents read off `W`. -/
theorem arrays0_deal (c : Dev nD) (W : (b : Ref sig .tc) → Buf (Elt F) ((c : Thread nD τ).loc b))
    (G : (w : Fin cfg0.W) → Buf (Elt F) ((cfg0.win w).arr.view.loc (c : Thread nD τ)))
    (hG : ∀ w, G w = W (Pipeline.arrRef spec0 w)) :
    (Pipeline.arrBufs (Ix := Unit) (Name := ℕ) (U := UR sig nD τ) (Lvl := ℕ) spec0 c W : sProp 𝕄) ⊢ (dat0 V c).arrays G := by
  rw [arrBufs0_eq, arrays0_eq, hG 0, hG 1, hG 2, hG 3, hG 4, hG 5]
  iintro ⟨H5, H6, H70, H71⟩
  ihave H5' := (pointsTo_share (PosShare.mem_left_op_right fullShare)).1 $$ H5
  ihave H6' := (pointsTo_share (PosShare.mem_left_op_right fullShare)).1 $$ H6
  icases H5' with ⟨H5l, H5r⟩
  icases H6' with ⟨H6l, H6r⟩
  isplitl [H5l]; · iexact H5l
  isplitl [H5r]; · iexact H5r
  isplitl [H6l]; · iexact H6l
  isplitl [H6r]; · iexact H6r
  isplitl [H70]; · iexact H70
  iexact H71

/-- Gathering: the six arrays at contents read off `W` are the four buffers at `W`. -/
theorem arrays0_gather (c : Dev nD) (W : (b : Ref sig .tc) → Buf (Elt F) ((c : Thread nD τ).loc b))
    (G : (w : Fin cfg0.W) → Buf (Elt F) ((cfg0.win w).arr.view.loc (c : Thread nD τ)))
    (hG : ∀ w, G w = W (Pipeline.arrRef spec0 w)) :
    ((dat0 V c).arrays G : sProp 𝕄) ⊢ Pipeline.arrBufs (Ix := Unit) (Name := ℕ) (U := UR sig nD τ) (Lvl := ℕ) spec0 c W := by
  rw [arrBufs0_eq, arrays0_eq, hG 0, hG 1, hG 2, hG 3, hG 4, hG 5]
  iintro ⟨H5l, H5r, H6l, H6r, H70, H71⟩
  isplitl [H5l H5r]
  · iapply (pointsTo_share (PosShare.mem_left_op_right fullShare)).2
    isplitl [H5l]; · iexact H5l
    iexact H5r
  isplitl [H6l H6r]
  · iapply (pointsTo_share (PosShare.mem_left_op_right fullShare)).2
    isplitl [H6l]; · iexact H6l
    iexact H6r
  isplitl [H70]; · iexact H70
  iexact H71

end Cert.Kernel.Frm

end
-- ==== Proof.Kernel.Segs.lean ====
import proofs.«163277_j61710090109327_1_alg».proof.Proof.Gen.Kernel.Launch
import proofs.«163277_j61710090109327_1_alg».proof.Proof.Gen.Kernel.Skeleton
import proofs.«163277_j61710090109327_1_alg».proof.Proof.Gen.Kernel.Points
import proofs.«163277_j61710090109327_1_alg».proof.Proof.Gen.Kernel.Regions
import proofs.«163277_j61710090109327_1_alg».proof.Proof.Kernel.Body0
import proofs.«163277_j61710090109327_1_alg».proof.Proof.Kernel.Body1
import proofs.«163277_j61710090109327_1_alg».proof.Proof.Kernel.Shares0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! # The two regions as segments of the program's run

Between two items of the program a core holds every unscoped buffer whole, at the contents the items so far
have left, beside its generator register at some state and the fact that it owes nothing. Each region takes its
windows' arrays out of those buffers, runs, and puts them back at what its write-backs leave. -/

variable (m : (ℓ : Loc nD τ sig) → Buf (Elt F) ℓ)

/-- The core's buffers as the mining region finds them: after the host lines before it. -/
abbrev Vent0 (c : Dev nD) (b : Ref sig .tc) : Buf (Elt F) ((c : Thread nD τ).loc b) := V2 m c (Proc.devRef .tc b)

/-- What the mining region leaves in its two results. -/
def o3_0 (c : Dev nD) : Buf (Elt F) ((c : Thread nD τ).loc main_v7_0) := (dat0 (Vent0 m) c).arrAt 4 cfg0.N
def o3_1 (c : Dev nD) : Buf (Elt F) ((c : Thread nD τ).loc main_v7_1) := (dat0 (Vent0 m) c).arrAt 5 cfg0.N

/-- The core's buffers as the finishing region finds them: the mining region's two results updated. -/
abbrev W3 (c : Dev nD) : Valuation τ sig (Elt F) :=
  Function.update (Function.update (V2 m c) main_v7_0 (o3_0 m c)) main_v7_1 (o3_1 m c)
abbrev Vent1 (c : Dev nD) (b : Ref sig .tc) : Buf (Elt F) ((c : Thread nD τ).loc b) := W3 m c (Proc.devRef .tc b)

/-- What the finishing region leaves in its result. -/
def o4 (c : Dev nD) : Buf (Elt F) ((c : Thread nD τ).loc main_v8) := (dat1 (Vent1 m) c).arrAt 3 cfg1.N

/-- What the regions leave in the buffers they may change, as the generated valuations read it. -/
def outs : Outs (F := F) := fun _ r c =>
  if h0 : r = main_v7_0 then h0 ▸ o3_0 m c
  else if h1 : r = main_v7_1 then h1 ▸ o3_1 m c
  else if h2 : r = main_v8 then h2 ▸ o4 m c
  else m ((c : Thread nD τ).loc r)

theorem outs_v7_0 (c : Dev nD) : outs m 3 main_v7_0 c = o3_0 m c := by unfold outs; rw [dif_pos rfl]
theorem outs_v7_1 (c : Dev nD) : outs m 3 main_v7_1 c = o3_1 m c := by
  unfold outs; rw [dif_neg (by decide), dif_pos rfl]
theorem outs_v8 (c : Dev nD) : outs m 4 main_v8 c = o4 m c := by
  unfold outs; rw [dif_neg (by decide), dif_neg (by decide), dif_pos rfl]

theorem V3_eq (c : Dev nD) : V3 m (outs m) c = W3 m c := by
  unfold V3; rw [outs_v7_0, outs_v7_1]

/-- The core's buffers after the finishing region. -/
abbrev W4 (c : Dev nD) : Valuation τ sig (Elt F) := Function.update (W3 m c) main_v8 (o4 m c)

theorem V4_eq (c : Dev nD) : V4 m (outs m) c = W4 m c := by
  unfold V4; rw [outs_v8, V3_eq]

/-- Every pipeline's proof data, each at its region's entry contents. -/
def pdats : (p : Fin 2) → (c : Dev nD) → Dat τ (Elt F) Unit ℕ (UR sig nD τ) ℕ (cfgs p) c
  | ⟨0, _⟩ => fun c => dat0 (Vent0 m) c
  | ⟨1, _⟩ => fun c => dat1 (Vent1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its
    owing nothing. -/
abbrev R (c : Dev nD) : sProp 𝕄 := iprop((∃ r, prngReg c r) ∗ ∃ W, owes (c : Thread nD τ) (0 : CellTallies nD τ sig Unit) W)

theorem hF0_0 (c : Dev nD) : (dat0 (Vent0 m) c).arrAt 0 cfg0.N = Vent1 m c main_v5 := by
  refine ((dat0 (Vent0 m) c).arrAt_in 0 rfl _).trans ((A_eq0 (Vent0 m) c 0).trans ?_)
  show V2 m c (Proc.devRef .tc main_v5) = W3 m c (Proc.devRef .tc main_v5)
  dsimp only [W3]
  rw [Function.update_of_ne (StableHlo.devRef_ne_of_ne (by decide : main_v5 ≠ main_v7_1)), Function.update_of_ne (StableHlo.devRef_ne_of_ne (by decide : main_v5 ≠ main_v7_0))]
theorem hF0_1 (c : Dev nD) : (dat0 (Vent0 m) c).arrAt 1 cfg0.N = Vent1 m c main_v5 := by
  refine ((dat0 (Vent0 m) c).arrAt_in 1 rfl _).trans ((A_eq0 (Vent0 m) c 1).trans ?_)
  show V2 m c (Proc.devRef .tc main_v5) = W3 m c (Proc.devRef .tc main_v5)
  dsimp only [W3]
  rw [Function.update_of_ne (StableHlo.devRef_ne_of_ne (by decide : main_v5 ≠ main_v7_1)), Function.update_of_ne (StableHlo.devRef_ne_of_ne (by decide : main_v5 ≠ main_v7_0))]
theorem hF0_2 (c : Dev nD) : (dat0 (Vent0 m) c).arrAt 2 cfg0.N = Vent1 m c main_v6 := by
  refine ((dat0 (Vent0 m) c).arrAt_in 2 rfl _).trans ((A_eq0 (Vent0 m) c 2).trans ?_)
  show V2 m c (Proc.devRef .tc main_v6) = W3 m c (Proc.devRef .tc main_v6)
  dsimp only [W3]
  rw [Function.update_of_ne (StableHlo.devRef_ne_of_ne (by decide : main_v6 ≠ main_v7_1)), Function.update_of_ne (StableHlo.devRef_ne_of_ne (by decide : main_v6 ≠ main_v7_0))]
theorem hF0_3 (c : Dev nD) : (dat0 (Vent0 m) c).arrAt 3 cfg0.N = Vent1 m c main_v6 := by
  refine ((dat0 (Vent0 m) c).arrAt_in 3 rfl _).trans ((A_eq0 (Vent0 m) c 3).trans ?_)
  show V2 m c (Proc.devRef .tc main_v6) = W3 m c (Proc.devRef .tc main_v6)
  dsimp only [W3]
  rw [Function.update_of_ne (StableHlo.devRef_ne_of_ne (by decide : main_v6 ≠ main_v7_1)), Function.update_of_ne (StableHlo.devRef_ne_of_ne (by decide : main_v6 ≠ main_v7_0))]
theorem hF0_4 (c : Dev nD) : (dat0 (Vent0 m) c).arrAt 4 cfg0.N = Vent1 m c main_v7_0 := by
  show o3_0 m c = W3 m c (Proc.devRef .tc main_v7_0)
  dsimp only [W3]
  rw [Function.update_of_ne (StableHlo.devRef_ne_of_ne (by decide : main_v7_0 ≠ main_v7_1)), Function.update_self]
theorem hF0_5 (c : Dev nD) : (dat0 (Vent0 m) c).arrAt 5 cfg0.N = Vent1 m c main_v7_1 := by
  show o3_1 m c = W3 m c (Proc.devRef .tc main_v7_1)
  dsimp only [W3]
  rw [Function.update_self]

theorem hF0 (c : Dev nD) (w : Fin cfg0.W) : (dat0 (Vent0 m) c).arrAt w cfg0.N = Vent1 m c (Pipeline.arrRef spec0 w) :=
  match w with
  | ⟨0, _⟩ => hF0_0 m c
  | ⟨1, _⟩ => hF0_1 m c
  | ⟨2, _⟩ => hF0_2 m c
  | ⟨3, _⟩ => hF0_3 m c
  | ⟨4, _⟩ => hF0_4 m c
  | ⟨5, _⟩ => hF0_5 m c

theorem hrest0 (c : Dev nD) :
    (Pipeline.unscopedRest (Ix := Unit) (Name := ℕ) (U := UR sig nD τ) (Lvl := ℕ) spec0 c (Vent0 m c) : sProp 𝕄)
      = Pipeline.unscopedRest (Ix := Unit) (Name := ℕ) (U := UR sig nD τ) (Lvl := ℕ) spec0 c (Vent1 m c) := by
  unfold Pipeline.unscopedRest
  refine bigSep_congr fun b hb => ?_
  have hb' := (Finset.mem_sdiff.mp hb).2
  have h0 : b ≠ main_v7_0 := fun e => hb' (Finset.mem_image.mpr ⟨4, Finset.mem_univ _, e.symm⟩)
  have h1 : b ≠ main_v7_1 := fun e => hb' (Finset.mem_image.mpr ⟨5, Finset.mem_univ _, e.symm⟩)
  dsimp only [Vent1, Vent0, W3]
  rw [Function.update_of_ne (StableHlo.devRef_ne_of_ne h1), Function.update_of_ne (StableHlo.devRef_ne_of_ne h0)]

theorem held0_entry (c : Dev nD) : StableHlo.held (c : Thread nD τ) (Pipeline.ucRefs τ sig) (V2 m c)
    = iprop((Pipeline.arrBufs (Ix := Unit) (Name := ℕ) (U := UR sig nD τ) (Lvl := ℕ) spec0 c (Vent0 m c) : sProp 𝕄)
        ∗ Pipeline.unscopedRest (Ix := Unit) (Name := ℕ) (U := UR sig nD τ) (Lvl := ℕ) spec0 c (Vent0 m c)) := by
  rw [← Pipeline.unscopedBufs_held (Ix := Unit) (Name := ℕ) (U := UR sig nD τ) (Lvl := ℕ) c (V2 m c)]
  exact Pipeline.unscopedBufs_split₀ cfgs 0 winFacts₀0.arr_unscoped c (Vent0 m c)

theorem held0_exit (c : Dev nD) : StableHlo.held (c : Thread nD τ) (Pipeline.ucRefs τ sig) (W3 m c)
    = iprop((Pipeline.arrBufs (Ix := Unit) (Name := ℕ) (U := UR sig nD τ) (Lvl := ℕ) spec0 c (Vent1 m c) : sProp 𝕄)
        ∗ Pipeline.unscopedRest (Ix := Unit) (Name := ℕ) (U := UR sig nD τ) (Lvl := ℕ) spec0 c (Vent1 m c)) := by
  rw [← Pipeline.unscopedBufs_held (Ix := Unit) (Name := ℕ) (U := UR sig nD τ) (Lvl := ℕ) c (W3 m c)]
  exact Pipeline.unscopedBufs_split₀ cfgs 0 winFacts₀0.arr_unscoped c (Vent1 m c)

theorem deal0 (c : Dev nD) :
    (Pipeline.arrBufs (Ix := Unit) (Name := ℕ) (U := UR sig nD τ) (Lvl := ℕ) spec0 c (Vent0 m c) : sProp 𝕄)
      ⊢ (dat0 (Vent0 m) c).arrays ((dat0 (Vent0 m) c).arrAt · 0) :=
  arrays0_deal (Vent0 m) c (Vent0 m c) (fun w => (dat0 (Vent0 m) c).arrAt w 0) (fun w => A_eq0 (Vent0 m) c w)

theorem gather0 (c : Dev nD) :
    ((dat0 (Vent0 m) c).arrays ((dat0 (Vent0 m) c).arrAt · cfg0.N) : sProp 𝕄)
      ⊢ Pipeline.arrBufs (Ix := Unit) (Name := ℕ) (U := UR sig nD τ) (Lvl := ℕ) spec0 c (Vent1 m c) :=
  arrays0_gather (Vent0 m) c (Vent1 m c) (fun w => (dat0 (Vent0 m) c).arrAt w cfg0.N) (hF0 m c)

set_option backward.isDefEq.respectTransparency.types false in
/-- The mining region: entered from every unscoped buffer at the contents the host lines left, left with its two
    results updated. The four buffers behind its six windows' arrays are dealt among the windows at entry and
    gathered at exit; the generator register passes through the invariant; nothing is owed; the kernel has no
    semaphore of its own. -/
def reg0 : RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Vent0 m) c).loose
  hwaits := Pipeline.hwaits_of_owed_zero _ _ _ _ L lv 0 fun _ _ => rfl
  pre c := iprop(StableHlo.held (c : Thread nD τ) (Pipeline.ucRefs τ sig) (V2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (Vent0 m c)
  hentry c := by
    rw [Pipeline.ownSems0_none]
    rw [held0_entry]
    iintro ⟨⟨⟨Ha, Hrest⟩, Hp, HO⟩, -, -⟩
    imodintro
    isplitl [Ha]; · iapply (deal0 m c); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (Vent0 m) c)
    unfold Pipeline.ΦA
    iintro ⟨Hp, -, Hr⟩
    isplitl [Hr]; · iexact Hr
    iexact Hp
  hout c := by
    rw [Pipeline.ownSems0_none]
    refine (hout0 (Vent0 m) c).trans ?_
    unfold Pipeline.ΦA
    iintro ⟨Hr, Hp⟩
    isplitl [Hp]; · iexact Hp
    isplitr; · iempintro
    iexact Hr
  hexit c := by
    rw [held0_exit, ← hrest0]
    iintro ⟨Ha, HO, HY, Hrest⟩
    imodintro
    isplitl [Ha Hrest]
    · isplitl [Ha]; · iapply (gather0 m c); iexact Ha
      iexact Hrest
    isplitl [HY]; · iexact HY
    unfold Pipeline.Dat.owesAt Pipeline.owesWithin
    icases HO with ⟨%W, -, HO⟩; iexists W; iexact HO

/-- The core's buffers read at a reference, after the finishing region. -/
abbrev Vexit1 (c : Dev nD) (b : Ref sig .tc) : Buf (Elt F) ((c : Thread nD τ).loc b) := W4 m c (Proc.devRef .tc b)

theorem hF1_0 (c : Dev nD) : (dat1 (Vent1 m) c).arrAt 0 cfg1.N = Vexit1 m c main_arg0 := by
  refine ((dat1 (Vent1 m) c).arrAt_in 0 rfl _).trans ((A_eq1 (Vent1 m) c 0).trans ?_)
  show W3 m c (Proc.devRef .tc main_arg0) = W4 m c (Proc.devRef .tc main_arg0)
  dsimp only [W4]
  rw [Function.update_of_ne (StableHlo.devRef_ne_of_ne (by decide : main_arg0 ≠ main_v8))]
theorem hF1_1 (c : Dev nD) : (dat1 (Vent1 m) c).arrAt 1 cfg1.N = Vexit1 m c main_v7_0 := by
  refine ((dat1 (Vent1 m) c).arrAt_in 1 rfl _).trans ((A_eq1 (Vent1 m) c 1).trans ?_)
  show W3 m c (Proc.devRef .tc main_v7_0) = W4 m c (Proc.devRef .tc main_v7_0)
  dsimp only [W4]
  rw [Function.update_of_ne (StableHlo.devRef_ne_of_ne (by decide : main_v7_0 ≠ main_v8))]
theorem hF1_2 (c : Dev nD) : (dat1 (Vent1 m) c).arrAt 2 cfg1.N = Vexit1 m c main_v7_1 := by
  refine ((dat1 (Vent1 m) c).arrAt_in 2 rfl _).trans ((A_eq1 (Vent1 m) c 2).trans ?_)
  show W3 m c (Proc.devRef .tc main_v7_1) = W4 m c (Proc.devRef .tc main_v7_1)
  dsimp only [W4]
  rw [Function.update_of_ne (StableHlo.devRef_ne_of_ne (by decide : main_v7_1 ≠ main_v8))]
theorem hF1_3 (c : Dev nD) : (dat1 (Vent1 m) c).arrAt 3 cfg1.N = Vexit1 m c main_v8 := by
  show o4 m c = W4 m c (Proc.devRef .tc main_v8)
  dsimp only [W4]
  rw [Function.update_self]

theorem hF1 (c : Dev nD) (w : Fin cfg1.W) : (dat1 (Vent1 m) c).arrAt w cfg1.N = Vexit1 m c (Pipeline.arrRef spec1 w) :=
  match w with
  | ⟨0, _⟩ => hF1_0 m c
  | ⟨1, _⟩ => hF1_1 m c
  | ⟨2, _⟩ => hF1_2 m c
  | ⟨3, _⟩ => hF1_3 m c

theorem hrest1 (c : Dev nD) : ∀ b, b ∉ Finset.univ.image (Pipeline.arrRef spec1) → Vexit1 m c b = Vent1 m c b := fun b hb => by
  have h8 : b ≠ main_v8 := fun e => hb (Finset.mem_image.mpr ⟨3, Finset.mem_univ _, e.symm⟩)
  dsimp only [Vexit1, W4]
  rw [Function.update_of_ne (StableHlo.devRef_ne_of_ne h8)]

set_option backward.isDefEq.respectTransparency.types false in
/-- The finishing region: entered from the buffers as the mining region left them, left with its one result
    updated. Its four arrays are distinct buffers, each held whole. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vent1 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (Vent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Vent1 m) c)
    unfold Pipeline.ΦA
    iintro ⟨Hp, -, Hr⟩
    isplitl [Hr]; · iexact Hr
    iexact Hp
  hout c := by
    rw [Pipeline.ownSems0_none]
    refine (hout1 (Vent1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vent1 m c) (Vexit1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's pieces shared by the frame and the run with its result -/

/-- The pipeline library's launch element is the program's. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals every core makes the state that rides beside the buffers. -/
theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME: from any memory with zero counters every weakly fair execution of the program terminates, nothing
    faulting, and both arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_cond m emb₁ () 𝒱₀ L lv (fun _ _ => rfl) ρ (outs m) (pdats m) 0 (fun _ => iprop(emp))
    (initOf (Pipeline.cells cfgs cellOf_inj) (Pipeline.launchToks cfgs cellOf_inj)) hu₀
    (fun _ c => R c) (hE0 ρ) (fun c => by iintro ⟨-, H⟩; iexact H)
    (reg0 m) (fun c => .rfl) (fun c => by rw [V3_eq]; exact .rfl)
    (reg1 m) (fun c => by rw [V3_eq]; exact .rfl) (fun c => by rw [V4_eq]; exact .rfl)

end Cert.Kernel.Frm

end
-- ==== Proof.KernelIdeal.Runs0.lean ====
import proofs.«163277_j61710090109327_1_alg».proof.Proof.Gen.KernelIdeal.Launch
import proofs.«163277_j61710090109327_1_alg».proof.Proof.Gen.KernelIdeal.Skeleton
import proofs.«163277_j61710090109327_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The mining kernel at one grid point

The kernel keeps, per row of its block of rows, a running minimum over the positives and a running maximum
over the negatives in two scratch columns. At the first point of a row of the grid it resets them, at every
point it folds the current block of columns in, and at the last point of the row it writes the two columns
out, transposed. The three statements below say so for one call of the body on whole buffers. -/

/-- The body resets its running columns: the grid's second coordinate is zero. -/
abbrev cond0_first (i : grid0.Coords) : Prop :=
  (Scalar.cmpi .ne (Scalar.extui (Scalar.cmpi .eq (BitVec.ofNat 32 (i 1).val) 0#32)) 0#32) = 1#1
/-- The body writes its running columns out: the grid's second coordinate is the last. -/
abbrev cond0_last (i : grid0.Coords) : Prop := k0_cond2 i = 1#1

/-- The running minimum after a point, from the four blocks the point reads and the column it started from. -/
def newMin (x0 x1 : Vec F S1024x256 .bf16) (l2 l3 : Vec F S1x1024 .i32) (s : Vec F S1024x1 .f32) : Vec F S1024x1 .f32 := k0_pay8 x0 x1 l2 l3 s
/-- The running maximum after a point, likewise. -/
def newMax (x0 x1 : Vec F S1024x256 .bf16) (l2 l3 : Vec F S1x1024 .i32) (s : Vec F S1024x1 .f32) : Vec F S1024x1 .f32 := k0_pay1 (k0_pay9 x0 x1 l2 l3 s)

/-! ## Whole-buffer loads and stores

Every load and every store of the body goes through the rectangle that is the whole buffer. A load of such a
buffer reads its contents, and after a last store of that kind the buffer reads the payload of that store. -/

/-- The zero offsets of a rectangle of rank two, as a function of the axis. -/
theorem zero2 : (![0, 0] : Fin 2 → Nat) = fun _ => 0 := funext fun a => by fin_cases a <;> rfl

/-- A load of the whole of a whole buffer reads its contents. -/
theorem readAt_whole {S : Shape} {e : EltTy} {m : Memref sig .tc .vmem S e} (h : m.IsWhole) {off : Fin S.rank → Nat}
    (hz : off = fun _ => 0) (inb : ∀ a, off a + S.size a ≤ S.size a) (X : S.Idx → Elt F e) :
    View.readAt (Elt F) m.view (Rect.unit off S.size inb).toLoadRect (h.unread X) = X := by
  rw [View.readAt_eq_ld, h.read_unread]; exact View.ld_unit_zero hz inb X

/-- After a last store of the whole buffer the buffer reads that store's payload, whatever was stored before. -/
theorem read_writes_whole {S : Shape} {e : EltTy} (m : Memref sig .tc .vmem S e) (f : m.view.ty.Contents (Elt F))
    {off : Fin S.rank → Nat} (hz : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

/-! ## The three cases -/

set_option maxHeartbeats 1000000 in
/-- At the first point of a row of the grid: whatever the scratch columns held, they end at the fold of this
    point's blocks into the reset values; the output buffers are left as they were. -/
theorem run0_first (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : cond0_first i) (hc1 : ¬cond0_last i)
    (x0 x1 : Vec F S1024x256 .bf16) (l2 l3 : Vec F S1x1024 .i32) (xi4 xi5 : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare l2 ∗ owns (c : Thread nD τ) arg5 fullShare l3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare l2 ∗ owns (c : Thread nD τ) arg5 fullShare l3 ∗ owns (c : Thread nD τ) arg6 fullShare xi4 ∗ owns (c : Thread nD τ) arg7 fullShare xi5
            ∗ owns (c : Thread nD τ) arg8 fullShare (newMin x0 x1 l2 l3 (k0_pay4 (F := F))) ∗ owns (c : Thread nD τ) arg9 fullShare (newMax x0 x1 l2 l3 (k0_pay5 (F := F)))) -∗ K ⟨⟩))
      ⊢ wp frame (wpE (defs₀ (F := F)) Variants.none c none) E (cc0__mine_kernel i arg2 harg2 arg3 harg3 arg4 harg4 arg5 harg5 arg6 harg6 arg7 harg7 arg8 harg8 arg9 harg9) K := by
  simp only [cc0__mine_kernel_eq_skeleton]; unfold cc0__mine_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H8]
  · iexists _; isplitr; swap; · iexact H8
    ipureintro
    sl_unfold_words
    refine (read_writes_whole arg8 _ zero2 _ _ _).trans ?_
    unfold newMin
    rw [readAt_whole harg2 zero2, readAt_whole harg3 zero2, readAt_whole harg4 zero2, readAt_whole harg5 zero2, View.readCov_unit_zero (S := S1024x1) _ zero2]
  · iexists _; isplitr; swap; · iexact H9
    ipureintro
    sl_unfold_words
    refine (read_writes_whole arg9 _ zero2 _ _ _).trans ?_
    unfold newMax
    dsimp only
    rw [readAt_whole harg2 zero2, readAt_whole harg3 zero2, readAt_whole harg4 zero2, readAt_whole harg5 zero2, View.readCov_unit_zero (S := S1024x1) _ zero2]

set_option maxHeartbeats 1000000 in
/-- At a point that is neither first nor last in its row: the scratch columns go from what the point before left
    to the fold of this point's blocks into that; the output buffers are left as they were. -/
theorem run0_mid (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬cond0_first i) (hc1 : ¬cond0_last i)
    (x0 x1 : Vec F S1024x256 .bf16) (l2 l3 : Vec F S1x1024 .i32) (xi4 xi5 : Vec F S1x1024 .f32) (xs8 xs9 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare l2 ∗ owns (c : Thread nD τ) arg5 fullShare l3 ∗ owns (c : Thread nD τ) arg6 fullShare xi4 ∗ owns (c : Thread nD τ) arg7 fullShare xi5 ∗ owns (c : Thread nD τ) arg8 fullShare xs8 ∗ owns (c : Thread nD τ) arg9 fullShare xs9
        ∗ (iprop(owns (c : Thread nD τ) arg2 fullShare x0 ∗ owns (c : Thread nD τ) arg3 fullShare x1 ∗ owns (c : Thread nD τ) arg4 fullShare l2 ∗ owns (c : Thread nD τ) arg5 fullShare l3 ∗ owns (c : Thread nD τ) arg6 fullShare xi4 ∗ owns (c : Thread nD τ) arg7 fullShare xi5
            ∗ owns (c : Thread nD τ) arg8 fullShare (newMin x0 x1 l2 l3 xs8) ∗ owns (c : Thread nD τ) arg9 fullShare (newMax x0 x1 l2 l3 xs9)) -∗ K ⟨⟩))
      ⊢ wp frame (wpE (defs₀ (F := F)) Variants.none c none) E (cc0__mine_kernel i arg2 harg2 arg3 harg3 arg4 harg4 arg5 harg5 arg6 harg6 arg7 harg7 arg8 harg8 arg9 harg9) K := by
  simp only [cc0__mine_kernel_eq_skeleton]; unfold cc0__mine_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg8.eq_unread hf8; obtain rfl := harg9.eq_unread hf9
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H8]
  · iexists _; isplitr; swap; · iexact H8
    ipureintro
    refine (read_writes_whole arg8 _ zero2 _ _ _).trans ?_
    unfold newMin
    rw [readAt_whole harg2 zero2, readAt_whole harg3 zero2, readAt_whole harg4 zero2, readAt_whole harg5 zero2, readAt_whole harg8 zero2]
  · iexists _; isplitr; swap; · iexact H9
    ipureintro
    refine (read_writes_whole arg9 _ zero2 _ _ _).trans ?_
    unfold newMax
    dsimp only
    rw [readAt_whole harg2 zero2, readAt_whole harg3 zero2, readAt_whole harg4 zero2, readAt_whole harg5 zero2, readAt_whole harg9 zero2]

set_option maxHeartbeats 1000000 in
/-- At the last point of a row of the grid: the scratch columns are folded as at any later point, and the two
    output buffers, whatever they held, end at the transposed columns. -/
theorem run0_last (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬cond0_first i) (hc1 : cond0_last i)
    (x0 x1 : Vec F S1024x256 .bf16) (l2 l3 : Vec F S1x1024 .i32) (xs8 xs9 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare l2 ∗ owns (c : Thread nD τ) arg5 fullShare l3 ∗ (∃ d, owns (c : Thread nD τ) arg6 fullShare d) ∗ (∃ d, owns (c : Thread nD τ) arg7 fullShare d) ∗ owns (c : Thread nD τ) arg8 fullShare xs8 ∗ owns (c : Thread nD τ) arg9 fullShare xs9
        ∗ (iprop(owns (c : Thread nD τ) arg2 fullShare x0 ∗ owns (c : Thread nD τ) arg3 fullShare x1 ∗ owns (c : Thread nD τ) arg4 fullShare l2 ∗ owns (c : Thread nD τ) arg5 fullShare l3 ∗ owns (c : Thread nD τ) arg6 fullShare (k0_pay2 (newMin x0 x1 l2 l3 xs8)) ∗ owns (c : Thread nD τ) arg7 fullShare (k0_pay3 (newMax x0 x1 l2 l3 xs9))
            ∗ owns (c : Thread nD τ) arg8 fullShare (newMin x0 x1 l2 l3 xs8) ∗ owns (c : Thread nD τ) arg9 fullShare (newMax x0 x1 l2 l3 xs9)) -∗ K ⟨⟩))
      ⊢ wp frame (wpE (defs₀ (F := F)) Variants.none c none) E (cc0__mine_kernel i arg2 harg2 arg3 harg3 arg4 harg4 arg5 harg5 arg6 harg6 arg7 harg7 arg8 harg8 arg9 harg9) K := by
  simp only [cc0__mine_kernel_eq_skeleton]; unfold cc0__mine_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg8.eq_unread hf8; obtain rfl := harg9.eq_unread hf9
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    sl_unfold_words
    refine (read_writes_whole arg6 _ zero2 _ _ _).trans ?_
    unfold newMin
    rw [View.readCov_unit_zero (S := S1024x1) _ zero2, readAt_whole harg2 zero2, readAt_whole harg3 zero2, readAt_whole harg4 zero2, readAt_whole harg5 zero2, readAt_whole harg8 zero2]
  isplitl [H5]
  · iexists _; isplitr; swap; · iexact H5
    ipureintro
    sl_unfold_words
    refine (read_writes_whole arg7 _ zero2 _ _ _).trans ?_
    unfold newMax
    rw [View.readCov_unit_zero (S := S1024x1) _ zero2]
    dsimp only
    rw [readAt_whole harg2 zero2, readAt_whole harg3 zero2, readAt_whole harg4 zero2, readAt_whole harg5 zero2, readAt_whole harg9 zero2]
  isplitl [H8]
  · iexists _; isplitr; swap; · iexact H8
    ipureintro
    sl_unfold_words
    refine (read_writes_whole arg8 _ zero2 _ _ _).trans ?_
    unfold newMin
    rw [readAt_whole harg2 zero2, readAt_whole harg3 zero2, readAt_whole harg4 zero2, readAt_whole harg5 zero2, readAt_whole harg8 zero2]
  · iexists _; isplitr; swap; · iexact H9
    ipureintro
    sl_unfold_words
    refine (read_writes_whole arg9 _ zero2 _ _ _).trans ?_
    unfold newMax
    dsimp only
    rw [readAt_whole harg2 zero2, readAt_whole harg3 zero2, readAt_whole harg4 zero2, readAt_whole harg5 zero2, readAt_whole harg9 zero2]

end Cert.KernelIdeal.Frm

end
-- ==== Proof.KernelIdeal.Data0.lean ====
import proofs.«163277_j61710090109327_1_alg».proof.Proof.Gen.KernelIdeal.Launch
import proofs.«163277_j61710090109327_1_alg».proof.Proof.Gen.KernelIdeal.Skeleton
import proofs.«163277_j61710090109327_1_alg».proof.Proof.Gen.KernelIdeal.Points
import proofs.«163277_j61710090109327_1_alg».proof.Proof.KernelIdeal.Runs0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The mining region: what its buffers hold point by point, and the body's obligation

The region is entered with the core's buffers at a valuation `V`. Its four input windows read two arrays (the
scaled rows twice, the labels twice); its two output windows are written back once per row of the grid, at the
row's last point. The running minimum and maximum live in two scratch columns carried from point to point. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The four blocks a point reads, at their literal types: the block of rows, the block of columns (rows again),
    the rows' labels, the columns' labels. -/
abbrev xq (c : Dev nD) (t : Fin cfg0.N) : Vec F S1024x256 .bf16 := iblk0 V c 0 t
abbrev xk (c : Dev nD) (t : Fin cfg0.N) : Vec F S1024x256 .bf16 := iblk0 V c 1 t
abbrev lq (c : Dev nD) (t : Fin cfg0.N) : Vec F S1x1024 .i32 := iblk0 V c 2 t
abbrev lk (c : Dev nD) (t : Fin cfg0.N) : Vec F S1x1024 .i32 := iblk0 V c 3 t

/-! ## The grid's closed forms -/

/-- The reset is taken at the points ≡ 0 (mod 8). -/
theorem hcond0_first : ∀ t : Fin cfg0.N, cond0_first (grid0.coords t) ↔ t.val % 8 = 0 :=
  (by decide +kernel : ∀ t : Fin grid0.N, cond0_first (grid0.coords t) ↔ t.val % 8 = 0)
/-- The write-out is taken at the points ≡ 7 (mod 8). -/
theorem hcond0_last : ∀ t : Fin cfg0.N, cond0_last (grid0.coords t) ↔ t.val % 8 = 7 :=
  (by decide +kernel : ∀ t : Fin grid0.N, cond0_last (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from a row's last point the outputs are idle and not written back; at it they are live. -/
theorem idleAt0_4 : ∀ t : Fin cfg0.N, ¬cond0_last (grid0.coords t) → cfg0.idle 4 (grid0.coords t) = true := by decide +kernel
theorem noFlush0_4 : ∀ t : Fin cfg0.N, ¬cond0_last (grid0.coords t) → (cfg0.win 4).flush t = false := by decide +kernel
theorem liveAt0_4 : ∀ t : Fin cfg0.N, cond0_last (grid0.coords t) → cfg0.idle 4 (grid0.coords t) = false := by decide +kernel
theorem idleAt0_5 : ∀ t : Fin cfg0.N, ¬cond0_last (grid0.coords t) → cfg0.idle 5 (grid0.coords t) = true := by decide +kernel
theorem noFlush0_5 : ∀ t : Fin cfg0.N, ¬cond0_last (grid0.coords t) → (cfg0.win 5).flush t = false := by decide +kernel
theorem liveAt0_5 : ∀ t : Fin cfg0.N, cond0_last (grid0.coords t) → cfg0.idle 5 (grid0.coords t) = false := by decide +kernel

/-! ## The staging and scratch memrefs -/

abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
/-- The two scratch columns. -/
abbrev scM0_0 : Memref sig .tc .vmem S1024x1 .f32 := Memref.whole cc0_scratch0
abbrev scM0_1 : Memref sig .tc .vmem S1024x1 .f32 := Memref.whole cc0_scratch1

/-- The core's scoped buffers this region neither stages through nor names, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_scratch0), ((c : Thread nD τ).loc cc1_scratch0) ↦{fullShare} f))

/-- The region's entry invariant, with the two scratch columns as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

/-! ## The running columns -/

/-- What the two scratch columns hold after the body at position `n`: at the first point of a row of the grid the
    fold of that point's blocks into the reset values, afterwards the fold into what the point before left. -/
def acc0 (c : Dev nD) : (n : ℕ) → n < cfg0.N → Vec F S1024x1 .f32 × Vec F S1024x1 .f32
  | 0, hn => (newMin (xq V c ⟨0, hn⟩) (xk V c ⟨0, hn⟩) (lq V c ⟨0, hn⟩) (lk V c ⟨0, hn⟩) (k0_pay4 (F := F)),
      newMax (xq V c ⟨0, hn⟩) (xk V c ⟨0, hn⟩) (lq V c ⟨0, hn⟩) (lk V c ⟨0, hn⟩) (k0_pay5 (F := F)))
  | n + 1, hn =>
    if (n + 1) % 8 = 0 then
      (newMin (xq V c ⟨n + 1, hn⟩) (xk V c ⟨n + 1, hn⟩) (lq V c ⟨n + 1, hn⟩) (lk V c ⟨n + 1, hn⟩) (k0_pay4 (F := F)),
        newMax (xq V c ⟨n + 1, hn⟩) (xk V c ⟨n + 1, hn⟩) (lq V c ⟨n + 1, hn⟩) (lk V c ⟨n + 1, hn⟩) (k0_pay5 (F := F)))
    else
      (newMin (xq V c ⟨n + 1, hn⟩) (xk V c ⟨n + 1, hn⟩) (lq V c ⟨n + 1, hn⟩) (lk V c ⟨n + 1, hn⟩) (acc0 c n (Nat.lt_of_succ_lt hn)).1,
        newMax (xq V c ⟨n + 1, hn⟩) (xk V c ⟨n + 1, hn⟩) (lq V c ⟨n + 1, hn⟩) (lk V c ⟨n + 1, hn⟩) (acc0 c n (Nat.lt_of_succ_lt hn)).2)

/-- At a row's first point. -/
theorem acc0_first (c : Dev nD) (t : Fin cfg0.N) (h : t.val % 8 = 0) :
    acc0 V c t.val t.isLt = (newMin (xq V c t) (xk V c t) (lq V c t) (lk V c t) (k0_pay4 (F := F)),
      newMax (xq V c t) (xk V c t) (lq V c t) (lk V c t) (k0_pay5 (F := F))) := by
  obtain ⟨n, hn⟩ := t
  cases n with
  | zero => rfl
  | succ n => exact (if_pos h).trans rfl

/-- At a later point of a row. -/
theorem acc0_later (c : Dev nD) (t : Fin cfg0.N) (h : ¬t.val % 8 = 0) :
    acc0 V c t.val t.isLt = (newMin (xq V c t) (xk V c t) (lq V c t) (lk V c t) (acc0 V c (t.val - 1) (Nat.lt_of_le_of_lt (Nat.sub_le _ _) t.isLt)).1,
      newMax (xq V c t) (xk V c t) (lq V c t) (lk V c t) (acc0 V c (t.val - 1) (Nat.lt_of_le_of_lt (Nat.sub_le _ _) t.isLt)).2) := by
  obtain ⟨n, hn⟩ := t
  cases n with
  | zero => exact absurd (Nat.zero_mod _) h
  | succ n => exact (if_neg h).trans rfl

/-- The region invariant before position `n`: at the start the core's scoped buffers at anything; afterwards the
    two scratch columns at what the point before left, the other scoped buffers at anything. -/
def Phi0 (c : Dev nD) : (n : ℕ) → n ≤ cfg0.N → sProp 𝕄
  | 0, _ => Pipeline.ΦA spec0 c
  | n + 1, hn => iprop(iprop(owns (c : Thread nD τ) scM0_0 fullShare (acc0 V c n hn).1 ∗ owns (c : Thread nD τ) scM0_1 fullShare (acc0 V c n hn).2 ∗ rest0 c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(owns (c : Thread nD τ) scM0_0 fullShare (acc0 V c n hn).1 ∗ owns (c : Thread nD τ) scM0_1 fullShare (acc0 V c n hn).2 ∗ rest0 c) ∗ (∃ r, prngReg c r)) := rfl

theorem Phi0_pos (c : Dev nD) (n : ℕ) (h : n ≤ cfg0.N) (hz : n ≠ 0) :
    Phi0 V c n h = iprop(iprop(owns (c : Thread nD τ) scM0_0 fullShare (acc0 V c (n - 1) (by omega)).1 ∗ owns (c : Thread nD τ) scM0_1 fullShare (acc0 V c (n - 1) (by omega)).2 ∗ rest0 c) ∗ (∃ r, prngReg c r)) := by
  cases n with
  | zero => exact absurd rfl hz
  | succ n => rfl

/-! ## The proof data -/

/-- The region's proof data on core `c`: the arrays as the region finds them; after the body each input's buffer
    at its block and each output's at the transposed running column; the invariant above; the two arrays read
    through two windows each held half and half; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay2 (acc0 V c t.val t.isLt).1
    | ⟨5, _⟩ => k0_pay3 (acc0 V c t.val t.isLt).2
  Φ t := Phi0 V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay2 (acc0 V c t.val t.isLt).1 := by dsimp only [dat0]
theorem after0_5 (c : Dev nD) (t : Fin cfg0.N) : (dat0 V c).after 5 t = k0_pay3 (acc0 V c t.val t.isLt).2 := by dsimp only [dat0]

/-- Each input's current staging buffer holds its block at every point, fetched there or not: where it is not
    fetched its block index has not moved. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

end Cert.KernelIdeal.Frm

end
-- ==== Proof.KernelIdeal.Body0.lean ====
import proofs.«163277_j61710090109327_1_alg».proof.Proof.Gen.KernelIdeal.Launch
import proofs.«163277_j61710090109327_1_alg».proof.Proof.Gen.KernelIdeal.Skeleton
import proofs.«163277_j61710090109327_1_alg».proof.Proof.Gen.KernelIdeal.Points
import proofs.«163277_j61710090109327_1_alg».proof.Proof.KernelIdeal.Data0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The mining region: the body's obligation at every point -/

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem leaves0_0 (c : Dev nD) (t : Fin cfg0.N) :
    (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) :
    (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) :
    (dat0 V c).leavesExact 3 t = owns (c : Thread nD τ) (ms0_3 t) fullShare (iblk0 V c 3 t) := by
  unfold Dat.leavesExact; rw [liveAt0_3 t, after0_3]

set_option maxHeartbeats 4000000 in
/-- The body at any point. The inputs' buffers hold their blocks; the closed forms say which of the three cases
    the point is in; the invariant hands the body the two scratch columns at what the point before left (at
    anything at the very first point, and the reset does not look), and takes them back at this point's fold;
    away from a row's last point the outputs' buffers are handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = Phi0 V c (t.val + 1) t.isLt from rfl, Phi0_succ]
  rw [leaves0_0, leaves0_1, leaves0_2, leaves0_3]
  have hN : t.val < 64 := lt_of_lt_of_eq t.isLt (show cfg0.N = 64 from N_0)
  by_cases h0 : t.val % 8 = 0
  · have hl : ¬cond0_last (grid0.coords t) := fun h => by have := (hcond0_last t).mp h; omega
    have hf : cond0_first (grid0.coords t) := (hcond0_first t).mpr h0
    rw [Dat.leavesExact_idle (dat0 V c) 4 t (idleAt0_4 t hl) (noFlush0_4 t hl),
      Dat.leavesExact_idle (dat0 V c) 5 t (idleAt0_5 t hl) (noFlush0_5 t hl)]
    rw [acc0_first V c t h0]
    dsimp only
    by_cases hz : t.val = 0
    · rw [Phi0_castSucc V c t, Phi0_zero V c _ _ hz, PhiA0_eq]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply (run0_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hf hl
        (xq V c t) (xk V c t) (lq V c t) (lk V c t) ((dat0 V c).before 4 t d4) ((dat0 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 HR Hg]
      · isplitr [Hg]
        · isplitl [HS0]; · iexact HS0
          isplitl [HS1]; · iexact HS1
          iexact HR
        · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [Phi0_castSucc V c t, Phi0_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply (run0_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hf hl
        (xq V c t) (xk V c t) (lq V c t) (lk V c t) ((dat0 V c).before 4 t d4) ((dat0 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, HS0, HS1⟩
      isplitl [HS0 HS1 HR Hg]
      · isplitr [Hg]
        · isplitl [HS0]; · iexact HS0
          isplitl [HS1]; · iexact HS1
          iexact HR
        · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hf : ¬cond0_first (grid0.coords t) := fun h => h0 ((hcond0_first t).mp h)
    have hz : t.val ≠ 0 := fun e => h0 (by rw [e])
    rw [acc0_later V c t h0]
    dsimp only
    rw [Phi0_castSucc V c t, Phi0_pos V c _ _ hz]
    by_cases h1 : t.val % 8 = 7
    · have hl : cond0_last (grid0.coords t) := (hcond0_last t).mpr h1
      rw [show (dat0 V c).leavesExact 4 t = owns (c : Thread nD τ) (ms0_4 t) fullShare ((dat0 V c).after 4 t) from by
        unfold Dat.leavesExact; rw [liveAt0_4 t hl], after0_4]
      rw [show (dat0 V c).leavesExact 5 t = owns (c : Thread nD τ) (ms0_5 t) fullShare ((dat0 V c).after 5 t) from by
        unfold Dat.leavesExact; rw [liveAt0_5 t hl], after0_5]
      rw [acc0_later V c t h0]
      dsimp only
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply (run0_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hf hl
        (xq V c t) (xk V c t) (lq V c t) (lk V c t) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 HR Hg]
      · isplitr [Hg]
        · isplitl [HS0]; · iexact HS0
          isplitl [HS1]; · iexact HS1
          iexact HR
        · iexact Hg
      isplitl [Ho]; · iexact Ho
      isplitl [H0]; · iexact H0
      isplitl [H1]; · iexact H1
      isplitl [H2]; · iexact H2
      isplitl [H3]; · iexact H3
      isplitl [H4]; · iexact H4
      iexact H5
    · have hl : ¬cond0_last (grid0.coords t) := fun h => h1 ((hcond0_last t).mp h)
      rw [Dat.leavesExact_idle (dat0 V c) 4 t (idleAt0_4 t hl) (noFlush0_4 t hl),
        Dat.leavesExact_idle (dat0 V c) 5 t (idleAt0_5 t hl) (noFlush0_5 t hl)]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply (run0_mid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hf hl
        (xq V c t) (xk V c t) (lq V c t) (lk V c t) ((dat0 V c).before 4 t d4) ((dat0 V c).before 5 t d5) _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 HR Hg]
      · isplitr [Hg]
        · isplitl [HS0]; · iexact HS0
          isplitl [HS1]; · iexact HS1
          iexact HR
        · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives the scoped buffers back: the scratch columns' contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = Phi0 V c (Fin.last cfg0.N).val (Nat.le_of_lt_succ (Fin.last cfg0.N).isLt) from rfl,
    Phi0_pos V c _ _ ht, PhiA0_eq]
  iintro ⟨⟨HS0, HS1, HR⟩, Hg⟩
  isplitr [Hg]
  · isplitl [HS0]; · iexists _; iexact HS0
    isplitl [HS1]; · iexists _; iexact HS1
    iexact HR
  · iexact Hg

end Cert.KernelIdeal.Frm

end
-- ==== Proof.KernelIdeal.Runs1.lean ====
import proofs.«163277_j61710090109327_1_alg».proof.Proof.Gen.KernelIdeal.Launch
import proofs.«163277_j61710090109327_1_alg».proof.Proof.Gen.KernelIdeal.Skeleton
import proofs.«163277_j61710090109327_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The finishing kernel at one grid point

The kernel keeps a running sum of the rows' losses in a one-entry scratch buffer: reset at the first point,
increased by the sum over the current block of rows at every point, and copied to the output at the last. -/

/-- The body resets its running sum: the grid's coordinate is zero. -/
abbrev cond1_first (i : grid1.Coords) : Prop :=
  (Scalar.cmpi .ne (Scalar.extui (Scalar.cmpi .eq (BitVec.ofNat 32 (i 0).val) 0#32)) 0#32) = 1#1
/-- The body copies its running sum out: the grid's coordinate is the last. -/
abbrev cond1_last (i : grid1.Coords) : Prop := k1_cond2 i = 1#1

/-- The running sum after a point, from the three blocks the point reads and the sum it started from. -/
def newSum (x0 : Vec F S1024x256 .f32) (a1 a2 : Vec F S1x1024 .f32) (s : Vec F S1x1 .f32) : Vec F S1x1 .f32 := k1_pay1 (k1_pay3 a1 a2 x0 x0 s)

/-- The zero offsets of a whole-buffer access, however spelt. -/
theorem run1_hz : (![0, 0] : Fin 2 → Nat) = fun _ => 0 := funext fun a => by fin_cases a <;> rfl

set_option maxHeartbeats 1000000 in
/-- At the first point: whatever the scratch held, it ends at this block's sum added to the reset value; the
    output buffer is left as it was. -/
theorem run1_first (c : Dev nD) (i : grid1.Coords) (arg1 : Memref sig .tc .vmem S1024x256 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : cond1_first i) (hc1 : ¬cond1_last i)
    (x0 : Vec F S1024x256 .f32) (a1 a2 : Vec F S1x1024 .f32) (xi3 : Vec F S1x1 .f32) (E : Set ℕ) (K : PUnit → sProp 𝕄) :
    iprop(owns (c : Thread nD τ) arg1 fullShare x0 ∗ owns (c : Thread nD τ) arg2 fullShare a1 ∗ owns (c : Thread nD τ) arg3 fullShare a2 ∗ owns (c : Thread nD τ) arg4 fullShare xi3 ∗ (∃ d, owns (c : Thread nD τ) arg5 fullShare d)
        ∗ (iprop(owns (c : Thread nD τ) arg1 fullShare x0 ∗ owns (c : Thread nD τ) arg2 fullShare a1 ∗ owns (c : Thread nD τ) arg3 fullShare a2 ∗ owns (c : Thread nD τ) arg4 fullShare xi3 ∗ owns (c : Thread nD τ) arg5 fullShare (newSum x0 a1 a2 (k1_pay2 (F := F)))) -∗ K ⟨⟩))
      ⊢ wp frame (wpE (defs₀ (F := F)) Variants.none c none) E (cc1__finalize_kernel i arg1 harg1 arg2 harg2 arg3 harg3 arg4 harg4 arg5 harg5) K := by
  simp only [cc1__finalize_kernel_eq_skeleton]; unfold cc1__finalize_kernel_skel
  simp only [k1_part1_eq_skeleton]
  unfold owns
  iintro ⟨⟨%f1, %hf1, H1⟩, ⟨%f2, %hf2, H2⟩, ⟨%f3, %hf3, H3⟩, ⟨%f4, %hf4, H4⟩, ⟨%d5, %f5, -, H5⟩, Hk⟩
  obtain rfl := harg1.eq_unread hf1; obtain rfl := harg2.eq_unread hf2; obtain rfl := harg3.eq_unread hf3
  obtain rfl := harg4.eq_unread hf4
  -- run the body's loads and stores, each branch decided by the case's two facts
  sl_exec (disch := first | exact hc0 | exact hc1)
  sl_step
  iapply Hk
  -- the buffers only read are handed back at their contents
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  -- the last store into the running sum covers it, so it reads as that store's payload
  rw [View.read_writes_eq_canon _ _ _ (fun y => ⟨_, List.mem_cons_self .., View.mem_set_unit_zero run1_hz inb_S1x1_S1x1_0_0 y⟩)]
  sl_unfold_words
  rw [View.canon_cons_unit_zero (S := S1x1) run1_hz]
  unfold newSum
  simp only [View.readAt_eq_ld, harg1.read_unread, harg2.read_unread, harg3.read_unread, harg4.read_unread, harg5.read_unread, View.ld_unit_zero (S := S1x1024) run1_hz, View.ld_unit_zero (S := S1024x256) run1_hz, View.ld_unit_zero (S := S1x1) run1_hz, View.readCov_unit_zero (S := S1x1) _ run1_hz]

set_option maxHeartbeats 1000000 in
/-- At a point that is neither first nor last: the scratch goes from what the point before left to that plus
    this block's sum; the output buffer is left as it was. -/
theorem run1_mid (c : Dev nD) (i : grid1.Coords) (arg1 : Memref sig .tc .vmem S1024x256 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : ¬cond1_first i) (hc1 : ¬cond1_last i)
    (x0 : Vec F S1024x256 .f32) (a1 a2 : Vec F S1x1024 .f32) (xi3 : Vec F S1x1 .f32) (xs : Vec F S1x1 .f32) (E : Set ℕ) (K : PUnit → sProp 𝕄) :
    iprop(owns (c : Thread nD τ) arg1 fullShare x0 ∗ owns (c : Thread nD τ) arg2 fullShare a1 ∗ owns (c : Thread nD τ) arg3 fullShare a2 ∗ owns (c : Thread nD τ) arg4 fullShare xi3 ∗ owns (c : Thread nD τ) arg5 fullShare xs
        ∗ (iprop(owns (c : Thread nD τ) arg1 fullShare x0 ∗ owns (c : Thread nD τ) arg2 fullShare a1 ∗ owns (c : Thread nD τ) arg3 fullShare a2 ∗ owns (c : Thread nD τ) arg4 fullShare xi3 ∗ owns (c : Thread nD τ) arg5 fullShare (newSum x0 a1 a2 xs)) -∗ K ⟨⟩))
      ⊢ wp frame (wpE (defs₀ (F := F)) Variants.none c none) E (cc1__finalize_kernel i arg1 harg1 arg2 harg2 arg3 harg3 arg4 harg4 arg5 harg5) K := by
  simp only [cc1__finalize_kernel_eq_skeleton]; unfold cc1__finalize_kernel_skel
  simp only [k1_part1_eq_skeleton]
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  -- run the body's loads and stores, each branch decided by the case's two facts
  sl_exec (disch := first | exact hc0 | exact hc1)
  sl_step
  iapply Hk
  -- the buffers only read are handed back at their contents
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  -- the last store into the running sum covers it, so it reads as that store's payload
  rw [View.read_writes_eq_canon _ _ _ (fun y => ⟨_, List.mem_singleton_self _, View.mem_set_unit_zero run1_hz inb_S1x1_S1x1_0_0 y⟩)]
  sl_unfold_words
  rw [View.canon_unit_zero run1_hz]
  unfold newSum
  simp only [View.readAt_eq_ld, harg1.read_unread, harg2.read_unread, harg3.read_unread, harg4.read_unread, harg5.read_unread, View.ld_unit_zero (S := S1x1024) run1_hz, View.ld_unit_zero (S := S1024x256) run1_hz, View.ld_unit_zero (S := S1x1) run1_hz]

set_option maxHeartbeats 1000000 in
/-- At the last point: the scratch is increased as at any later point, and the output buffer, whatever it held,
    ends at the scratch's new contents. -/
theorem run1_last (c : Dev nD) (i : grid1.Coords) (arg1 : Memref sig .tc .vmem S1024x256 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : ¬cond1_first i) (hc1 : cond1_last i)
    (x0 : Vec F S1024x256 .f32) (a1 a2 : Vec F S1x1024 .f32) (xs : Vec F S1x1 .f32) (E : Set ℕ) (K : PUnit → sProp 𝕄) :
    iprop(owns (c : Thread nD τ) arg1 fullShare x0 ∗ owns (c : Thread nD τ) arg2 fullShare a1 ∗ owns (c : Thread nD τ) arg3 fullShare a2 ∗ (∃ d, owns (c : Thread nD τ) arg4 fullShare d) ∗ owns (c : Thread nD τ) arg5 fullShare xs
        ∗ (iprop(owns (c : Thread nD τ) arg1 fullShare x0 ∗ owns (c : Thread nD τ) arg2 fullShare a1 ∗ owns (c : Thread nD τ) arg3 fullShare a2 ∗ owns (c : Thread nD τ) arg4 fullShare (newSum x0 a1 a2 xs) ∗ owns (c : Thread nD τ) arg5 fullShare (newSum x0 a1 a2 xs)) -∗ K ⟨⟩))
      ⊢ wp frame (wpE (defs₀ (F := F)) Variants.none c none) E (cc1__finalize_kernel i arg1 harg1 arg2 harg2 arg3 harg3 arg4 harg4 arg5 harg5) K := by
  simp only [cc1__finalize_kernel_eq_skeleton]; unfold cc1__finalize_kernel_skel
  simp only [k1_part1_eq_skeleton]
  unfold owns
  iintro ⟨⟨%f1, %hf1, H1⟩, ⟨%f2, %hf2, H2⟩, ⟨%f3, %hf3, H3⟩, ⟨%d4, %f4, -, H4⟩, ⟨%f5, %hf5, H5⟩, Hk⟩
  obtain rfl := harg1.eq_unread hf1; obtain rfl := harg2.eq_unread hf2; obtain rfl := harg3.eq_unread hf3
  obtain rfl := harg5.eq_unread hf5
  -- run the body's loads and stores, each branch decided by the case's two facts
  sl_exec (disch := first | exact hc0 | exact hc1)
  sl_step
  iapply Hk
  -- the buffers only read are handed back at their contents
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    -- the output's one store covers it with what the running sum was just read to hold
    sl_unfold_words
    rw [View.read_writes_eq_canon _ _ _ (fun y => ⟨_, List.mem_singleton_self _, View.mem_set_unit_zero run1_hz inb_S1x1_S1x1_0_0 y⟩)]
    rw [View.canon_unit_zero run1_hz]
    unfold newSum
    simp only [View.readAt_eq_ld, harg1.read_unread, harg2.read_unread, harg3.read_unread, harg4.read_unread, harg5.read_unread, View.ld_unit_zero (S := S1x1024) run1_hz, View.ld_unit_zero (S := S1024x256) run1_hz, View.ld_unit_zero (S := S1x1) run1_hz, View.readCov_unit_zero (S := S1x1) _ run1_hz]
  iexists _; isplitr
  swap; · iexact H5
  ipureintro
  -- the last store into the running sum covers it, so it reads as that store's payload
  sl_unfold_words
  rw [View.read_writes_eq_canon _ _ _ (fun y => ⟨_, List.mem_singleton_self _, View.mem_set_unit_zero run1_hz inb_S1x1_S1x1_0_0 y⟩)]
  rw [View.canon_unit_zero run1_hz]
  unfold newSum
  simp only [View.readAt_eq_ld, harg1.read_unread, harg2.read_unread, harg3.read_unread, harg4.read_unread, harg5.read_unread, View.ld_unit_zero (S := S1x1024) run1_hz, View.ld_unit_zero (S := S1024x256) run1_hz, View.ld_unit_zero (S := S1x1) run1_hz]

end Cert.KernelIdeal.Frm

end
-- ==== Proof.KernelIdeal.Data1.lean ====
import proofs.«163277_j61710090109327_1_alg».proof.Proof.Gen.KernelIdeal.Launch
import proofs.«163277_j61710090109327_1_alg».proof.Proof.Gen.KernelIdeal.Skeleton
import proofs.«163277_j61710090109327_1_alg».proof.Proof.Gen.KernelIdeal.Points
import proofs.«163277_j61710090109327_1_alg».proof.Proof.KernelIdeal.Runs1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The finishing region: what its buffers hold point by point

The region is entered with the core's buffers at a valuation `V`. Its three input windows read the inputs' rows
and the two mined columns; its one output window, a single entry, is written back after the last point. The
running sum lives in a one-entry scratch buffer carried from point to point. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three blocks a point reads, at their literal types: the block of rows and the two mined values per row. -/
abbrev xr (c : Dev nD) (t : Fin cfg1.N) : Vec F S1024x256 .f32 := iblk1 V c 0 t
abbrev apr (c : Dev nD) (t : Fin cfg1.N) : Vec F S1x1024 .f32 := iblk1 V c 1 t
abbrev anr (c : Dev nD) (t : Fin cfg1.N) : Vec F S1x1024 .f32 := iblk1 V c 2 t

/-! ## The grid's closed forms -/

theorem hcond1_first : ∀ t : Fin cfg1.N, cond1_first (grid1.coords t) ↔ t.val = 0 :=
  (by decide +kernel : ∀ t : Fin grid1.N, cond1_first (grid1.coords t) ↔ t.val = 0)
theorem hcond1_last : ∀ t : Fin cfg1.N, cond1_last (grid1.coords t) ↔ t.val = 7 :=
  (by decide +kernel : ∀ t : Fin grid1.N, cond1_last (grid1.coords t) ↔ t.val = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_last (grid1.coords t) → cfg1.idle 3 (grid1.coords t) = true := by decide +kernel
theorem noFlush1_3 : ∀ t : Fin cfg1.N, ¬cond1_last (grid1.coords t) → (cfg1.win 3).flush t = false := by decide +kernel
theorem liveAt1_3 : ∀ t : Fin cfg1.N, cond1_last (grid1.coords t) → cfg1.idle 3 (grid1.coords t) = false := by decide +kernel

/-! ## The staging and scratch memrefs -/

abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
/-- The scratch entry. -/
abbrev scM1_0 : Memref sig .tc .vmem S1x1 .f32 := Memref.whole cc1_scratch0

/-- The core's scoped buffers this region neither stages through nor names, each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The same buffers beside one more resource, in the order the core lists its scoped buffers (the scratch entry is
    the last of them). -/
def rest1With (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ X)

theorem rest1With_split (c : Dev nD) (X : sProp 𝕄) : rest1With c X ⊢ iprop(rest1 c ∗ X) := by
  unfold rest1With rest1
  iintro ⟨H1, H2, H3, H4, H5, H6, H7, H8, H9, H10, H11, H12, H13, H14, HX⟩
  isplitr [HX]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · iexact HX

theorem rest1With_join (c : Dev nD) (X : sProp 𝕄) : iprop(rest1 c ∗ X) ⊢ rest1With c X := by
  unfold rest1With rest1
  iintro ⟨⟨H1, H2, H3, H4, H5, H6, H7, H8, H9, H10, H11, H12, H13, H14⟩, HX⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact HX

/-- The region's entry invariant, with the scratch entry as a memref owned at some contents. -/
theorem PhiA1_eq (c : Dev nD) :
    (Pipeline.ΦA spec1 c : sProp 𝕄)
      = iprop(rest1With c iprop(∃ d, owns (c : Thread nD τ) scM1_0 fullShare d) ∗ (∃ r, prngReg c r)) := by
  unfold Pipeline.ΦA rest1With; rw [scopedRest1_eq]; simp only [scM1_0, owns_whole]; try rfl

/-! ## The running sum -/

/-- What the scratch entry holds after the body at position `n`: at the first point this block's sum added to
    the reset value, afterwards added to what the point before left. -/
def acc1 (c : Dev nD) : (n : ℕ) → n < cfg1.N → Vec F S1x1 .f32
  | 0, hn => newSum (xr V c ⟨0, hn⟩) (apr V c ⟨0, hn⟩) (anr V c ⟨0, hn⟩) (k1_pay2 (F := F))
  | n + 1, hn => newSum (xr V c ⟨n + 1, hn⟩) (apr V c ⟨n + 1, hn⟩) (anr V c ⟨n + 1, hn⟩) (acc1 c n (Nat.lt_of_succ_lt hn))

theorem acc1_first (c : Dev nD) (t : Fin cfg1.N) (h : t.val = 0) :
    acc1 V c t.val t.isLt = newSum (xr V c t) (apr V c t) (anr V c t) (k1_pay2 (F := F)) := by
  obtain ⟨n, hn⟩ := t
  cases n with
  | zero => rfl
  | succ n => exact absurd h (Nat.succ_ne_zero _)

theorem acc1_later (c : Dev nD) (t : Fin cfg1.N) (h : ¬t.val = 0) :
    acc1 V c t.val t.isLt = newSum (xr V c t) (apr V c t) (anr V c t) (acc1 V c (t.val - 1) (Nat.lt_of_le_of_lt (Nat.sub_le _ _) t.isLt)) := by
  obtain ⟨n, hn⟩ := t
  cases n with
  | zero => exact absurd rfl h
  | succ n => rfl

/-- The region invariant before position `n`: at the start the core's scoped buffers at anything; afterwards the
    scratch entry at what the point before left, the other scoped buffers at anything. -/
def Phi1 (c : Dev nD) : (n : ℕ) → n ≤ cfg1.N → sProp 𝕄
  | 0, _ => Pipeline.ΦA spec1 c
  | n + 1, hn => iprop(rest1With c (owns (c : Thread nD τ) scM1_0 fullShare (acc1 V c n hn)) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(rest1With c (owns (c : Thread nD τ) scM1_0 fullShare (acc1 V c n hn)) ∗ (∃ r, prngReg c r)) := rfl

theorem Phi1_pos (c : Dev nD) (n : ℕ) (h : n ≤ cfg1.N) (hz : n ≠ 0) :
    Phi1 V c n h = iprop(rest1With c (owns (c : Thread nD τ) scM1_0 fullShare (acc1 V c (n - 1) (by omega))) ∗ (∃ r, prngReg c r)) := by
  cases n with
  | zero => exact absurd rfl hz
  | succ n => rfl

/-! ## The proof data -/

/-- The region's proof data on core `c`: the arrays as the region finds them; after the body each input's buffer
    at its block and the output's at the running sum; the invariant above; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => acc1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = acc1 V c t.val t.isLt := by dsimp only [dat1]

/-- Each input's current staging buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

end Cert.KernelIdeal.Frm

end
-- ==== Proof.KernelIdeal.Body1.lean ====
import proofs.«163277_j61710090109327_1_alg».proof.Proof.Gen.KernelIdeal.Launch
import proofs.«163277_j61710090109327_1_alg».proof.Proof.Gen.KernelIdeal.Skeleton
import proofs.«163277_j61710090109327_1_alg».proof.Proof.Gen.KernelIdeal.Points
import proofs.«163277_j61710090109327_1_alg».proof.Proof.KernelIdeal.Data1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The finishing region: the body's obligation at every point -/

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]

set_option maxHeartbeats 4000000 in
/-- The body at any point. The inputs' buffers hold their blocks; the closed forms say which of the three cases
    the point is in; the invariant hands the body the scratch entry at what the point before left (at anything
    at the first point, and the reset does not look), and takes it back at this point's sum; away from the
    last point the output's buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [leaves1_0, leaves1_1, leaves1_2]
  have hN : t.val < 8 := lt_of_lt_of_eq t.isLt (show cfg1.N = 8 from N_1)
  by_cases h0 : t.val = 0
  · have hl : ¬cond1_last (grid1.coords t) := fun h => by have := (hcond1_last t).mp h; omega
    have hf : cond1_first (grid1.coords t) := (hcond1_first t).mpr h0
    rw [Dat.leavesExact_idle (dat1 V c) 3 t (idleAt1_3 t hl) (noFlush1_3 t hl)]
    rw [acc1_first V c t h0]
    rw [Phi1_castSucc V c t, Phi1_zero V c _ _ h0, PhiA1_eq]
    iintro ⟨⟨HRS, Hg⟩, Ho, ⟨%d0, H0⟩, ⟨%d1, H1⟩, ⟨%d2, H2⟩, ⟨%d3, H3⟩⟩
    ihave HRS' := (rest1With_split c _) $$ HRS
    icases HRS' with ⟨HR, HS⟩
    iapply (run1_first c (grid1.coords t) (ms1_0 t) (hs1_0 t) (ms1_1 t) (hs1_1 t) (ms1_2 t) (hs1_2 t) (ms1_3 t) (hs1_3 t) scM1_0 (Memref.isWhole_whole _) hf hl
      (xr V c t) (apr V c t) (anr V c t) ((dat1 V c).before 3 t d3) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitr [Hg]
      · iapply (rest1With_join c _)
        isplitl [HR]; · iexact HR
        iexact HS
      · iexact Hg
    isplitl [Ho]; · iexact Ho
    isplitl [H0]; · iexact H0
    isplitl [H1]; · iexact H1
    isplitl [H2]; · iexact H2
    iexists _; iexact H3
  · have hf : ¬cond1_first (grid1.coords t) := fun h => h0 ((hcond1_first t).mp h)
    rw [acc1_later V c t h0]
    rw [Phi1_castSucc V c t, Phi1_pos V c _ _ h0]
    by_cases h1 : t.val = 7
    · have hl : cond1_last (grid1.coords t) := (hcond1_last t).mpr h1
      rw [show (dat1 V c).leavesExact 3 t = owns (c : Thread nD τ) (ms1_3 t) fullShare ((dat1 V c).after 3 t) from by
        unfold Dat.leavesExact; rw [liveAt1_3 t hl], after1_3]
      rw [acc1_later V c t h0]
      iintro ⟨⟨HRS, Hg⟩, Ho, ⟨%d0, H0⟩, ⟨%d1, H1⟩, ⟨%d2, H2⟩, ⟨%d3, H3⟩⟩
      ihave HRS' := (rest1With_split c _) $$ HRS
      icases HRS' with ⟨HR, HS⟩
      iapply (run1_last c (grid1.coords t) (ms1_0 t) (hs1_0 t) (ms1_1 t) (hs1_1 t) (ms1_2 t) (hs1_2 t) (ms1_3 t) (hs1_3 t) scM1_0 (Memref.isWhole_whole _) hf hl
        (xr V c t) (apr V c t) (anr V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitr [Hg]
        · iapply (rest1With_join c _)
          isplitl [HR]; · iexact HR
          iexact HS
        · iexact Hg
      isplitl [Ho]; · iexact Ho
      isplitl [H0]; · iexact H0
      isplitl [H1]; · iexact H1
      isplitl [H2]; · iexact H2
      iexact H3
    · have hl : ¬cond1_last (grid1.coords t) := fun h => h1 ((hcond1_last t).mp h)
      rw [Dat.leavesExact_idle (dat1 V c) 3 t (idleAt1_3 t hl) (noFlush1_3 t hl)]
      iintro ⟨⟨HRS, Hg⟩, Ho, ⟨%d0, H0⟩, ⟨%d1, H1⟩, ⟨%d2, H2⟩, ⟨%d3, H3⟩⟩
      ihave HRS' := (rest1With_split c _) $$ HRS
      icases HRS' with ⟨HR, HS⟩
      iapply (run1_mid c (grid1.coords t) (ms1_0 t) (hs1_0 t) (ms1_1 t) (hs1_1 t) (ms1_2 t) (hs1_2 t) (ms1_3 t) (hs1_3 t) scM1_0 (Memref.isWhole_whole _) hf hl
        (xr V c t) (apr V c t) (anr V c t) ((dat1 V c).before 3 t d3) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitr [Hg]
        · iapply (rest1With_join c _)
          isplitl [HR]; · iexact HR
          iexact HS
        · iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the scoped buffers back: the scratch entry's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 8 := N_1; omega
  rw [show (dat1 V c).Φ (Fin.last cfg1.N) = Phi1 V c (Fin.last cfg1.N).val (Nat.le_of_lt_succ (Fin.last cfg1.N).isLt) from rfl,
    Phi1_pos V c _ _ ht, PhiA1_eq]
  iintro ⟨HRS, Hg⟩
  isplitr [Hg]
  · ihave HRS' := (rest1With_split c _) $$ HRS
    icases HRS' with ⟨HR, HS⟩
    iapply (rest1With_join c _)
    isplitl [HR]; · iexact HR
    iexists _; iexact HS
  · iexact Hg

end Cert.KernelIdeal.Frm

end
-- ==== Proof.KernelIdeal.Shares0.lean ====
import proofs.«163277_j61710090109327_1_alg».proof.Proof.Gen.KernelIdeal.Launch
import proofs.«163277_j61710090109327_1_alg».proof.Proof.Gen.KernelIdeal.Skeleton
import proofs.«163277_j61710090109327_1_alg».proof.Proof.Gen.KernelIdeal.Points
import proofs.«163277_j61710090109327_1_alg».proof.Proof.KernelIdeal.Data0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The mining region's arrays, dealt among its windows

Two of the region's four arrays are read through two windows each. The pipeline holds an array once per window,
at the window's share; the buffer behind an array read twice is therefore held half and half. The four distinct
buffers, each whole at the full share, are the six windows' arrays at their shares, and back. -/

variable (V : (c : Dev nD) → (b : Ref sig .tc) → Buf (Elt F) ((c : Thread nD τ).loc b))

/-- The distinct buffers behind the windows' arrays, listed. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v5) ↦{fullShare} W main_v5) ∗ (((c : Thread nD τ).loc main_v6) ↦{fullShare} W main_v6)
          ∗ (((c : Thread nD τ).loc main_v7_0) ↦{fullShare} W main_v7_0) ∗ (((c : Thread nD τ).loc main_v7_1) ↦{fullShare} W main_v7_1)) := by
  unfold Pipeline.arrBufs
  rw [bigSep_eq_bigSepL_of_eq [main_v5, main_v6, main_v7_0, main_v7_1] (by decide) (by decide)]
  rfl

/-- The six windows' arrays at the proof data's shares, listed. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_v5) ↦{fullShare.left} G 0) ∗ (((c : Thread nD τ).loc main_v5) ↦{fullShare.right} G 1)
          ∗ (((c : Thread nD τ).loc main_v6) ↦{fullShare.left} G 2) ∗ (((c : Thread nD τ).loc main_v6) ↦{fullShare.right} G 3)
          ∗ (((c : Thread nD τ).loc main_v7_0) ↦{fullShare} G 4) ∗ (((c : Thread nD τ).loc main_v7_1) ↦{fullShare} G 5)) := by
  unfold Dat.arrays
  rw [bigSep_W0]
  rw [(arr_whole0 0).set_eq_univ, (arr_whole0 2).set_eq_univ, (arr_whole0 4).set_eq_univ, (arr_whole0 5).set_eq_univ]
  rfl

/-- Dealing: the four buffers at a valuation `W` are the six arrays at contents read off `W`. -/
theorem arrays0_deal (c : Dev nD) (W : (b : Ref sig .tc) → Buf (Elt F) ((c : Thread nD τ).loc b))
    (G : (w : Fin cfg0.W) → Buf (Elt F) ((cfg0.win w).arr.view.loc (c : Thread nD τ)))
    (hG : ∀ w, G w = W (Pipeline.arrRef spec0 w)) :
    (Pipeline.arrBufs (Ix := Unit) (Name := ℕ) (U := UR sig nD τ) (Lvl := ℕ) spec0 c W : sProp 𝕄) ⊢ (dat0 V c).arrays G := by
  rw [arrBufs0_eq, arrays0_eq, hG 0, hG 1, hG 2, hG 3, hG 4, hG 5]
  iintro ⟨H5, H6, H70, H71⟩
  ihave H5' := (pointsTo_share (PosShare.mem_left_op_right fullShare)).1 $$ H5
  ihave H6' := (pointsTo_share (PosShare.mem_left_op_right fullShare)).1 $$ H6
  icases H5' with ⟨H5l, H5r⟩
  icases H6' with ⟨H6l, H6r⟩
  isplitl [H5l]; · iexact H5l
  isplitl [H5r]; · iexact H5r
  isplitl [H6l]; · iexact H6l
  isplitl [H6r]; · iexact H6r
  isplitl [H70]; · iexact H70
  iexact H71

/-- Gathering: the six arrays at contents read off `W` are the four buffers at `W`. -/
theorem arrays0_gather (c : Dev nD) (W : (b : Ref sig .tc) → Buf (Elt F) ((c : Thread nD τ).loc b))
    (G : (w : Fin cfg0.W) → Buf (Elt F) ((cfg0.win w).arr.view.loc (c : Thread nD τ)))
    (hG : ∀ w, G w = W (Pipeline.arrRef spec0 w)) :
    ((dat0 V c).arrays G : sProp 𝕄) ⊢ Pipeline.arrBufs (Ix := Unit) (Name := ℕ) (U := UR sig nD τ) (Lvl := ℕ) spec0 c W := by
  rw [arrBufs0_eq, arrays0_eq, hG 0, hG 1, hG 2, hG 3, hG 4, hG 5]
  iintro ⟨H5l, H5r, H6l, H6r, H70, H71⟩
  isplitl [H5l H5r]
  · iapply (pointsTo_share (PosShare.mem_left_op_right fullShare)).2
    isplitl [H5l]; · iexact H5l
    iexact H5r
  isplitl [H6l H6r]
  · iapply (pointsTo_share (PosShare.mem_left_op_right fullShare)).2
    isplitl [H6l]; · iexact H6l
    iexact H6r
  isplitl [H70]; · iexact H70
  iexact H71

end Cert.KernelIdeal.Frm

end
-- ==== Proof.KernelIdeal.Segs.lean ====
import proofs.«163277_j61710090109327_1_alg».proof.Proof.Gen.KernelIdeal.Launch
import proofs.«163277_j61710090109327_1_alg».proof.Proof.Gen.KernelIdeal.Skeleton
import proofs.«163277_j61710090109327_1_alg».proof.Proof.Gen.KernelIdeal.Points
import proofs.«163277_j61710090109327_1_alg».proof.Proof.Gen.KernelIdeal.Regions
import proofs.«163277_j61710090109327_1_alg».proof.Proof.KernelIdeal.Body0
import proofs.«163277_j61710090109327_1_alg».proof.Proof.KernelIdeal.Body1
import proofs.«163277_j61710090109327_1_alg».proof.Proof.KernelIdeal.Shares0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! # The two regions as segments of the program's run

Between two items of the program a core holds every unscoped buffer whole, at the contents the items so far
have left, beside its generator register at some state and the fact that it owes nothing. Each region takes its
windows' arrays out of those buffers, runs, and puts them back at what its write-backs leave. -/

variable (m : (ℓ : Loc nD τ sig) → Buf (Elt F) ℓ)

/-- The core's buffers as the mining region finds them: after the host lines before it. -/
abbrev Vent0 (c : Dev nD) (b : Ref sig .tc) : Buf (Elt F) ((c : Thread nD τ).loc b) := V2 m c (Proc.devRef .tc b)

/-- What the mining region leaves in its two results. -/
def o3_0 (c : Dev nD) : Buf (Elt F) ((c : Thread nD τ).loc main_v7_0) := (dat0 (Vent0 m) c).arrAt 4 cfg0.N
def o3_1 (c : Dev nD) : Buf (Elt F) ((c : Thread nD τ).loc main_v7_1) := (dat0 (Vent0 m) c).arrAt 5 cfg0.N

/-- The core's buffers as the finishing region finds them: the mining region's two results updated. -/
abbrev W3 (c : Dev nD) : Valuation τ sig (Elt F) :=
  Function.update (Function.update (V2 m c) main_v7_0 (o3_0 m c)) main_v7_1 (o3_1 m c)
abbrev Vent1 (c : Dev nD) (b : Ref sig .tc) : Buf (Elt F) ((c : Thread nD τ).loc b) := W3 m c (Proc.devRef .tc b)

/-- What the finishing region leaves in its result. -/
def o4 (c : Dev nD) : Buf (Elt F) ((c : Thread nD τ).loc main_v8) := (dat1 (Vent1 m) c).arrAt 3 cfg1.N

/-- What the regions leave in the buffers they may change, as the generated valuations read it. -/
def outs : Outs (F := F) := fun _ r c =>
  if h0 : r = main_v7_0 then h0 ▸ o3_0 m c
  else if h1 : r = main_v7_1 then h1 ▸ o3_1 m c
  else if h2 : r = main_v8 then h2 ▸ o4 m c
  else m ((c : Thread nD τ).loc r)

theorem outs_v7_0 (c : Dev nD) : outs m 3 main_v7_0 c = o3_0 m c := by unfold outs; rw [dif_pos rfl]
theorem outs_v7_1 (c : Dev nD) : outs m 3 main_v7_1 c = o3_1 m c := by
  unfold outs; rw [dif_neg (by decide), dif_pos rfl]
theorem outs_v8 (c : Dev nD) : outs m 4 main_v8 c = o4 m c := by
  unfold outs; rw [dif_neg (by decide), dif_neg (by decide), dif_pos rfl]

theorem V3_eq (c : Dev nD) : V3 m (outs m) c = W3 m c := by
  unfold V3; rw [outs_v7_0, outs_v7_1]

/-- The core's buffers after the finishing region. -/
abbrev W4 (c : Dev nD) : Valuation τ sig (Elt F) := Function.update (W3 m c) main_v8 (o4 m c)

theorem V4_eq (c : Dev nD) : V4 m (outs m) c = W4 m c := by
  unfold V4; rw [outs_v8, V3_eq]

/-- Every pipeline's proof data, each at its region's entry contents. -/
def pdats : (p : Fin 2) → (c : Dev nD) → Dat τ (Elt F) Unit ℕ (UR sig nD τ) ℕ (cfgs p) c
  | ⟨0, _⟩ => fun c => dat0 (Vent0 m) c
  | ⟨1, _⟩ => fun c => dat1 (Vent1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its
    owing nothing. -/
abbrev R (c : Dev nD) : sProp 𝕄 := iprop((∃ r, prngReg c r) ∗ ∃ W, owes (c : Thread nD τ) (0 : CellTallies nD τ sig Unit) W)

theorem hF0_0 (c : Dev nD) : (dat0 (Vent0 m) c).arrAt 0 cfg0.N = Vent1 m c main_v5 := by
  refine ((dat0 (Vent0 m) c).arrAt_in 0 rfl _).trans ((A_eq0 (Vent0 m) c 0).trans ?_)
  show V2 m c (Proc.devRef .tc main_v5) = W3 m c (Proc.devRef .tc main_v5)
  dsimp only [W3]
  rw [Function.update_of_ne (StableHlo.devRef_ne_of_ne (by decide : main_v5 ≠ main_v7_1)), Function.update_of_ne (StableHlo.devRef_ne_of_ne (by decide : main_v5 ≠ main_v7_0))]
theorem hF0_1 (c : Dev nD) : (dat0 (Vent0 m) c).arrAt 1 cfg0.N = Vent1 m c main_v5 := by
  refine ((dat0 (Vent0 m) c).arrAt_in 1 rfl _).trans ((A_eq0 (Vent0 m) c 1).trans ?_)
  show V2 m c (Proc.devRef .tc main_v5) = W3 m c (Proc.devRef .tc main_v5)
  dsimp only [W3]
  rw [Function.update_of_ne (StableHlo.devRef_ne_of_ne (by decide : main_v5 ≠ main_v7_1)), Function.update_of_ne (StableHlo.devRef_ne_of_ne (by decide : main_v5 ≠ main_v7_0))]
theorem hF0_2 (c : Dev nD) : (dat0 (Vent0 m) c).arrAt 2 cfg0.N = Vent1 m c main_v6 := by
  refine ((dat0 (Vent0 m) c).arrAt_in 2 rfl _).trans ((A_eq0 (Vent0 m) c 2).trans ?_)
  show V2 m c (Proc.devRef .tc main_v6) = W3 m c (Proc.devRef .tc main_v6)
  dsimp only [W3]
  rw [Function.update_of_ne (StableHlo.devRef_ne_of_ne (by decide : main_v6 ≠ main_v7_1)), Function.update_of_ne (StableHlo.devRef_ne_of_ne (by decide : main_v6 ≠ main_v7_0))]
theorem hF0_3 (c : Dev nD) : (dat0 (Vent0 m) c).arrAt 3 cfg0.N = Vent1 m c main_v6 := by
  refine ((dat0 (Vent0 m) c).arrAt_in 3 rfl _).trans ((A_eq0 (Vent0 m) c 3).trans ?_)
  show V2 m c (Proc.devRef .tc main_v6) = W3 m c (Proc.devRef .tc main_v6)
  dsimp only [W3]
  rw [Function.update_of_ne (StableHlo.devRef_ne_of_ne (by decide : main_v6 ≠ main_v7_1)), Function.update_of_ne (StableHlo.devRef_ne_of_ne (by decide : main_v6 ≠ main_v7_0))]
theorem hF0_4 (c : Dev nD) : (dat0 (Vent0 m) c).arrAt 4 cfg0.N = Vent1 m c main_v7_0 := by
  show o3_0 m c = W3 m c (Proc.devRef .tc main_v7_0)
  dsimp only [W3]
  rw [Function.update_of_ne (StableHlo.devRef_ne_of_ne (by decide : main_v7_0 ≠ main_v7_1)), Function.update_self]
theorem hF0_5 (c : Dev nD) : (dat0 (Vent0 m) c).arrAt 5 cfg0.N = Vent1 m c main_v7_1 := by
  show o3_1 m c = W3 m c (Proc.devRef .tc main_v7_1)
  dsimp only [W3]
  rw [Function.update_self]

theorem hF0 (c : Dev nD) (w : Fin cfg0.W) : (dat0 (Vent0 m) c).arrAt w cfg0.N = Vent1 m c (Pipeline.arrRef spec0 w) :=
  match w with
  | ⟨0, _⟩ => hF0_0 m c
  | ⟨1, _⟩ => hF0_1 m c
  | ⟨2, _⟩ => hF0_2 m c
  | ⟨3, _⟩ => hF0_3 m c
  | ⟨4, _⟩ => hF0_4 m c
  | ⟨5, _⟩ => hF0_5 m c

theorem hrest0 (c : Dev nD) :
    (Pipeline.unscopedRest (Ix := Unit) (Name := ℕ) (U := UR sig nD τ) (Lvl := ℕ) spec0 c (Vent0 m c) : sProp 𝕄)
      = Pipeline.unscopedRest (Ix := Unit) (Name := ℕ) (U := UR sig nD τ) (Lvl := ℕ) spec0 c (Vent1 m c) := by
  unfold Pipeline.unscopedRest
  refine bigSep_congr fun b hb => ?_
  have hb' := (Finset.mem_sdiff.mp hb).2
  have h0 : b ≠ main_v7_0 := fun e => hb' (Finset.mem_image.mpr ⟨4, Finset.mem_univ _, e.symm⟩)
  have h1 : b ≠ main_v7_1 := fun e => hb' (Finset.mem_image.mpr ⟨5, Finset.mem_univ _, e.symm⟩)
  dsimp only [Vent1, Vent0, W3]
  rw [Function.update_of_ne (StableHlo.devRef_ne_of_ne h1), Function.update_of_ne (StableHlo.devRef_ne_of_ne h0)]

theorem held0_entry (c : Dev nD) : StableHlo.held (c : Thread nD τ) (Pipeline.ucRefs τ sig) (V2 m c)
    = iprop((Pipeline.arrBufs (Ix := Unit) (Name := ℕ) (U := UR sig nD τ) (Lvl := ℕ) spec0 c (Vent0 m c) : sProp 𝕄)
        ∗ Pipeline.unscopedRest (Ix := Unit) (Name := ℕ) (U := UR sig nD τ) (Lvl := ℕ) spec0 c (Vent0 m c)) := by
  rw [← Pipeline.unscopedBufs_held (Ix := Unit) (Name := ℕ) (U := UR sig nD τ) (Lvl := ℕ) c (V2 m c)]
  exact Pipeline.unscopedBufs_split₀ cfgs 0 winFacts₀0.arr_unscoped c (Vent0 m c)

theorem held0_exit (c : Dev nD) : StableHlo.held (c : Thread nD τ) (Pipeline.ucRefs τ sig) (W3 m c)
    = iprop((Pipeline.arrBufs (Ix := Unit) (Name := ℕ) (U := UR sig nD τ) (Lvl := ℕ) spec0 c (Vent1 m c) : sProp 𝕄)
        ∗ Pipeline.unscopedRest (Ix := Unit) (Name := ℕ) (U := UR sig nD τ) (Lvl := ℕ) spec0 c (Vent1 m c)) := by
  rw [← Pipeline.unscopedBufs_held (Ix := Unit) (Name := ℕ) (U := UR sig nD τ) (Lvl := ℕ) c (W3 m c)]
  exact Pipeline.unscopedBufs_split₀ cfgs 0 winFacts₀0.arr_unscoped c (Vent1 m c)

theorem deal0 (c : Dev nD) :
    (Pipeline.arrBufs (Ix := Unit) (Name := ℕ) (U := UR sig nD τ) (Lvl := ℕ) spec0 c (Vent0 m c) : sProp 𝕄)
      ⊢ (dat0 (Vent0 m) c).arrays ((dat0 (Vent0 m) c).arrAt · 0) :=
  arrays0_deal (Vent0 m) c (Vent0 m c) (fun w => (dat0 (Vent0 m) c).arrAt w 0) (fun w => A_eq0 (Vent0 m) c w)

theorem gather0 (c : Dev nD) :
    ((dat0 (Vent0 m) c).arrays ((dat0 (Vent0 m) c).arrAt · cfg0.N) : sProp 𝕄)
      ⊢ Pipeline.arrBufs (Ix := Unit) (Name := ℕ) (U := UR sig nD τ) (Lvl := ℕ) spec0 c (Vent1 m c) :=
  arrays0_gather (Vent0 m) c (Vent1 m c) (fun w => (dat0 (Vent0 m) c).arrAt w cfg0.N) (hF0 m c)

set_option backward.isDefEq.respectTransparency.types false in
/-- The mining region: entered from every unscoped buffer at the contents the host lines left, left with its two
    results updated. The four buffers behind its six windows' arrays are dealt among the windows at entry and
    gathered at exit; the generator register passes through the invariant; nothing is owed; the kernel has no
    semaphore of its own. -/
def reg0 : RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Vent0 m) c).loose
  hwaits := Pipeline.hwaits_of_owed_zero _ _ _ _ L lv 0 fun _ _ => rfl
  pre c := iprop(StableHlo.held (c : Thread nD τ) (Pipeline.ucRefs τ sig) (V2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (Vent0 m c)
  hentry c := by
    rw [Pipeline.ownSems0_none]
    rw [held0_entry]
    iintro ⟨⟨⟨Ha, Hrest⟩, Hp, HO⟩, -, -⟩
    imodintro
    isplitl [Ha]; · iapply (deal0 m c); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (Vent0 m) c)
    unfold Pipeline.ΦA
    iintro ⟨Hp, -, Hr⟩
    isplitl [Hr]; · iexact Hr
    iexact Hp
  hout c := by
    rw [Pipeline.ownSems0_none]
    refine (hout0 (Vent0 m) c).trans ?_
    unfold Pipeline.ΦA
    iintro ⟨Hr, Hp⟩
    isplitl [Hp]; · iexact Hp
    isplitr; · iempintro
    iexact Hr
  hexit c := by
    rw [held0_exit, ← hrest0]
    iintro ⟨Ha, HO, HY, Hrest⟩
    imodintro
    isplitl [Ha Hrest]
    · isplitl [Ha]; · iapply (gather0 m c); iexact Ha
      iexact Hrest
    isplitl [HY]; · iexact HY
    unfold Pipeline.Dat.owesAt Pipeline.owesWithin
    icases HO with ⟨%W, -, HO⟩; iexists W; iexact HO

/-- The core's buffers read at a reference, after the finishing region. -/
abbrev Vexit1 (c : Dev nD) (b : Ref sig .tc) : Buf (Elt F) ((c : Thread nD τ).loc b) := W4 m c (Proc.devRef .tc b)

theorem hF1_0 (c : Dev nD) : (dat1 (Vent1 m) c).arrAt 0 cfg1.N = Vexit1 m c main_arg0 := by
  refine ((dat1 (Vent1 m) c).arrAt_in 0 rfl _).trans ((A_eq1 (Vent1 m) c 0).trans ?_)
  show W3 m c (Proc.devRef .tc main_arg0) = W4 m c (Proc.devRef .tc main_arg0)
  dsimp only [W4]
  rw [Function.update_of_ne (StableHlo.devRef_ne_of_ne (by decide : main_arg0 ≠ main_v8))]
theorem hF1_1 (c : Dev nD) : (dat1 (Vent1 m) c).arrAt 1 cfg1.N = Vexit1 m c main_v7_0 := by
  refine ((dat1 (Vent1 m) c).arrAt_in 1 rfl _).trans ((A_eq1 (Vent1 m) c 1).trans ?_)
  show W3 m c (Proc.devRef .tc main_v7_0) = W4 m c (Proc.devRef .tc main_v7_0)
  dsimp only [W4]
  rw [Function.update_of_ne (StableHlo.devRef_ne_of_ne (by decide : main_v7_0 ≠ main_v8))]
theorem hF1_2 (c : Dev nD) : (dat1 (Vent1 m) c).arrAt 2 cfg1.N = Vexit1 m c main_v7_1 := by
  refine ((dat1 (Vent1 m) c).arrAt_in 2 rfl _).trans ((A_eq1 (Vent1 m) c 2).trans ?_)
  show W3 m c (Proc.devRef .tc main_v7_1) = W4 m c (Proc.devRef .tc main_v7_1)
  dsimp only [W4]
  rw [Function.update_of_ne (StableHlo.devRef_ne_of_ne (by decide : main_v7_1 ≠ main_v8))]
theorem hF1_3 (c : Dev nD) : (dat1 (Vent1 m) c).arrAt 3 cfg1.N = Vexit1 m c main_v8 := by
  show o4 m c = W4 m c (Proc.devRef .tc main_v8)
  dsimp only [W4]
  rw [Function.update_self]

theorem hF1 (c : Dev nD) (w : Fin cfg1.W) : (dat1 (Vent1 m) c).arrAt w cfg1.N = Vexit1 m c (Pipeline.arrRef spec1 w) :=
  match w with
  | ⟨0, _⟩ => hF1_0 m c
  | ⟨1, _⟩ => hF1_1 m c
  | ⟨2, _⟩ => hF1_2 m c
  | ⟨3, _⟩ => hF1_3 m c

theorem hrest1 (c : Dev nD) : ∀ b, b ∉ Finset.univ.image (Pipeline.arrRef spec1) → Vexit1 m c b = Vent1 m c b := fun b hb => by
  have h8 : b ≠ main_v8 := fun e => hb (Finset.mem_image.mpr ⟨3, Finset.mem_univ _, e.symm⟩)
  dsimp only [Vexit1, W4]
  rw [Function.update_of_ne (StableHlo.devRef_ne_of_ne h8)]

set_option backward.isDefEq.respectTransparency.types false in
/-- The finishing region: entered from the buffers as the mining region left them, left with its one result
    updated. Its four arrays are distinct buffers, each held whole. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vent1 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (Vent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Vent1 m) c)
    unfold Pipeline.ΦA
    iintro ⟨Hp, -, Hr⟩
    isplitl [Hr]; · iexact Hr
    iexact Hp
  hout c := by
    rw [Pipeline.ownSems0_none]
    refine (hout1 (Vent1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vent1 m c) (Vexit1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's pieces shared by the frame and the run with its result -/

/-- The pipeline library's launch element is the program's. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals every core makes the state that rides beside the buffers. -/
theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME: from any memory with zero counters every weakly fair execution of the program terminates, nothing
    faulting, and both arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_cond m emb₁ () 𝒱₀ L lv (fun _ _ => rfl) ρ (outs m) (pdats m) 0 (fun _ => iprop(emp))
    (initOf (Pipeline.cells cfgs cellOf_inj) (Pipeline.launchToks cfgs cellOf_inj)) hu₀
    (fun _ c => R c) (hE0 ρ) (fun c => by iintro ⟨-, H⟩; iexact H)
    (reg0 m) (fun c => .rfl) (fun c => by rw [V3_eq]; exact .rfl)
    (reg1 m) (fun c => by rw [V3_eq]; exact .rfl) (fun c => by rw [V4_eq]; exact .rfl)

end Cert.KernelIdeal.Frm

end
-- ==== Proof.Spec.lean ====
/-
  The hard-mining triplet loss as one function of the argument arrays.

  Rows of the input matrix are scaled to unit length (up to a small additive guard on the length); the
  similarity of two rows is the inner product of the scaled rows. For each row, among the rows carrying
  the same label the smallest similarity is kept, among the rows carrying another label the largest.
  Each row is then compared, entry by entry, with these two numbers (shifted by a small constant), the two
  Euclidean lengths are subtracted, a margin is added and the result is cut off at zero; the loss is the
  sum over all rows.

  Everything is stated over the extended reals; sums carry the additive unit they are started from, and a
  minimum or maximum over a row is a fold started from the value the masked entries take, exactly as the
  operations are started in the programs, so that no fact about infinities is needed to compare them.
-/
import Idealize.ShloMosaic.PureOps.Ideal
import Idealize.ShloMosaic.Lib.ValueIdx

noncomputable section

namespace Cert.Triplet

open Idealize.ShloMosaic Idealize.ShloMosaic.ValueIdx

/-- The matrix of inputs: 8192 rows of 256 entries. -/
abbrev SX : Shape := ⟨2, ![8192, 256]⟩
/-- One label per row. -/
abbrev SL : Shape := ⟨1, ![8192]⟩
/-- A single number. -/
abbrev S0 : Shape := ⟨0, ![]⟩

/-- The value a masked entry takes under a minimum, and the value the minimum is started from. -/
def pinf : EReal := Ideal.ofBits .f32 0x7F800000#32
/-- The value a masked entry takes under a maximum, and the value the maximum is started from. -/
def ninf : EReal := Ideal.ofBits .f32 0xFF800000#32
/-- The shift inside the two distances. -/
def eps : EReal := Ideal.ofBits .f32 0x358637BD#32
/-- The guard added to a row's length before dividing by it. -/
def eps12 : EReal := Ideal.ofBits .f32 0x2B8CBCCC#32
/-- The margin. -/
def one : EReal := Ideal.ofBits .f32 0x3F800000#32
/-- What every sum is started from, and the floor of a row's loss. -/
def zero : EReal := Ideal.ofBits .f32 0x00000000#32

/-- The Euclidean length of row `a`. -/
def rowNorm (x : SX.Idx → EReal) (a : Fin 8192) : EReal :=
  Ideal.sqrt (zero + ∑ k : Fin 256, x (ix2 a k) * x (ix2 a k))

/-- The matrix with every row divided by its guarded length. -/
def xnorm (x : SX.Idx → EReal) : SX.Idx → EReal :=
  fun i => Ideal.div (x i) (rowNorm x ⟨(i 0).val, idx2_lt0 i⟩ + eps12)

/-- The similarity of rows `a` and `b` of a matrix `y`: their inner product. -/
def sim (y : SX.Idx → EReal) (a b : Fin 8192) : EReal :=
  ∑ k : Fin 256, y (ix2 a k) * y (ix2 b k)

/-- The least similarity of row `a` to a row with the same label. -/
def hardPos (y : SX.Idx → EReal) (lab : SL.Idx → BitVec 32) (a : Fin 8192) : EReal :=
  Finset.univ.fold min pinf fun b : Fin 8192 => if lab (ix1 a) = lab (ix1 b) then sim y a b else pinf

/-- The greatest similarity of row `a` to a row with another label. -/
def hardNeg (y : SX.Idx → EReal) (lab : SL.Idx → BitVec 32) (a : Fin 8192) : EReal :=
  Finset.univ.fold max ninf fun b : Fin 8192 => if lab (ix1 a) = lab (ix1 b) then ninf else sim y a b

/-- The length of row `a` of `x` after the number `s` is subtracted from, and the shift added to, each entry. -/
def dist (x : SX.Idx → EReal) (s : EReal) (a : Fin 8192) : EReal :=
  Ideal.sqrt (zero + ∑ k : Fin 256, (x (ix2 a k) - s + eps) * (x (ix2 a k) - s + eps))

/-- Row `a`'s share of the loss. -/
def rowLoss (x y : SX.Idx → EReal) (lab : SL.Idx → BitVec 32) (a : Fin 8192) : EReal :=
  max (dist x (hardPos y lab a) a - dist x (hardNeg y lab a) a + one) zero

/-- The loss for inputs `x`, similarities taken between the rows of `y`. -/
def loss (x y : SX.Idx → EReal) (lab : SL.Idx → BitVec 32) : EReal :=
  zero + ∑ a : Fin 8192, rowLoss x y lab a

/-- The programs' one result. -/
def result (x : SX.Idx → EReal) (lab : SL.Idx → BitVec 32) : S0.Idx → EReal :=
  fun _ => loss x (xnorm x) lab

end Cert.Triplet

end
-- ==== Proof.KernelIdeal.Values0.lean ====
import proofs.«163277_j61710090109327_1_alg».proof.Proof.KernelIdeal.Data0
import proofs.«163277_j61710090109327_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! # What the mining region computes, over the extended reals -/

/-- The labels as one label per row, read off the one-row matrix the mining region is handed. -/
def labOf (l : S1x8192.Idx → BitVec 32) : Cert.Triplet.SL.Idx → BitVec 32 :=
  fun i => l (ix2 (0 : Fin 1) (⟨(i 0).val, (i 0).isLt⟩ : Fin 8192))

/-! ## The payloads read at an index -/

theorem lhs_mm_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem lhs_mm_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem rhs_mm_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem rhs_mm_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The block of similarities: entry `(p, q)` is the inner product of row `p` of the first block with row `q` of
    the second. -/
theorem pay6_apply (x0 x1 : FVec Ideal S1024x256 .bf16) (p q : Fin 1024) :
    k0_pay6 (F := Ideal) x0 x1 (ix2 p q) = ∑ k : Fin 256, x0 (ix2 p k) * x1 (ix2 q k) := by
  unfold k0_pay6
  simp only [shapeCast_self]
  refine (Ideal.matmul_constant_zero_apply dot_S1024x256_S256x1024_S1024x1024_1_0_0_1_n_n none x0 _ (ix2 p q)).trans ?_
  rw [← Equiv.sum_comp (ValueIdx.contrEquiv1 dot_S1024x256_S256x1024_S1024x1024_1_0_0_1_n_n 256 rfl rfl).symm]
  refine Finset.sum_congr rfl fun k _ => ?_
  have hk := ValueIdx.contrEquiv1_symm_val dot_S1024x256_S256x1024_S1024x1024_1_0_0_1_n_n 256 rfl rfl k
  have el : dot_S1024x256_S256x1024_S1024x1024_1_0_0_1_n_n.lhsIdx (ix2 p q) ((ValueIdx.contrEquiv1 dot_S1024x256_S256x1024_S1024x1024_1_0_0_1_n_n 256 rfl rfl).symm k) = ix2 p k := funext fun a => Fin.ext (by
    match a with
    | ⟨0, _⟩ => exact lhs_mm_0 _ _
    | ⟨1, _⟩ => exact (lhs_mm_1 _ _).trans hk)
  have er : dot_S1024x256_S256x1024_S1024x1024_1_0_0_1_n_n.rhsIdx (ix2 p q) ((ValueIdx.contrEquiv1 dot_S1024x256_S256x1024_S1024x1024_1_0_0_1_n_n 256 rfl rfl).symm k) = ix2 k q := funext fun a => Fin.ext (by
    match a with
    | ⟨0, _⟩ => exact (rhs_mm_0 _ _).trans hk
    | ⟨1, _⟩ => exact rhs_mm_1 _ _)
  rw [el, er, transpose_ix2_apply]

/-! ## Two layout operations on columns, and a word -/

/-- A column broadcast along the rows reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector cast to a column reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- Choosing by the bit "the two words are equal" is choosing by the equality of the two words. -/
theorem select_eq_ite {α : Type} (u v : BitVec 32) (A B : α) :
    Scalar.select (IntOp.cmpi .eq u v) A B = if u = v then A else B := by
  unfold Scalar.select IntOp.cmpi
  by_cases h : u = v
  · subst h
    rw [if_pos rfl, if_pos]
    simp
  · have hb : (u == v) = false := beq_false_of_ne h
    rw [if_neg h, if_neg]
    simp [hb]

/-- The block of label comparisons: entry `(p, q)` compares the label of row `p` with the label of column `q`. -/
theorem pay7_apply (l2 l3 : IVec S1x1024 32) (p q : Fin 1024) :
    k0_pay7 (F := Ideal) l2 l3 (ix2 p q) = IntOp.cmpi .eq (l2 (ix2 (0 : Fin 1) p)) (l3 (ix2 (0 : Fin 1) q)) := by
  unfold k0_pay7
  simp only [shapeCast_self]
  show IntOp.cmpi .eq (broadcastTo S1024x1024 (transpose S1024x1 [1, 0] l2 transposes_S1x1024_p1_0_S1024x1) broadcasts_S1024x1_S1024x1024 (ix2 p q))
      (broadcastTo S1024x1024 l3 broadcasts_S1x1024_S1024x1024 (ix2 p q)) = _
  rw [broadcastTo_a1_ab_apply, broadcastTo_1b_ab_apply, transpose_ix2_apply]

/-- The lane minimum and maximum of the mining block drop the second axis. -/
theorem lift_row (p k : Fin 1024) : reduces_S1024x1024_S1024.lift (ix1 p) k = ix2 p k := by
  funext c; refine Fin.ext ?_
  match c with
  | ⟨0, _⟩ => rfl
  | ⟨1, _⟩ => rfl

/-- A lane minimum over one axis, over the extended reals: the fold of `min` from the accumulator's value over that
    axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The least entry of row `p` of a block, started from the value a minimum ignores. -/
theorem rowMin (src : FVec Ideal S1024x1024 .f32) (p : Fin 1024) :
    multiReduction .minimumf [1] S1024 src 0x7F800000#32 reduces_S1024x1024_S1024 (.inl rfl) rfl (ix1 p)
      = (Finset.univ : Finset (Fin 1024)).fold min Cert.Triplet.pinf (fun k : Fin 1024 => src (ix2 p k)) := by
  refine (multiReduction_minimumf_single src 0x7F800000#32 reduces_S1024x1024_S1024 (.inl rfl) rfl (ix1 p)).trans ?_
  show (Finset.univ : Finset (Fin 1024)).fold min Cert.Triplet.pinf (fun k : Fin 1024 => src (reduces_S1024x1024_S1024.lift (ix1 p) k)) = _
  refine Finset.fold_congr (fun k _ => ?_)
  rw [lift_row]

/-- The greatest entry of row `p` of a block, started from the value a maximum ignores. -/
theorem rowMax (src : FVec Ideal S1024x1024 .f32) (p : Fin 1024) :
    multiReduction .maximumf [1] S1024 src 0xFF800000#32 reduces_S1024x1024_S1024 (.inl rfl) rfl (ix1 p)
      = (Finset.univ : Finset (Fin 1024)).fold max Cert.Triplet.ninf (fun k : Fin 1024 => src (ix2 p k)) := by
  refine (Ideal.multiReduction_maximumf_single src 0xFF800000#32 reduces_S1024x1024_S1024 (.inl rfl) rfl (ix1 p)).trans ?_
  show (Finset.univ : Finset (Fin 1024)).fold max Cert.Triplet.ninf (fun k : Fin 1024 => src (reduces_S1024x1024_S1024.lift (ix1 p) k)) = _
  refine Finset.fold_congr (fun k _ => ?_)
  rw [lift_row]

/-- The similarity of row `p` of the first block to row `q` of the second where the labels agree, the value a
    minimum ignores elsewhere. -/
def posEntry (x0 x1 : FVec Ideal S1024x256 .bf16) (l2 l3 : IVec S1x1024 32) (p q : Fin 1024) : EReal :=
  if l2 (ix2 (0 : Fin 1) p) = l3 (ix2 (0 : Fin 1) q) then ∑ k : Fin 256, x0 (ix2 p k) * x1 (ix2 q k) else Cert.Triplet.pinf

/-- The similarity where the labels differ, the value a maximum ignores elsewhere. -/
def negEntry (x0 x1 : FVec Ideal S1024x256 .bf16) (l2 l3 : IVec S1x1024 32) (p q : Fin 1024) : EReal :=
  if l2 (ix2 (0 : Fin 1) p) = l3 (ix2 (0 : Fin 1) q) then Cert.Triplet.ninf else ∑ k : Fin 256, x0 (ix2 p k) * x1 (ix2 q k)

/-- The block of similarities masked for the minimum, at `(p, q)`. -/
theorem masked_pos_apply (x0 x1 : FVec Ideal S1024x256 .bf16) (l2 l3 : IVec S1x1024 32) (p q : Fin 1024) :
    select (k0_pay7 (F := Ideal) l2 l3) (k0_pay6 (F := Ideal) x0 x1) (broadcast S1024x1024 (Scalar.ofBits (F := Ideal) .f32 0x7F800000#32)) (ix2 p q)
      = posEntry x0 x1 l2 l3 p q := by
  rw [select_apply, pay7_apply, pay6_apply, select_eq_ite]
  rfl

/-- The block of similarities masked for the maximum, at `(p, q)`. -/
theorem masked_neg_apply (x0 x1 : FVec Ideal S1024x256 .bf16) (l2 l3 : IVec S1x1024 32) (p q : Fin 1024) :
    select (k0_pay7 (F := Ideal) l2 l3) (broadcast S1024x1024 (Scalar.ofBits (F := Ideal) .f32 0xFF800000#32)) (k0_pay6 (F := Ideal) x0 x1) (ix2 p q)
      = negEntry x0 x1 l2 l3 p q := by
  rw [select_apply, pay7_apply, pay6_apply, select_eq_ite]
  rfl

/-- One point's step of the running minimum, at row `p`: the minimum of what the column held and the least masked
    similarity over the block's columns. -/
theorem pay8_apply (x0 x1 : FVec Ideal S1024x256 .bf16) (l2 l3 : IVec S1x1024 32) (s : FVec Ideal S1024x1 .f32) (p : Fin 1024) :
    k0_pay8 (F := Ideal) x0 x1 l2 l3 s (ix2 p (0 : Fin 1))
      = min (s (ix2 p (0 : Fin 1))) ((Finset.univ : Finset (Fin 1024)).fold min Cert.Triplet.pinf (posEntry x0 x1 l2 l3 p)) := by
  unfold k0_pay8
  simp only [shapeCast_self]
  refine congrArg (min (s (ix2 p (0 : Fin 1)))) ?_
  rw [shapeCast_a_a1_apply]
  refine (rowMin _ p).trans ?_
  refine Finset.fold_congr (fun q _ => ?_)
  exact masked_pos_apply x0 x1 l2 l3 p q

/-- One point's step of the running maximum, at row `p`. -/
theorem pay9_apply (x0 x1 : FVec Ideal S1024x256 .bf16) (l2 l3 : IVec S1x1024 32) (s : FVec Ideal S1024x1 .f32) (p : Fin 1024) :
    k0_pay9 (F := Ideal) x0 x1 l2 l3 s (ix2 p (0 : Fin 1))
      = max (s (ix2 p (0 : Fin 1))) ((Finset.univ : Finset (Fin 1024)).fold max Cert.Triplet.ninf (negEntry x0 x1 l2 l3 p)) := by
  unfold k0_pay9
  refine congrArg (max (s (ix2 p (0 : Fin 1)))) ?_
  rw [shapeCast_a_a1_apply]
  refine (rowMax _ p).trans ?_
  refine Finset.fold_congr (fun q _ => ?_)
  exact masked_neg_apply x0 x1 l2 l3 p q

/-! ## The body's step and reset values at an index -/

theorem newMin_apply (x0 x1 : FVec Ideal S1024x256 .bf16) (l2 l3 : IVec S1x1024 32) (s : FVec Ideal S1024x1 .f32) (p : Fin 1024) :
    newMin (F := Ideal) x0 x1 l2 l3 s (ix2 p (0 : Fin 1))
      = min (s (ix2 p (0 : Fin 1))) ((Finset.univ : Finset (Fin 1024)).fold min Cert.Triplet.pinf (posEntry x0 x1 l2 l3 p)) := by
  unfold newMin
  exact pay8_apply x0 x1 l2 l3 s p

theorem newMax_apply (x0 x1 : FVec Ideal S1024x256 .bf16) (l2 l3 : IVec S1x1024 32) (s : FVec Ideal S1024x1 .f32) (p : Fin 1024) :
    newMax (F := Ideal) x0 x1 l2 l3 s (ix2 p (0 : Fin 1))
      = max (s (ix2 p (0 : Fin 1))) ((Finset.univ : Finset (Fin 1024)).fold max Cert.Triplet.ninf (negEntry x0 x1 l2 l3 p)) := by
  unfold newMax k0_pay1
  simp only [shapeCast_self]
  exact pay9_apply x0 x1 l2 l3 s p

/-- The running minimum is reset to the value a minimum ignores. -/
theorem pay4_apply (i : S1024x1.Idx) : k0_pay4 (F := Ideal) i = Cert.Triplet.pinf := by
  unfold k0_pay4
  simp only [shapeCast_self]
  rfl

/-- The running maximum is reset to the value a maximum ignores. -/
theorem pay5_apply (i : S1024x1.Idx) : k0_pay5 (F := Ideal) i = Cert.Triplet.ninf := by
  unfold k0_pay5
  simp only [shapeCast_self]
  rfl

/-- The first result's block is the running minimum's column laid out as a row. -/
theorem pay2_apply (v : FVec Ideal S1024x1 .f32) (u : Fin 1) (p : Fin 1024) :
    k0_pay2 (F := Ideal) v (ix2 u p) = v (ix2 p u) := by
  unfold k0_pay2
  exact transpose_ix2_apply v transposes_S1024x1_p1_0_S1x1024 u p

/-- The second result's block is the running maximum's column laid out as a row. -/
theorem pay3_apply (v : FVec Ideal S1024x1 .f32) (u : Fin 1) (p : Fin 1024) :
    k0_pay3 (F := Ideal) v (ix2 u p) = v (ix2 p u) := by
  unfold k0_pay3
  exact transpose_ix2_apply v transposes_S1024x1_p1_0_S1x1024 u p

/-! ## The blocks a point reads, as entries of the two arrays -/

theorem hN0 : cfg0.N = 64 := by decide

/-- The windows' index maps over the grid: point `t = 8 i + j` reads block `i` of the rows and of the rows' labels,
    block `j` of the columns and of the columns' labels, and writes block `i` of each result. -/
theorem idx_facts0 : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = t.val / 8
    ∧ win0_3.index t (0 : Fin 2) = 0 ∧ win0_3.index t (1 : Fin 2) = t.val % 8
    ∧ win0_4.index t (0 : Fin 2) = 0 ∧ win0_4.index t (1 : Fin 2) = t.val / 8
    ∧ win0_5.index t (0 : Fin 2) = 0 ∧ win0_5.index t (1 : Fin 2) = t.val / 8 :=
  (by decide +kernel : ∀ t : Fin grid0.N, _)

variable (V : (c : Dev nD) → (b : Ref sig .tc) → Buf (Elt Ideal) ((c : Thread nD τ).loc b))

/-- Row `p` of the block of rows at point `t` is row `1024 (t / 8) + p` of the array of rows. -/
theorem xq_apply (c : Dev nD) (t : Fin cfg0.N) (p : Fin 1024) (k : Fin 256) (hp : 1024 * (t.val / 8) + p.val < 8192) :
    xq (F := Ideal) V c t (ix2 p k) = V c main_v5 (ix2 (⟨1024 * (t.val / 8) + p.val, hp⟩ : Fin 8192) k) := by
  obtain ⟨e0, e1, -⟩ := idx_facts0 t
  show V c main_v5 (((cfg0.win 0).blk t).view.emb (ix2 p k)) = _
  refine congrArg (V c main_v5) (funext fun a => Fin.ext ?_)
  match a with
  | ⟨0, _⟩ => show win0_0.index t (0 : Fin 2) * 1024 + 1 * p.val = 1024 * (t.val / 8) + p.val; omega
  | ⟨1, _⟩ => show win0_0.index t (1 : Fin 2) * 256 + 1 * k.val = k.val; omega

/-- Row `q` of the block of columns at point `t` is row `1024 (t % 8) + q` of the array of rows. -/
theorem xk_apply (c : Dev nD) (t : Fin cfg0.N) (q : Fin 1024) (k : Fin 256) (hq : 1024 * (t.val % 8) + q.val < 8192) :
    xk (F := Ideal) V c t (ix2 q k) = V c main_v5 (ix2 (⟨1024 * (t.val % 8) + q.val, hq⟩ : Fin 8192) k) := by
  obtain ⟨-, -, e0, e1, -⟩ := idx_facts0 t
  show V c main_v5 (((cfg0.win 1).blk t).view.emb (ix2 q k)) = _
  refine congrArg (V c main_v5) (funext fun a => Fin.ext ?_)
  match a with
  | ⟨0, _⟩ => show win0_1.index t (0 : Fin 2) * 1024 + 1 * q.val = 1024 * (t.val % 8) + q.val; omega
  | ⟨1, _⟩ => show win0_1.index t (1 : Fin 2) * 256 + 1 * k.val = k.val; omega

/-- The label of row `p` of the block of rows at point `t`. -/
theorem lq_apply (c : Dev nD) (t : Fin cfg0.N) (p : Fin 1024) (hp : 1024 * (t.val / 8) + p.val < 8192) :
    lq (F := Ideal) V c t (ix2 (0 : Fin 1) p) = V c main_v6 (ix2 (0 : Fin 1) (⟨1024 * (t.val / 8) + p.val, hp⟩ : Fin 8192)) := by
  obtain ⟨-, -, -, -, e0, e1, -⟩ := idx_facts0 t
  show V c main_v6 (((cfg0.win 2).blk t).view.emb (ix2 (0 : Fin 1) p)) = _
  refine congrArg (V c main_v6) (funext fun a => Fin.ext ?_)
  match a with
  | ⟨0, _⟩ => show win0_2.index t (0 : Fin 2) * 1 + 1 * 0 = 0; omega
  | ⟨1, _⟩ => show win0_2.index t (1 : Fin 2) * 1024 + 1 * p.val = 1024 * (t.val / 8) + p.val; omega

/-- The label of row `q` of the block of columns at point `t`. -/
theorem lk_apply (c : Dev nD) (t : Fin cfg0.N) (q : Fin 1024) (hq : 1024 * (t.val % 8) + q.val < 8192) :
    lk (F := Ideal) V c t (ix2 (0 : Fin 1) q) = V c main_v6 (ix2 (0 : Fin 1) (⟨1024 * (t.val % 8) + q.val, hq⟩ : Fin 8192)) := by
  obtain ⟨-, -, -, -, -, -, e0, e1, -⟩ := idx_facts0 t
  show V c main_v6 (((cfg0.win 3).blk t).view.emb (ix2 (0 : Fin 1) q)) = _
  refine congrArg (V c main_v6) (funext fun a => Fin.ext ?_)
  match a with
  | ⟨0, _⟩ => show win0_3.index t (0 : Fin 2) * 1 + 1 * 0 = 0; omega
  | ⟨1, _⟩ => show win0_3.index t (1 : Fin 2) * 1024 + 1 * q.val = 1024 * (t.val % 8) + q.val; omega

/-! ## One point's masked similarities, as the specification's -/

/-- Among the first `1024 (j + 1)` columns are the first `1024 j` and the `1024` of block `j`. -/
theorem forall_lt_block_succ (P : Fin 8192 → Prop) (j : ℕ) (hj : j < 8) :
    (∀ b : Fin 8192, b.val < 1024 * (j + 1) → P b)
      ↔ (∀ b : Fin 8192, b.val < 1024 * j → P b) ∧ ∀ (q : Fin 1024) (hq : 1024 * j + q.val < 8192), P ⟨1024 * j + q.val, hq⟩ := by
  constructor
  · intro h
    exact ⟨fun b hb => h b (by omega), fun q hq => h _ (by show 1024 * j + q.val < 1024 * (j + 1); omega)⟩
  · rintro ⟨h1, h2⟩ b hb
    by_cases hb' : b.val < 1024 * j
    · exact h1 b hb'
    · have e : b = ⟨1024 * j + (⟨b.val - 1024 * j, by omega⟩ : Fin 1024).val, by show 1024 * j + (b.val - 1024 * j) < 8192; omega⟩ :=
        Fin.ext (by show b.val = 1024 * j + (b.val - 1024 * j); omega)
      rw [e]
      exact h2 _ _

/-- The masked similarity the minimum folds, between rows `a` and `b` of the two arrays. -/
def gpos (X : Cert.Triplet.SX.Idx → EReal) (L : Cert.Triplet.SL.Idx → BitVec 32) (a b : Fin 8192) : EReal :=
  if L (ix1 a) = L (ix1 b) then Cert.Triplet.sim X a b else Cert.Triplet.pinf

/-- The masked similarity the maximum folds. -/
def gneg (X : Cert.Triplet.SX.Idx → EReal) (L : Cert.Triplet.SL.Idx → BitVec 32) (a b : Fin 8192) : EReal :=
  if L (ix1 a) = L (ix1 b) then Cert.Triplet.ninf else Cert.Triplet.sim X a b

theorem posEntry_eq (c : Dev nD) (t : Fin cfg0.N) (p q : Fin 1024) (hp : 1024 * (t.val / 8) + p.val < 8192)
    (hq : 1024 * (t.val % 8) + q.val < 8192) :
    posEntry (xq (F := Ideal) V c t) (xk (F := Ideal) V c t) (lq (F := Ideal) V c t) (lk (F := Ideal) V c t) p q
      = gpos (V c main_v5) (labOf (V c main_v6)) ⟨1024 * (t.val / 8) + p.val, hp⟩ ⟨1024 * (t.val % 8) + q.val, hq⟩ := by
  unfold posEntry gpos Cert.Triplet.sim
  rw [lq_apply V c t p hp, lk_apply V c t q hq]
  simp only [xq_apply V c t p _ hp, xk_apply V c t q _ hq]
  rfl

theorem negEntry_eq (c : Dev nD) (t : Fin cfg0.N) (p q : Fin 1024) (hp : 1024 * (t.val / 8) + p.val < 8192)
    (hq : 1024 * (t.val % 8) + q.val < 8192) :
    negEntry (xq (F := Ideal) V c t) (xk (F := Ideal) V c t) (lq (F := Ideal) V c t) (lk (F := Ideal) V c t) p q
      = gneg (V c main_v5) (labOf (V c main_v6)) ⟨1024 * (t.val / 8) + p.val, hp⟩ ⟨1024 * (t.val % 8) + q.val, hq⟩ := by
  unfold negEntry gneg Cert.Triplet.sim
  rw [lq_apply V c t p hp, lk_apply V c t q hq]
  simp only [xq_apply V c t p _ hp, xk_apply V c t q _ hq]
  rfl

/-! ## The running columns along a row of the grid -/

/-- One point's step of the running minimum, in terms of the two arrays: a lower bound of the new value at row `p`
    is a lower bound of the old one, of the value a minimum ignores, and of the masked similarities of the array's row
    to the rows of the point's block of columns. -/
theorem le_newMin_iff (c : Dev nD) (t : Fin cfg0.N) (p : Fin 1024) (a : Fin 8192) (ha : a.val = 1024 * (t.val / 8) + p.val)
    (s : FVec Ideal S1024x1 .f32) (cc : EReal) :
    cc ≤ newMin (F := Ideal) (xq V c t) (xk V c t) (lq V c t) (lk V c t) s (ix2 p (0 : Fin 1))
      ↔ cc ≤ s (ix2 p (0 : Fin 1)) ∧ cc ≤ Cert.Triplet.pinf
          ∧ ∀ (q : Fin 1024) (hq : 1024 * (t.val % 8) + q.val < 8192),
              cc ≤ gpos (V c main_v5) (labOf (V c main_v6)) a ⟨1024 * (t.val % 8) + q.val, hq⟩ := by
  have ht : t.val < 64 := hN0 ▸ t.isLt
  have hp : 1024 * (t.val / 8) + p.val < 8192 := by have := p.isLt; omega
  obtain rfl : a = ⟨1024 * (t.val / 8) + p.val, hp⟩ := Fin.ext ha
  rw [newMin_apply, le_min_iff, Finset.le_fold_min]
  refine and_congr Iff.rfl (and_congr Iff.rfl ?_)
  constructor
  · intro h q hq
    rw [← posEntry_eq V c t p q hp hq]
    exact h q (Finset.mem_univ q)
  · intro h q _
    have hq : 1024 * (t.val % 8) + q.val < 8192 := by have := q.isLt; omega
    rw [posEntry_eq V c t p q hp hq]
    exact h q hq

/-- One point's step of the running maximum, in terms of the two arrays. -/
theorem newMax_le_iff (c : Dev nD) (t : Fin cfg0.N) (p : Fin 1024) (a : Fin 8192) (ha : a.val = 1024 * (t.val / 8) + p.val)
    (s : FVec Ideal S1024x1 .f32) (cc : EReal) :
    newMax (F := Ideal) (xq V c t) (xk V c t) (lq V c t) (lk V c t) s (ix2 p (0 : Fin 1)) ≤ cc
      ↔ s (ix2 p (0 : Fin 1)) ≤ cc ∧ Cert.Triplet.ninf ≤ cc
          ∧ ∀ (q : Fin 1024) (hq : 1024 * (t.val % 8) + q.val < 8192),
              gneg (V c main_v5) (labOf (V c main_v6)) a ⟨1024 * (t.val % 8) + q.val, hq⟩ ≤ cc := by
  have ht : t.val < 64 := hN0 ▸ t.isLt
  have hp : 1024 * (t.val / 8) + p.val < 8192 := by have := p.isLt; omega
  obtain rfl : a = ⟨1024 * (t.val / 8) + p.val, hp⟩ := Fin.ext ha
  rw [newMax_apply, max_le_iff, Finset.fold_max_le]
  refine and_congr Iff.rfl (and_congr Iff.rfl ?_)
  constructor
  · intro h q hq
    rw [← negEntry_eq V c t p q hp hq]
    exact h q (Finset.mem_univ q)
  · intro h q _
    have hq : 1024 * (t.val % 8) + q.val < 8192 := by have := q.isLt; omega
    rw [negEntry_eq V c t p q hp hq]
    exact h q hq

/-- After point `n = 8 i + j` the running minimum at row `p` has the lower bounds of the value a minimum ignores and
    of the masked similarities of row `1024 i + p` to the first `1024 (j + 1)` rows. -/
theorem le_accMin_iff (c : Dev nD) (p : Fin 1024) (cc : EReal) :
    ∀ (n : ℕ) (hn : n < cfg0.N) (a : Fin 8192), a.val = 1024 * (n / 8) + p.val →
      (cc ≤ (acc0 (F := Ideal) V c n hn).1 (ix2 p (0 : Fin 1))
        ↔ cc ≤ Cert.Triplet.pinf ∧ ∀ b : Fin 8192, b.val < 1024 * (n % 8 + 1) →
            cc ≤ gpos (V c main_v5) (labOf (V c main_v6)) a b) := by
  intro n
  induction n using Nat.strong_induction_on with
  | _ n ih =>
    intro hn a ha
    have hn64 : n < 64 := hN0 ▸ hn
    rw [forall_lt_block_succ _ (n % 8) (by omega)]
    by_cases h0 : n % 8 = 0
    · have e : acc0 (F := Ideal) V c n hn = _ := acc0_first V c ⟨n, hn⟩ h0
      rw [e]
      refine (le_newMin_iff V c ⟨n, hn⟩ p a ha _ cc).trans ?_
      rw [pay4_apply]
      constructor
      · rintro ⟨h1, -, h3⟩
        exact ⟨h1, fun b hb => absurd hb (by omega), h3⟩
      · rintro ⟨h1, -, h3⟩
        exact ⟨h1, h1, h3⟩
    · have e : acc0 (F := Ideal) V c n hn = _ := acc0_later V c ⟨n, hn⟩ h0
      rw [e]
      refine (le_newMin_iff V c ⟨n, hn⟩ p a ha _ cc).trans ?_
      have ih' := ih (n - 1) (by omega) (Nat.lt_of_le_of_lt (Nat.sub_le _ _) hn) a (by omega)
      have e8 : (n - 1) % 8 + 1 = n % 8 := by omega
      rw [e8] at ih'
      refine (and_congr ih' Iff.rfl).trans ?_
      constructor
      · rintro ⟨⟨h1, h2⟩, -, h3⟩
        exact ⟨h1, h2, h3⟩
      · rintro ⟨h1, h2, h3⟩
        exact ⟨⟨h1, h2⟩, h1, h3⟩

/-- After point `n = 8 i + j` the running maximum at row `p` has the upper bounds of the value a maximum ignores and
    of the masked similarities of row `1024 i + p` to the first `1024 (j + 1)` rows. -/
theorem accMax_le_iff (c : Dev nD) (p : Fin 1024) (cc : EReal) :
    ∀ (n : ℕ) (hn : n < cfg0.N) (a : Fin 8192), a.val = 1024 * (n / 8) + p.val →
      ((acc0 (F := Ideal) V c n hn).2 (ix2 p (0 : Fin 1)) ≤ cc
        ↔ Cert.Triplet.ninf ≤ cc ∧ ∀ b : Fin 8192, b.val < 1024 * (n % 8 + 1) →
            gneg (V c main_v5) (labOf (V c main_v6)) a b ≤ cc) := by
  intro n
  induction n using Nat.strong_induction_on with
  | _ n ih =>
    intro hn a ha
    have hn64 : n < 64 := hN0 ▸ hn
    rw [forall_lt_block_succ _ (n % 8) (by omega)]
    by_cases h0 : n % 8 = 0
    · have e : acc0 (F := Ideal) V c n hn = _ := acc0_first V c ⟨n, hn⟩ h0
      rw [e]
      refine (newMax_le_iff V c ⟨n, hn⟩ p a ha _ cc).trans ?_
      rw [pay5_apply]
      constructor
      · rintro ⟨h1, -, h3⟩
        exact ⟨h1, fun b hb => absurd hb (by omega), h3⟩
      · rintro ⟨h1, -, h3⟩
        exact ⟨h1, h1, h3⟩
    · have e : acc0 (F := Ideal) V c n hn = _ := acc0_later V c ⟨n, hn⟩ h0
      rw [e]
      refine (newMax_le_iff V c ⟨n, hn⟩ p a ha _ cc).trans ?_
      have ih' := ih (n - 1) (by omega) (Nat.lt_of_le_of_lt (Nat.sub_le _ _) hn) a (by omega)
      have e8 : (n - 1) % 8 + 1 = n % 8 := by omega
      rw [e8] at ih'
      refine (and_congr ih' Iff.rfl).trans ?_
      constructor
      · rintro ⟨⟨h1, h2⟩, -, h3⟩
        exact ⟨h1, h2, h3⟩
      · rintro ⟨h1, h2, h3⟩
        exact ⟨⟨h1, h2⟩, h1, h3⟩

/-- At the last point of a row of the grid the running minimum at row `p` is the least masked similarity over all
    rows: the value the minimum ignores and the masked similarities to all rows have the same lower bounds as it. -/
theorem accMin_last (c : Dev nD) (t : Fin cfg0.N) (h7 : t.val % 8 = 7) (p : Fin 1024) (a : Fin 8192)
    (ha : a.val = 1024 * (t.val / 8) + p.val) :
    (acc0 (F := Ideal) V c t.val t.isLt).1 (ix2 p (0 : Fin 1)) = Cert.Triplet.hardPos (V c main_v5) (labOf (V c main_v6)) a := by
  refine eq_of_forall_le_iff fun cc => ?_
  refine (le_accMin_iff V c p cc t.val t.isLt a ha).trans ?_
  unfold Cert.Triplet.hardPos
  rw [Finset.le_fold_min]
  refine and_congr Iff.rfl ?_
  constructor
  · intro h b _
    exact h b (by have := b.isLt; omega)
  · intro h b _
    exact h b (Finset.mem_univ b)

/-- At the last point of a row of the grid the running maximum at row `p` is the greatest masked similarity over all
    rows. -/
theorem accMax_last (c : Dev nD) (t : Fin cfg0.N) (h7 : t.val % 8 = 7) (p : Fin 1024) (a : Fin 8192)
    (ha : a.val = 1024 * (t.val / 8) + p.val) :
    (acc0 (F := Ideal) V c t.val t.isLt).2 (ix2 p (0 : Fin 1)) = Cert.Triplet.hardNeg (V c main_v5) (labOf (V c main_v6)) a := by
  refine eq_of_forall_ge_iff fun cc => ?_
  refine (accMax_le_iff V c p cc t.val t.isLt a ha).trans ?_
  unfold Cert.Triplet.hardNeg
  rw [Finset.fold_max_le]
  refine and_congr Iff.rfl ?_
  constructor
  · intro h b _
    exact h b (by have := b.isLt; omega)
  · intro h b _
    exact h b (Finset.mem_univ b)

/-! ## From the blocks to the two results -/

/-- The first result as one function of the two arrays. -/
def G4 (c : Dev nD) : S1x8192.Idx → EReal :=
  fun i => Cert.Triplet.hardPos (V c main_v5) (labOf (V c main_v6)) ⟨(i 1).val, idx2_lt1 i⟩

/-- The second result as one function of the two arrays. -/
def G5 (c : Dev nD) : S1x8192.Idx → EReal :=
  fun i => Cert.Triplet.hardNeg (V c main_v5) (labOf (V c main_v6)) ⟨(i 1).val, idx2_lt1 i⟩

/-- What a row's last point writes back to the first result is its block of that function. -/
theorem flushed4_eq (c : Dev nD) (t : Fin cfg0.N) (hf : (cfg0.win 4).flush t = true) :
    (dat0 (F := Ideal) V c).flushed 4 t = ((cfg0.win 4).blk t).view.read (Elt Ideal) (G4 V c) := by
  have h7 := (flush0_4 t).mp hf
  have ht : t.val < 64 := hN0 ▸ t.isLt
  obtain ⟨-, -, -, -, -, -, -, -, e0, e1, -⟩ := idx_facts0 t
  show (cfg0.win 4).cut (grid0.coords t) ((dat0 (F := Ideal) V c).after 4 t) = _
  rw [after0_4]
  show (k0_pay2 (F := Ideal) (acc0 (F := Ideal) V c t.val t.isLt).1 : S1x1024.Idx → EReal)
    = fun j : S1x1024.Idx => G4 V c (((cfg0.win 4).blk t).view.emb j)
  funext j
  obtain ⟨u, p, rfl⟩ : ∃ (u : Fin 1) (p : Fin 1024), j = ix2 u p := ⟨j 0, j 1, eq_ix2 j⟩
  obtain rfl : u = 0 := Subsingleton.elim _ _
  have hp : 1024 * (t.val / 8) + p.val < 8192 := by have := p.isLt; omega
  rw [pay2_apply, accMin_last V c t h7 p ⟨1024 * (t.val / 8) + p.val, hp⟩ rfl]
  unfold G4
  refine congrArg (Cert.Triplet.hardPos (V c main_v5) (labOf (V c main_v6))) (Fin.ext ?_)
  show 1024 * (t.val / 8) + p.val = win0_4.index t (1 : Fin 2) * 1024 + 1 * p.val
  omega

/-- What a row's last point writes back to the second result is its block of that function. -/
theorem flushed5_eq (c : Dev nD) (t : Fin cfg0.N) (hf : (cfg0.win 5).flush t = true) :
    (dat0 (F := Ideal) V c).flushed 5 t = ((cfg0.win 5).blk t).view.read (Elt Ideal) (G5 V c) := by
  have h7 := (flush0_5 t).mp hf
  have ht : t.val < 64 := hN0 ▸ t.isLt
  obtain ⟨-, -, -, -, -, -, -, -, -, -, e0, e1⟩ := idx_facts0 t
  show (cfg0.win 5).cut (grid0.coords t) ((dat0 (F := Ideal) V c).after 5 t) = _
  rw [after0_5]
  show (k0_pay3 (F := Ideal) (acc0 (F := Ideal) V c t.val t.isLt).2 : S1x1024.Idx → EReal)
    = fun j : S1x1024.Idx => G5 V c (((cfg0.win 5).blk t).view.emb j)
  funext j
  obtain ⟨u, p, rfl⟩ : ∃ (u : Fin 1) (p : Fin 1024), j = ix2 u p := ⟨j 0, j 1, eq_ix2 j⟩
  obtain rfl : u = 0 := Subsingleton.elim _ _
  have hp : 1024 * (t.val / 8) + p.val < 8192 := by have := p.isLt; omega
  rw [pay3_apply, accMax_last V c t h7 p ⟨1024 * (t.val / 8) + p.val, hp⟩ rfl]
  unfold G5
  refine congrArg (Cert.Triplet.hardNeg (V c main_v5) (labOf (V c main_v6))) (Fin.ext ?_)
  show 1024 * (t.val / 8) + p.val = win0_5.index t (1 : Fin 2) * 1024 + 1 * p.val
  omega

/-- An index of the first result is in point `t`'s block iff each coordinate is in the block's range on its axis. -/
theorem mem_blk4 (t : Fin cfg0.N) (i : S1x8192.Idx) :
    i ∈ ((cfg0.win 4).blk t).view.set ↔ ∀ a : Fin 2, win0_4.index t a * S1x1024.size a ≤ (i a).val ∧ (i a).val < win0_4.index t a * S1x1024.size a + S1x1024.size a := by
  show i ∈ ((View.whole main_v7_0).slice (win0_4.rect t)).set ↔ _
  rw [View.set_slice_whole, Rect.mem_set_unit]
  exact Iff.rfl

/-- Likewise for the second result. -/
theorem mem_blk5 (t : Fin cfg0.N) (i : S1x8192.Idx) :
    i ∈ ((cfg0.win 5).blk t).view.set ↔ ∀ a : Fin 2, win0_5.index t a * S1x1024.size a ≤ (i a).val ∧ (i a).val < win0_5.index t a * S1x1024.size a + S1x1024.size a := by
  show i ∈ ((View.whole main_v7_1).slice (win0_5.rect t)).set ↔ _
  rw [View.set_slice_whole, Rect.mem_set_unit]
  exact Iff.rfl

/-- After the mining region its first result holds, for each row, the least similarity to a row with the same
    label: the minimum over the eight blocks of columns of the minima within the blocks is the minimum over all
    columns. -/
theorem mined_pos (c : Dev nD) (a : Fin 8192) :
    (dat0 (F := Ideal) V c).arrAt 4 cfg0.N (ix2 (0 : Fin 1) a)
      = Cert.Triplet.hardPos (V c main_v5) (labOf (V c main_v6)) a := by
  have ha := a.isLt
  have htN : 8 * (a.val / 1024) + 7 < cfg0.N := by rw [hN0]; omega
  have hf : (cfg0.win 4).flush ⟨8 * (a.val / 1024) + 7, htN⟩ = true :=
    (flush0_4 ⟨8 * (a.val / 1024) + 7, htN⟩).mpr (by show (8 * (a.val / 1024) + 7) % 8 = 7; omega)
  have hmem : (ix2 (0 : Fin 1) a : S1x8192.Idx) ∈ ((cfg0.win 4).blk ⟨8 * (a.val / 1024) + 7, htN⟩).view.set := by
    obtain ⟨-, -, -, -, -, -, -, -, e0, e1, -⟩ := idx_facts0 ⟨8 * (a.val / 1024) + 7, htN⟩
    have e1' : win0_4.index ⟨8 * (a.val / 1024) + 7, htN⟩ (1 : Fin 2) = (8 * (a.val / 1024) + 7) / 8 := e1
    rw [mem_blk4]
    intro ax
    match ax with
    | ⟨0, _⟩ =>
      show win0_4.index ⟨8 * (a.val / 1024) + 7, htN⟩ (0 : Fin 2) * 1 ≤ 0 ∧ 0 < win0_4.index ⟨8 * (a.val / 1024) + 7, htN⟩ (0 : Fin 2) * 1 + 1
      omega
    | ⟨1, _⟩ =>
      show win0_4.index ⟨8 * (a.val / 1024) + 7, htN⟩ (1 : Fin 2) * 1024 ≤ a.val ∧ a.val < win0_4.index ⟨8 * (a.val / 1024) + 7, htN⟩ (1 : Fin 2) * 1024 + 1024
      omega
  exact (dat0 (F := Ideal) V c).arrAt_apply_of_mem 4 (G4 V c) (fun t hf => flushed4_eq V c t hf) cfg0.N
    ⟨8 * (a.val / 1024) + 7, htN⟩ (ix2 (0 : Fin 1) a) htN hf hmem

/-- Its second result holds, for each row, the greatest similarity to a row with another label. -/
theorem mined_neg (c : Dev nD) (a : Fin 8192) :
    (dat0 (F := Ideal) V c).arrAt 5 cfg0.N (ix2 (0 : Fin 1) a)
      = Cert.Triplet.hardNeg (V c main_v5) (labOf (V c main_v6)) a := by
  have ha := a.isLt
  have htN : 8 * (a.val / 1024) + 7 < cfg0.N := by rw [hN0]; omega
  have hf : (cfg0.win 5).flush ⟨8 * (a.val / 1024) + 7, htN⟩ = true :=
    (flush0_5 ⟨8 * (a.val / 1024) + 7, htN⟩).mpr (by show (8 * (a.val / 1024) + 7) % 8 = 7; omega)
  have hmem : (ix2 (0 : Fin 1) a : S1x8192.Idx) ∈ ((cfg0.win 5).blk ⟨8 * (a.val / 1024) + 7, htN⟩).view.set := by
    obtain ⟨-, -, -, -, -, -, -, -, -, -, e0, e1⟩ := idx_facts0 ⟨8 * (a.val / 1024) + 7, htN⟩
    have e1' : win0_5.index ⟨8 * (a.val / 1024) + 7, htN⟩ (1 : Fin 2) = (8 * (a.val / 1024) + 7) / 8 := e1
    rw [mem_blk5]
    intro ax
    match ax with
    | ⟨0, _⟩ =>
      show win0_5.index ⟨8 * (a.val / 1024) + 7, htN⟩ (0 : Fin 2) * 1 ≤ 0 ∧ 0 < win0_5.index ⟨8 * (a.val / 1024) + 7, htN⟩ (0 : Fin 2) * 1 + 1
      omega
    | ⟨1, _⟩ =>
      show win0_5.index ⟨8 * (a.val / 1024) + 7, htN⟩ (1 : Fin 2) * 1024 ≤ a.val ∧ a.val < win0_5.index ⟨8 * (a.val / 1024) + 7, htN⟩ (1 : Fin 2) * 1024 + 1024
      omega
  exact (dat0 (F := Ideal) V c).arrAt_apply_of_mem 5 (G5 V c) (fun t hf => flushed5_eq V c t hf) cfg0.N
    ⟨8 * (a.val / 1024) + 7, htN⟩ (ix2 (0 : Fin 1) a) htN hf hmem

end Cert.KernelIdeal.Frm

end
-- ==== Proof.RefSide.lean ====
/-
  The reference program computes the hard-mining triplet loss of its two arguments.

  Read one element at a time, the reference's stages are: each row of the input divided by its guarded Euclidean
  length; the inner products of the scaled rows; for each row the least inner product over the rows with the same
  label and the greatest over the rows with another label, each a fold over the row started from the value the
  masked entries take; the two shifted distances of the row to these numbers; their difference plus the margin, cut
  off at zero; and the sum of these over all rows, started from the additive unit. Each stage is identified here
  with the corresponding definition of the specification, and the run of the reference is then restated with its
  result at the specification's function of the arguments.
-/
import proofs.«163277_j61710090109327_1_alg».proof.Proof.Gen.ReferenceIdeal.Run
import proofs.«163277_j61710090109327_1_alg».proof.Proof.Gen.ReferenceIdeal.Read
import proofs.«163277_j61710090109327_1_alg».proof.Proof.Spec
import Idealize.ShloMosaic.PureOps.Ideal.Laws
import Idealize.ShloMosaic.PureOps.Reduce
import Idealize.ShloMosaic.Lib.ValueIdx

noncomputable section

namespace Cert.RefSide

open Idealize.ShloMosaic Idealize.ShloMosaic.TcCoe Idealize.SL.Sem Idealize.ShloMosaic.ValueIdx
open Cert.ReferenceIdeal Cert.ReferenceIdeal.Gen Cert.ReferenceIdeal.Read Cert.Triplet

/-! ## Words and index sets -/

/-- Choosing by the bit "the two words are equal" is choosing by the equality of the two words. -/
theorem select_cmpi_eq {α : Type} (u v : BitVec 32) (A B : α) :
    Scalar.select (IntOp.cmpi .eq u v) A B = if u = v then A else B := by
  unfold Scalar.select IntOp.cmpi
  by_cases h : u = v
  · subst h
    rw [if_pos rfl, if_pos]
    simp
  · have hb : (u == v) = false := beq_false_of_ne h
    rw [if_neg h, if_neg]
    simp [hb]

/-- A sum over the indices of a one-axis array is the sum over the axis's coordinates. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- The square matrix of similarities loses its second axis under a minimum or maximum over a row. -/
theorem red1 : S8192x8192.Reduces [1] S8192 := by decide

/-- Row `a` of the square matrix with the column `k` inserted is the entry `(a, k)`. -/
theorem lift1 (a k : Fin 8192) : red1.lift (ix1 a) k = ix2 a k := by
  funext c; refine Fin.ext ?_
  match c with
  | ⟨0, _⟩ => rfl
  | ⟨1, _⟩ => rfl

/-! ## The scaled matrix and the similarities -/

/-- The quotient of the input by its rows' guarded lengths is the specification's scaled matrix: at `(a, k)` both
    are the entry divided by the square root of the row's sum of squares, plus the guard. -/
theorem v4_eq (x : SX.Idx → EReal) : val_main_v4 (F := Ideal) x = xnorm x := by
  funext i
  have e : idx_main_call0_v1 (idx_main_call0_v2 (idx_main_v3 i)) = fun k => ix2 ⟨(i 0).val, idx2_lt0 i⟩ k := by
    funext k; funext a; refine Fin.ext ?_
    match a with
    | ⟨0, _⟩ => rfl
    | ⟨1, _⟩ => rfl
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, e, Ideal.hostDivf_def, Ideal.hostUnary_sqrt_def, Ideal.mulf_def, Ideal.addf_def, Ideal.ofBits_def]
  rfl

/-- The product of the scaled matrix with its transpose is, at `(a, b)`, the inner product of the scaled rows `a` and `b`. -/
theorem v6_apply (x : SX.Idx → EReal) (a b : Fin 8192) :
    val_main_v6 (F := Ideal) x (ix2 a b) = sim (xnorm x) a b := by
  have el : ∀ k : Fin 256, lidx_main_v6 (ix2 a b) k = ix2 a k := fun k => by
    funext c; refine Fin.ext ?_
    match c with
    | ⟨0, _⟩ => rfl
    | ⟨1, _⟩ => rfl
  have er : ∀ k : Fin 256, idx_main_v5 (ridx_main_v6 (ix2 a b) k) = ix2 b k := fun k => by
    funext c; refine Fin.ext ?_
    match c with
    | ⟨0, _⟩ => rfl
    | ⟨1, _⟩ => rfl
  rw [val_main_v6_apply]
  simp only [val_main_v5_apply, el, er, v4_eq]
  rfl

/-! ## The masks, and the hardest positive and negative of a row -/

/-- The comparison of the labels spread along the rows with the labels spread along the columns is, at `(a, b)`,
    the comparison of the labels of rows `a` and `b`. -/
theorem v11_apply (lab : SL.Idx → BitVec 32) (a b : Fin 8192) :
    val_main_v11 (F := Ideal) lab (ix2 a b) = IntOp.cmpi .eq (lab (ix1 a)) (lab (ix1 b)) := by
  have e9 : idx_main_v7 (idx_main_v9 (ix2 a b)) = ix1 a := by
    funext c; refine Fin.ext ?_
    match c with
    | ⟨0, _⟩ => rfl
  have e10 : idx_main_v8 (idx_main_v10 (ix2 a b)) = ix1 b := by
    funext c; refine Fin.ext ?_
    match c with
    | ⟨0, _⟩ => rfl
  rw [val_main_v11_apply, val_main_v9_apply, val_main_v7_apply, val_main_v10_apply, val_main_v8_apply, e9, e10]

/-- The similarities with the rows of another label masked by the value a minimum ignores. -/
theorem v12_apply (x : SX.Idx → EReal) (lab : SL.Idx → BitVec 32) (a b : Fin 8192) :
    val_main_v12 (F := Ideal) x lab (ix2 a b) = if lab (ix1 a) = lab (ix1 b) then sim (xnorm x) a b else pinf := by
  rw [val_main_v12_apply, v11_apply, v6_apply, select_cmpi_eq, val_main_call1_v1_apply, val_main_call1_v0_apply,
    val_main_cst_0_apply]
  rfl

/-- The similarities with the rows of the same label masked by the value a maximum ignores. -/
theorem v14_apply (x : SX.Idx → EReal) (lab : SL.Idx → BitVec 32) (a b : Fin 8192) :
    val_main_v14 (F := Ideal) x lab (ix2 a b) = if lab (ix1 a) = lab (ix1 b) then ninf else sim (xnorm x) a b := by
  rw [val_main_v14_apply, v11_apply, v6_apply, select_cmpi_eq, val_main_call2_v1_apply, val_main_call2_v0_apply,
    val_main_cst_2_apply]
  rfl

/-- The minimum over row `a` of the first masked matrix is the least similarity to a row with the same label: a
    minimum commutes and associates, so the reduction is the fold over the row's columns. -/
theorem v13_apply (x : SX.Idx → EReal) (lab : SL.Idx → BitVec 32) (a : Fin 8192) :
    val_main_v13 (F := Ideal) x lab (ix1 a) = hardPos (xnorm x) lab a := by
  unfold val_main_v13
  refine (Host.reduce_eq_fold_single (FloatOps.minimumf (F := Ideal) (φ := .f32)) _ _ reducesTo_S8192x8192_S8192_d1 red1 h_S_ (ix1 a)).trans ?_
  show (Finset.univ : Finset (Fin 8192)).fold min pinf (fun k : Fin 8192 => val_main_v12 (F := Ideal) x lab (red1.lift (ix1 a) k))
    = hardPos (xnorm x) lab a
  unfold hardPos
  refine Finset.fold_congr (fun k _ => ?_)
  rw [lift1, v12_apply]

/-- The maximum over row `a` of the second masked matrix is the greatest similarity to a row with another label. -/
theorem v15_apply (x : SX.Idx → EReal) (lab : SL.Idx → BitVec 32) (a : Fin 8192) :
    val_main_v15 (F := Ideal) x lab (ix1 a) = hardNeg (xnorm x) lab a := by
  unfold val_main_v15
  refine (Host.reduce_eq_fold_single (FloatOps.maximumf (F := Ideal) (φ := .f32)) _ _ reducesTo_S8192x8192_S8192_d1 red1 h_S_ (ix1 a)).trans ?_
  show (Finset.univ : Finset (Fin 8192)).fold max ninf (fun k : Fin 8192 => val_main_v14 (F := Ideal) x lab (red1.lift (ix1 a) k))
    = hardNeg (xnorm x) lab a
  unfold hardNeg
  refine Finset.fold_congr (fun k _ => ?_)
  rw [lift1, v14_apply]

/-! ## The two distances, a row's share, and the loss -/

/-- The length of row `a` of the input after the row's hardest positive is subtracted and the shift added. -/
theorem v21_apply (x : SX.Idx → EReal) (lab : SL.Idx → BitVec 32) (a : Fin 8192) :
    val_main_v21 (F := Ideal) x lab (ix1 a) = dist x (hardPos (xnorm x) lab a) a := by
  have e1 : ∀ k : Fin 256, idx_main_call3_v1 (ix1 a) k = ix2 a k := fun k => by
    funext c; refine Fin.ext ?_
    match c with
    | ⟨0, _⟩ => rfl
    | ⟨1, _⟩ => rfl
  have e2 : ∀ k : Fin 256, idx_main_v16 (idx_main_v17 (ix2 a k)) = ix1 a := fun k => by
    funext c; refine Fin.ext ?_
    match c with
    | ⟨0, _⟩ => rfl
  rw [val_main_v21_apply, val_main_call3_v1_apply, val_main_call3_cst_apply]
  simp only [val_main_call3_v0_apply, val_main_v20_apply, val_main_v18_apply, val_main_v17_apply, val_main_v16_apply,
    val_main_v19_apply, val_main_cst_4_apply, e1, e2, v13_apply, Ideal.hostUnary_sqrt_def, Ideal.mulf_def, Ideal.addf_def,
    Ideal.subf_def, Ideal.ofBits_def]
  rfl

/-- The length of row `a` of the input after the row's hardest negative is subtracted and the shift added. -/
theorem v27_apply (x : SX.Idx → EReal) (lab : SL.Idx → BitVec 32) (a : Fin 8192) :
    val_main_v27 (F := Ideal) x lab (ix1 a) = dist x (hardNeg (xnorm x) lab a) a := by
  have e1 : ∀ k : Fin 256, idx_main_call4_v1 (ix1 a) k = ix2 a k := fun k => by
    funext c; refine Fin.ext ?_
    match c with
    | ⟨0, _⟩ => rfl
    | ⟨1, _⟩ => rfl
  have e2 : ∀ k : Fin 256, idx_main_v22 (idx_main_v23 (ix2 a k)) = ix1 a := fun k => by
    funext c; refine Fin.ext ?_
    match c with
    | ⟨0, _⟩ => rfl
  rw [val_main_v27_apply, val_main_call4_v1_apply, val_main_call4_cst_apply]
  simp only [val_main_call4_v0_apply, val_main_v26_apply, val_main_v24_apply, val_main_v23_apply, val_main_v22_apply,
    val_main_v25_apply, val_main_cst_5_apply, e1, e2, v15_apply, Ideal.hostUnary_sqrt_def, Ideal.mulf_def, Ideal.addf_def,
    Ideal.subf_def, Ideal.ofBits_def]
  rfl

/-- The difference of the two distances plus the margin, cut off at zero, is row `a`'s share of the loss. -/
theorem v32_apply (x : SX.Idx → EReal) (lab : SL.Idx → BitVec 32) (a : Fin 8192) :
    val_main_v32 (F := Ideal) x lab (ix1 a) = rowLoss x (xnorm x) lab a := by
  rw [val_main_v32_apply, val_main_v30_apply, val_main_v28_apply, v21_apply, v27_apply, val_main_v29_apply,
    val_main_cst_6_apply, val_main_v31_apply, val_main_cst_7_apply]
  rfl

/-- The reference's result, as a function of its two arguments, is the specification's: the additive unit plus the
    sum of the rows' shares. -/
theorem v33_eq (x : SX.Idx → EReal) (lab : SL.Idx → BitVec 32) :
    val_main_v33 (F := Ideal) x lab = result x lab := by
  funext i
  rw [val_main_v33_apply, val_main_cst_8_apply, sum_idx1]
  simp only [v32_apply]
  rfl

/-! ## The run -/

/-- Every weakly fair execution of the reference from a memory with zero counters terminates with its result at
    the specification's function of the two arguments' initial contents, and the arguments unchanged. -/
theorem run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
        r.2.mem ((c.tc : Thread Cert.ReferenceIdeal.nD Cert.ReferenceIdeal.τ).loc Cert.ReferenceIdeal.main_v33)
            = Cert.Triplet.result (m' ((c.tc : Thread _ _).loc Cert.ReferenceIdeal.main_arg0)) (m' ((c.tc : Thread _ _).loc Cert.ReferenceIdeal.main_arg1))
        ∧ r.2.mem ((c.tc : Thread _ _).loc Cert.ReferenceIdeal.main_arg0) = m' ((c.tc : Thread _ _).loc Cert.ReferenceIdeal.main_arg0)
        ∧ r.2.mem ((c.tc : Thread _ _).loc Cert.ReferenceIdeal.main_arg1) = m' ((c.tc : Thread _ _).loc Cert.ReferenceIdeal.main_arg1)) :=
  (θ_run (Cert.ReferenceIdeal.defs (F := Ideal)) _ _).mono
    (fun _ h c => ⟨(h c).1.trans ((val_main_v33_eq m' c).trans (v33_eq _ _)), (h c).2⟩)
    (Cert.ReferenceIdeal.Value.run (F := Ideal) m' ρ')

end Cert.RefSide

end
-- ==== Proof.KernelIdeal.Values1.lean ====
import proofs.«163277_j61710090109327_1_alg».proof.Proof.KernelIdeal.Data1
import proofs.«163277_j61710090109327_1_alg».proof.Proof.Gen.KernelIdeal.Regions
import proofs.«163277_j61710090109327_1_alg».proof.Proof.Spec
import proofs.«163277_j61710090109327_1_alg».proof.Proof.RefSide
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! # What the finishing region and the host lines around the two regions compute, over the extended reals

The finishing region walks the rows in eight blocks of 1024. At each block it forms, for every row of the block,
the two shifted lengths of the row against the row's two mined numbers, their difference plus the margin cut off at
zero, and adds the sum of these 1024 shares to a running sum that is started from the additive unit at the first
block and written out after the last. Addition of extended reals commutes and associates, so the eight partial sums
together are the sum over all 8192 rows; the unit the sums are started from is the extended real zero. -/

namespace Finish

/-! ## One point's arithmetic, read entry by entry -/

section Payload

/-- The length of row `r` of a block of rows after the number `s` is subtracted from, and the shift added to,
    each of its entries. -/
def bdist (x0 : S1024x256.Idx → EReal) (s : EReal) (r : Fin 1024) : EReal :=
  Ideal.sqrt (∑ k : Fin 256, (x0 (ix2 r k) - s + Cert.Triplet.eps) * (x0 (ix2 r k) - s + Cert.Triplet.eps))

/-- Row `r`'s share of the loss, from the block of rows and the row's two mined numbers. -/
def brow (x0 : S1024x256.Idx → EReal) (p q : EReal) (r : Fin 1024) : EReal :=
  max (bdist x0 p r - bdist x0 q r + Cert.Triplet.one) Cert.Triplet.zero

/-- A block of rows with each row's mined number subtracted from, and the shift added to, every entry of the row. -/
def shifted (x0 : Vec Ideal S1024x256 .f32) (a : Vec Ideal S1x1024 .f32) : FVec Ideal S1024x256 .f32 :=
  addf (subf x0 (broadcastTo S1024x256 (transpose S1024x1 [1, 0] (shapeCast S1x1024 a shapeCasts_S1x1024_S1x1024) transposes_S1x1024_p1_0_S1024x1) broadcasts_S1024x1_S1024x256))
    (broadcast S1024x256 (Scalar.ofBits .f32 0x358637BD#32))

/-- The lengths of the rows so shifted, as a column. -/
def lengths (x0 : Vec Ideal S1024x256 .f32) (a : Vec Ideal S1x1024 .f32) : FVec Ideal S1024x1 .f32 :=
  sqrt (shapeCast S1024x1 (multiReduction .add [1] S1024 (mulf (shifted x0 a) (shifted x0 a)) 0x00000000#32 reduces_S1024x256_S1024 (.inl rfl) rfl) shapeCasts_S1024_S1024x1)

/-- The rows' shares of the loss, as a column. -/
def shares (x0 : Vec Ideal S1024x256 .f32) (a1 a2 : Vec Ideal S1x1024 .f32) : FVec Ideal S1024x1 .f32 :=
  maximumf (addf (subf (lengths x0 a1) (lengths x0 a2)) (broadcast S1024x1 (Scalar.ofBits .f32 0x3F800000#32))) (broadcast S1024x1 (Scalar.ofBits .f32 0x00000000#32))

/-- A point's new running sum is the old one plus the sum of the column of shares. -/
theorem newSum_eq (x0 : Vec Ideal S1024x256 .f32) (a1 a2 : Vec Ideal S1x1024 .f32) (s : Vec Ideal S1x1 .f32) :
    newSum x0 a1 a2 s = addf s (shapeCast S1x1 (multiReduction .add [0] S1 (shares x0 a1 a2) 0x00000000#32 reduces_S1024x1_S1 (.inl rfl) rfl) shapeCasts_S1_S1x1) := by
  show shapeCast S1x1 (k1_pay3 a1 a2 x0 x0 s) shapeCasts_S1x1_S1x1 = _
  rw [shapeCast_self]
  rfl

/-- One mined row stood up as a column and spread along the columns reads, at `(r, k)`, the row's entry `r`. -/
theorem col_spread (a : Vec Ideal S1x1024 .f32) (r : Fin 1024) (k : Fin 256) :
    broadcastTo S1024x256 (transpose S1024x1 [1, 0] (shapeCast S1x1024 a shapeCasts_S1x1024_S1x1024) transposes_S1x1024_p1_0_S1024x1) broadcasts_S1024x1_S1024x256 (ix2 r k)
      = a (ix2 (0 : Fin 1) r) := by
  rw [shapeCast_self]
  refine (broadcastTo_apply (s := S1024x1) (t := S1024x256) _ _ (ix2 r k) (ix2 r (0 : Fin 1)) ?_).trans ?_
  · intro c
    match c with
    | ⟨0, _⟩ => rfl
    | ⟨1, _⟩ => rfl
  · exact transpose_ix2_apply a _ r 0

theorem shifted_apply (x0 : Vec Ideal S1024x256 .f32) (a : Vec Ideal S1x1024 .f32) (r : Fin 1024) (k : Fin 256) :
    shifted x0 a (ix2 r k) = x0 (ix2 r k) - a (ix2 (0 : Fin 1) r) + Cert.Triplet.eps := by
  show x0 (ix2 r k) - broadcastTo S1024x256 (transpose S1024x1 [1, 0] (shapeCast S1x1024 a shapeCasts_S1x1024_S1x1024) transposes_S1x1024_p1_0_S1024x1) broadcasts_S1024x1_S1024x256 (ix2 r k) + Cert.Triplet.eps = _
  rw [col_spread]

/-- A row of the block with the column `k` inserted is the entry `(r, k)`. -/
theorem row_lift (r : Fin 1024) (k : Fin 256) : reduces_S1024x256_S1024.lift (ix1 r) k = ix2 r k := by
  funext c; refine Fin.ext ?_
  match c with
  | ⟨0, _⟩ => rfl
  | ⟨1, _⟩ => rfl

/-- The one entry of the sum over the rows with the row `r` inserted is the entry `(r, 0)`. -/
theorem col_lift (r : Fin 1024) : reduces_S1024x1_S1.lift (ix1 (0 : Fin 1)) r = ix2 r (0 : Fin 1) := by
  funext c; refine Fin.ext ?_
  match c with
  | ⟨0, _⟩ => rfl
  | ⟨1, _⟩ => rfl

/-- The sum over the columns of a block, at row `r`. -/
theorem rowsum (v : FVec Ideal S1024x256 .f32) (hφ : FKind.Formats .f32) (hacc : (0x00000000#32 : BitVec 32) = 0x00000000#32) (r : Fin 1024) :
    multiReduction .add [1] S1024 v 0x00000000#32 reduces_S1024x256_S1024 hφ hacc (ix1 r) = ∑ k : Fin 256, v (ix2 r k) := by
  refine (Ideal.multiReduction_add_single v 0x00000000#32 reduces_S1024x256_S1024 hφ hacc (ix1 r)).trans ?_
  show ∑ k : Fin 256, v (reduces_S1024x256_S1024.lift (ix1 r) k) = _
  refine Finset.sum_congr rfl fun k _ => ?_
  rw [row_lift]

/-- The sum over the rows of a column. -/
theorem colsum (v : FVec Ideal S1024x1 .f32) (hφ : FKind.Formats .f32) (hacc : (0x00000000#32 : BitVec 32) = 0x00000000#32) :
    multiReduction .add [0] S1 v 0x00000000#32 reduces_S1024x1_S1 hφ hacc (ix1 (0 : Fin 1)) = ∑ r : Fin 1024, v (ix2 r (0 : Fin 1)) := by
  refine (Ideal.multiReduction_add_single v 0x00000000#32 reduces_S1024x1_S1 hφ hacc (ix1 (0 : Fin 1))).trans ?_
  show ∑ r : Fin 1024, v (reduces_S1024x1_S1.lift (ix1 (0 : Fin 1)) r) = _
  refine Finset.sum_congr rfl fun r _ => ?_
  rw [col_lift]

theorem lengths_apply (x0 : Vec Ideal S1024x256 .f32) (a : Vec Ideal S1x1024 .f32) (r : Fin 1024) :
    lengths x0 a (ix2 r (0 : Fin 1)) = bdist x0 (a (ix2 (0 : Fin 1) r)) r := by
  show Ideal.sqrt (shapeCast S1024x1 (multiReduction .add [1] S1024 (mulf (shifted x0 a) (shifted x0 a)) 0x00000000#32 reduces_S1024x256_S1024 (.inl rfl) rfl) shapeCasts_S1024_S1024x1 (ix2 r (0 : Fin 1)))
    = Ideal.sqrt (∑ k : Fin 256, (x0 (ix2 r k) - a (ix2 (0 : Fin 1) r) + Cert.Triplet.eps) * (x0 (ix2 r k) - a (ix2 (0 : Fin 1) r) + Cert.Triplet.eps))
  refine congrArg Ideal.sqrt ?_
  refine (shapeCast_apply (s := S1024) (t := S1024x1) _ _ (ix2 r (0 : Fin 1)) (ix1 r) ?_).trans ?_
  · rw [Shape.rowMajor_val_one, Shape.rowMajor_val_two]
    show r.val = r.val * 1 + 0
    omega
  refine (rowsum (mulf (shifted x0 a) (shifted x0 a)) _ _ r).trans ?_
  refine Finset.sum_congr rfl fun k _ => ?_
  show shifted x0 a (ix2 r k) * shifted x0 a (ix2 r k) = _
  rw [shifted_apply]

theorem shares_apply (x0 : Vec Ideal S1024x256 .f32) (a1 a2 : Vec Ideal S1x1024 .f32) (r : Fin 1024) :
    shares x0 a1 a2 (ix2 r (0 : Fin 1)) = brow x0 (a1 (ix2 (0 : Fin 1) r)) (a2 (ix2 (0 : Fin 1) r)) r := by
  show max (lengths x0 a1 (ix2 r (0 : Fin 1)) - lengths x0 a2 (ix2 r (0 : Fin 1)) + Cert.Triplet.one) Cert.Triplet.zero = _
  rw [lengths_apply, lengths_apply]
  rfl

/-- A point's new running sum, at its one entry: the old one plus the sum of the rows' shares. -/
theorem newSum_apply (x0 : Vec Ideal S1024x256 .f32) (a1 a2 : Vec Ideal S1x1024 .f32) (s : Vec Ideal S1x1 .f32) :
    newSum x0 a1 a2 s (ix2 (0 : Fin 1) (0 : Fin 1))
      = s (ix2 (0 : Fin 1) (0 : Fin 1)) + ∑ r : Fin 1024, brow x0 (a1 (ix2 (0 : Fin 1) r)) (a2 (ix2 (0 : Fin 1) r)) r := by
  rw [newSum_eq]
  show s (ix2 (0 : Fin 1) (0 : Fin 1)) + shapeCast S1x1 (multiReduction .add [0] S1 (shares x0 a1 a2) 0x00000000#32 reduces_S1024x1_S1 (.inl rfl) rfl) shapeCasts_S1_S1x1 (ix2 (0 : Fin 1) (0 : Fin 1)) = _
  refine congrArg (s (ix2 (0 : Fin 1) (0 : Fin 1)) + ·) ?_
  refine (shapeCast_apply (s := S1) (t := S1x1) _ _ (ix2 (0 : Fin 1) (0 : Fin 1)) (ix1 (0 : Fin 1)) ?_).trans ?_
  · rw [Shape.rowMajor_val_one, Shape.rowMajor_val_two]
    show 0 = 0 * 1 + 0
    omega
  refine (colsum (shares x0 a1 a2) _ _).trans ?_
  refine Finset.sum_congr rfl fun r _ => ?_
  rw [shares_apply]

end Payload

/-! ## The blocks a point reads, and the running sum point by point -/

/-- The additive unit every sum is started from is the extended real zero. -/
theorem zero_eq : Cert.Triplet.zero = 0 := Ideal.ofBits_zero_f32

/-- A row's shifted length with the unit its sum of squares is started from dropped. -/
theorem dist_def (x : Cert.Triplet.SX.Idx → EReal) (s : EReal) (a : Fin 8192) :
    Cert.Triplet.dist x s a
      = Ideal.sqrt (∑ k : Fin 256, (x (ix2 a k) - s + Cert.Triplet.eps) * (x (ix2 a k) - s + Cert.Triplet.eps)) := by
  show Ideal.sqrt (Cert.Triplet.zero + _) = _
  rw [zero_eq, zero_add]

/-- Rows in blocks of 1024: block `t`, row `r` of the block, is row `1024 t + r`. -/
def rowEquiv : Fin 8 × Fin 1024 ≃ Fin 8192 where
  toFun p := ⟨1024 * p.1.val + p.2.val, by have := p.1.isLt; have := p.2.isLt; omega⟩
  invFun a := (⟨a.val / 1024, by have := a.isLt; omega⟩, ⟨a.val % 1024, by omega⟩)
  left_inv p := by
    have h1 := p.1.isLt; have h2 := p.2.isLt
    refine Prod.ext (Fin.ext ?_) (Fin.ext ?_)
    · show (1024 * p.1.val + p.2.val) / 1024 = p.1.val; omega
    · show (1024 * p.1.val + p.2.val) % 1024 = p.2.val; omega
  right_inv a := by
    refine Fin.ext ?_
    show 1024 * (a.val / 1024) + a.val % 1024 = a.val; omega

section Region

variable (V : (c : Dev nD) → (b : Ref sig .tc) → Buf (Elt Ideal) ((c : Thread nD τ).loc b))

/-- The input windows' block indices at point `t`: block `t` of the rows, block `t` of each one-row matrix. -/
theorem idx1 : ∀ t : Fin cfg1.N, win1_0.index t (0 : Fin 2) = t.val ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val :=
  (by decide +kernel : ∀ t : Fin grid1.N, _)

/-- The block of rows at point `t` reads rows `1024 t …` of the inputs. -/
theorem xr_apply (c : Dev nD) (t : Fin cfg1.N) (r : Fin 1024) (k : Fin 256) (a : Fin 8192) (ha : a.val = 1024 * t.val + r.val) :
    xr V c t (ix2 r k) = V c main_arg0 (ix2 a k) := by
  obtain ⟨e0, e1, -, -, -, -⟩ := idx1 t
  show V c main_arg0 (((cfg1.win 0).blk t).view.emb (ix2 r k)) = V c main_arg0 (ix2 a k)
  congr 1
  funext b; apply Fin.ext
  match b with
  | ⟨0, _⟩ => show win1_0.index t (0 : Fin 2) * 1024 + 1 * r.val = a.val; rw [e0]; omega
  | ⟨1, _⟩ => show win1_0.index t (1 : Fin 2) * 256 + 1 * k.val = k.val; rw [e1]; omega

/-- The block of the first mined row at point `t` reads its entries `1024 t …`. -/
theorem apr_apply (c : Dev nD) (t : Fin cfg1.N) (r : Fin 1024) (a : Fin 8192) (ha : a.val = 1024 * t.val + r.val) :
    apr V c t (ix2 (0 : Fin 1) r) = V c main_v7_0 (ix2 (0 : Fin 1) a) := by
  obtain ⟨-, -, e0, e1, -, -⟩ := idx1 t
  show V c main_v7_0 (((cfg1.win 1).blk t).view.emb (ix2 (0 : Fin 1) r)) = V c main_v7_0 (ix2 (0 : Fin 1) a)
  congr 1
  funext b; apply Fin.ext
  match b with
  | ⟨0, _⟩ => show win1_1.index t (0 : Fin 2) * 1 + 1 * 0 = 0; rw [e0]
  | ⟨1, _⟩ => show win1_1.index t (1 : Fin 2) * 1024 + 1 * r.val = a.val; rw [e1]; omega

/-- The block of the second mined row likewise. -/
theorem anr_apply (c : Dev nD) (t : Fin cfg1.N) (r : Fin 1024) (a : Fin 8192) (ha : a.val = 1024 * t.val + r.val) :
    anr V c t (ix2 (0 : Fin 1) r) = V c main_v7_1 (ix2 (0 : Fin 1) a) := by
  obtain ⟨-, -, -, -, e0, e1⟩ := idx1 t
  show V c main_v7_1 (((cfg1.win 2).blk t).view.emb (ix2 (0 : Fin 1) r)) = V c main_v7_1 (ix2 (0 : Fin 1) a)
  congr 1
  funext b; apply Fin.ext
  match b with
  | ⟨0, _⟩ => show win1_2.index t (0 : Fin 2) * 1 + 1 * 0 = 0; rw [e0]
  | ⟨1, _⟩ => show win1_2.index t (1 : Fin 2) * 1024 + 1 * r.val = a.val; rw [e1]; omega

/-- Row `a`'s share of the loss, its two mined numbers read off the two one-row matrices. -/
def share (c : Dev nD) (a : Fin 8192) : EReal :=
  max (Cert.Triplet.dist (V c main_arg0) (V c main_v7_0 (ix2 (0 : Fin 1) a)) a
      - Cert.Triplet.dist (V c main_arg0) (V c main_v7_1 (ix2 (0 : Fin 1) a)) a + Cert.Triplet.one) Cert.Triplet.zero

/-- A row's shifted length within its block is its shifted length within the whole matrix. -/
theorem bdist_eq (c : Dev nD) (t : Fin cfg1.N) (s : EReal) (r : Fin 1024) (a : Fin 8192) (ha : a.val = 1024 * t.val + r.val) :
    bdist (xr V c t) s r = Cert.Triplet.dist (V c main_arg0) s a := by
  refine Eq.trans ?_ (dist_def (V c main_arg0) s a).symm
  show Ideal.sqrt (∑ k : Fin 256, (xr V c t (ix2 r k) - s + Cert.Triplet.eps) * (xr V c t (ix2 r k) - s + Cert.Triplet.eps)) = _
  refine congrArg Ideal.sqrt (Finset.sum_congr rfl fun k _ => ?_)
  rw [xr_apply V c t r k a ha]

/-- A row's share computed from the blocks at point `t` is the row's share. -/
theorem brow_eq (c : Dev nD) (t : Fin cfg1.N) (r : Fin 1024) (a : Fin 8192) (ha : a.val = 1024 * t.val + r.val) :
    brow (xr V c t) (apr V c t (ix2 (0 : Fin 1) r)) (anr V c t (ix2 (0 : Fin 1) r)) r = share V c a := by
  unfold brow share
  rw [bdist_eq V c t _ r a ha, bdist_eq V c t _ r a ha, apr_apply V c t r a ha, anr_apply V c t r a ha]

/-- The sum of the shares of the rows of block `t`; nothing past the eighth block. -/
def blockSum (c : Dev nD) (t : ℕ) : EReal :=
  if h : t < 8 then ∑ r : Fin 1024, share V c (rowEquiv (⟨t, h⟩, r)) else 0

/-- A point adds its block's sum to the running sum. -/
theorem point_apply (c : Dev nD) (t : Fin cfg1.N) (s : Vec Ideal S1x1 .f32) :
    newSum (xr V c t) (apr V c t) (anr V c t) s (ix2 (0 : Fin 1) (0 : Fin 1)) = s (ix2 (0 : Fin 1) (0 : Fin 1)) + blockSum V c t.val := by
  have ht : t.val < 8 := by have h : t.val < grid1.N := t.isLt; rw [N_1] at h; exact h
  rw [newSum_apply]
  unfold blockSum
  rw [dif_pos ht]
  refine congrArg (s (ix2 (0 : Fin 1) (0 : Fin 1)) + ·) (Finset.sum_congr rfl fun r _ => ?_)
  exact brow_eq V c t r _ rfl

/-- The running sum after point `n` is the sum of the first `n + 1` blocks' sums. -/
theorem acc1_eq (c : Dev nD) : ∀ (n : ℕ) (hn : n < cfg1.N),
    acc1 V c n hn (ix2 (0 : Fin 1) (0 : Fin 1)) = ∑ t ∈ Finset.range (n + 1), blockSum V c t
  | 0, hn => by
    show newSum (xr V c ⟨0, hn⟩) (apr V c ⟨0, hn⟩) (anr V c ⟨0, hn⟩) (k1_pay2 (F := Ideal)) (ix2 (0 : Fin 1) (0 : Fin 1)) = _
    rw [point_apply, Finset.sum_range_one]
    show Cert.Triplet.zero + _ = _
    rw [zero_eq, zero_add]
  | n + 1, hn => by
    show newSum (xr V c ⟨n + 1, hn⟩) (apr V c ⟨n + 1, hn⟩) (anr V c ⟨n + 1, hn⟩) (acc1 V c n (Nat.lt_of_succ_lt hn)) (ix2 (0 : Fin 1) (0 : Fin 1)) = _
    rw [point_apply, acc1_eq c n]
    exact (Finset.sum_range_succ (blockSum V c) (n + 1)).symm

/-- The eight blocks' sums together are the sum over all rows. -/
theorem blocks_total (c : Dev nD) : ∑ t ∈ Finset.range 8, blockSum V c t = ∑ a : Fin 8192, share V c a := by
  rw [Finset.sum_range, ← Equiv.sum_comp rowEquiv (share V c), Fintype.sum_prod_type]
  refine Finset.sum_congr rfl fun t _ => ?_
  unfold blockSum
  rw [dif_pos t.isLt]

/-- The sum of all rows' shares, block by block. -/
def total (c : Dev nD) : EReal := ∑ t ∈ Finset.range 8, blockSum V c t

/-- A one-entry matrix is the constant at its entry. -/
theorem const_one (f : S1x1.Idx → EReal) (v : EReal) (h : f (ix2 (0 : Fin 1) (0 : Fin 1)) = v) : f = fun _ => v := by
  funext y
  obtain ⟨p, q, rfl⟩ : ∃ (p q : Fin 1), y = ix2 p q := ⟨y 0, y 1, eq_ix2 y⟩
  obtain rfl : p = 0 := Subsingleton.elim _ _
  obtain rfl : q = 0 := Subsingleton.elim _ _
  exact h

/-- The result window's block index never moves. -/
theorem idx3 : ∀ t : Fin cfg1.N, win1_3.index t (0 : Fin 2) = 0 ∧ win1_3.index t (1 : Fin 2) = 0 :=
  (by decide +kernel : ∀ t : Fin grid1.N, _)

/-- What the one write-back, after the last point, writes: the sum of all rows' shares. -/
theorem flushed_eq (c : Dev nD) (t : Fin cfg1.N) (hf : (cfg1.win 3).flush t = true) :
    (dat1 (F := Ideal) V c).flushed 3 t = ((cfg1.win 3).blk t).view.read (Elt Ideal) (fun _ => total V c) := by
  have h7 : t.val = 7 := by
    have h : t.val < grid1.N := t.isLt
    rw [N_1] at h
    have := (flush1_3 t).mp hf
    omega
  have hl : acc1 V c t.val t.isLt (ix2 (0 : Fin 1) (0 : Fin 1)) = total V c := by
    rw [acc1_eq V c t.val t.isLt, h7]
    rfl
  show (cfg1.win 3).cut (grid1.coords t) ((dat1 (F := Ideal) V c).after 3 t) = _
  rw [after1_3]
  exact const_one _ _ hl

/-- The last point's block is the whole one-entry result. -/
theorem cover (c : Dev nD) (i : ((cfg1.win 3).arr.view.loc (c.tc : Thread nD τ)).2.ty.Idx) :
    ∃ t : Fin cfg1.N, (cfg1.win 3).flush t = true ∧ i ∈ ((cfg1.win 3).blk t).view.set := by
  have h7 : 7 < cfg1.N := by show 7 < grid1.N; rw [N_1]; decide
  refine ⟨⟨7, h7⟩, (flush1_3 _).mpr rfl, ?_⟩
  show i ∈ ((View.whole main_v8).slice (win1_3.rect ⟨7, h7⟩)).set
  rw [View.set_slice_whole, Rect.mem_set_unit]
  intro a
  obtain ⟨e0, e1⟩ := idx3 ⟨7, h7⟩
  have h0 : (i 0 : Nat) < 1 := (i 0).isLt
  have h1 : (i 1 : Nat) < 1 := (i 1).isLt
  match a with
  | ⟨0, _⟩ =>
    show win1_3.index ⟨7, h7⟩ (0 : Fin 2) * 1 ≤ (i 0 : Nat) ∧ (i 0 : Nat) < win1_3.index ⟨7, h7⟩ (0 : Fin 2) * 1 + 1
    rw [e0]; omega
  | ⟨1, _⟩ =>
    show win1_3.index ⟨7, h7⟩ (1 : Fin 2) * 1 ≤ (i 1 : Nat) ∧ (i 1 : Nat) < win1_3.index ⟨7, h7⟩ (1 : Fin 2) * 1 + 1
    rw [e1]; omega

end Region

end Finish

open Finish

section Region

variable (V : (c : Dev nD) → (b : Ref sig .tc) → Buf (Elt Ideal) ((c : Thread nD τ).loc b))

/-- After the finishing region its result holds the sum over all rows of the rows' losses, the two mined numbers
    of a row read off the two one-row matrices the region is handed: the running sum over the eight blocks of
    rows of the sums within the blocks is the sum over all rows. -/
theorem finished (c : Dev nD) (j : S1x1.Idx) :
    (dat1 (F := Ideal) V c).arrAt 3 cfg1.N j
      = Cert.Triplet.zero + ∑ a : Fin 8192,
          max (Cert.Triplet.dist (V c main_arg0) (V c main_v7_0 (ix2 (0 : Fin 1) a)) a
              - Cert.Triplet.dist (V c main_arg0) (V c main_v7_1 (ix2 (0 : Fin 1) a)) a + Cert.Triplet.one) Cert.Triplet.zero := by
  refine (congrFun ((dat1 (F := Ideal) V c).arrAt_eq_of_cover 3 (fun _ => total V c) (flushed_eq V c) (cover c)) j).trans ?_
  show total V c = _
  refine (blocks_total V c).trans ?_
  exact ((congrArg (· + ∑ a : Fin 8192, share V c a) zero_eq).trans (zero_add _)).symm

end Region

variable (m : (ℓ : Loc nD τ sig) → Buf (Elt Ideal) ℓ)

/-- The host lines before the mining region leave the scaled rows in the array its first two windows read
    (the change of float format is the identity over the extended reals): they are the operations the reference
    scales its rows by, each row divided by the guarded square root of its sum of squares. -/
theorem scaled (c : Dev nD) :
    Gen.V2 (F := Ideal) m c (Proc.devRef .tc main_v5) = Cert.Triplet.xnorm (m ((c : Thread nD τ).loc main_arg0)) := by
  refine Eq.trans ?_ (Cert.RefSide.v4_eq (m ((c : Thread nD τ).loc main_arg0)))
  show StableHlo.after (hostOps0_1 (F := Ideal)) (StableHlo.after (hostOps0 (F := Ideal)) (fun b => m (c, b))) (Proc.devRef .tc main_v5) = _
  after_results; rfl

/-- and the labels, laid out as one row, in the array its other two windows read. -/
theorem labels_row (c : Dev nD) (a : Fin 8192) :
    Gen.V2 (F := Ideal) m c (Proc.devRef .tc main_v6) (ix2 (0 : Fin 1) a) = m ((c : Thread nD τ).loc main_arg1) (ix1 a) := by
  have e : (Gen.V2 (F := Ideal) m c (Proc.devRef .tc main_v6) : S1x8192.Idx → BitVec 32)
      = shapeCast S1x8192 (m ((c : Thread nD τ).loc main_arg1) : S8192.Idx → BitVec 32) shapeCasts_S8192_S1x8192 := by
    show StableHlo.after (hostOps0_1 (F := Ideal)) (StableHlo.after (hostOps0 (F := Ideal)) (fun b => m (c, b))) (Proc.devRef .tc main_v6) = _
    after_results; rfl
  rw [e]
  refine shapeCast_apply (s := S8192) (t := S1x8192) _ _ _ _ ?_
  show (S8192.rowMajor (ix1 a)).val = (S1x8192.rowMajor (ix2 (0 : Fin 1) a)).val
  rw [Shape.rowMajor_val_two, Shape.rowMajor_val_one]
  show a.val = 0 * 8192 + a.val
  omega

/-- The host line after the finishing region reads the one entry of its result. -/
theorem reshaped (W : Valuation τ sig (Elt Ideal)) (j : S_.Idx) :
    StableHlo.after (hostOps2 (F := Ideal)) W (Proc.devRef .tc main_v9) j
      = W (Proc.devRef .tc main_v8) (ix2 (0 : Fin 1) (0 : Fin 1)) := by
  have e : (StableHlo.after (hostOps2 (F := Ideal)) W (Proc.devRef .tc main_v9) : S_.Idx → EReal)
      = shapeCast S_ (W (Proc.devRef .tc main_v8) : S1x1.Idx → EReal) shapeCasts_S1x1_S_ := by
    after_results; rfl
  rw [e]
  refine shapeCast_apply (s := S1x1) (t := S_) _ _ _ _ ?_
  show (S1x1.rowMajor (ix2 (0 : Fin 1) (0 : Fin 1))).val = (S_.rowMajor j).val
  rw [Shape.rowMajor_val_two]
  have h : (S_.rowMajor j).val < 1 := (S_.rowMajor j).isLt
  show 0 * 1 + 0 = _
  omega

end Cert.KernelIdeal.Frm

end
-- ==== Proof.KernelIdeal.ValueRun.lean ====
import proofs.«163277_j61710090109327_1_alg».proof.Proof.Gen.KernelIdeal.Launch
import proofs.«163277_j61710090109327_1_alg».proof.Proof.Gen.KernelIdeal.Skeleton
import proofs.«163277_j61710090109327_1_alg».proof.Proof.Gen.KernelIdeal.Points
import proofs.«163277_j61710090109327_1_alg».proof.Proof.KernelIdeal.Segs
import proofs.«163277_j61710090109327_1_alg».proof.Proof.KernelIdeal.ValueCond
import proofs.«163277_j61710090109327_1_alg».proof.Proof.KernelIdeal.Values0
import proofs.«163277_j61710090109327_1_alg».proof.Proof.KernelIdeal.Values1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! # The idealized kernel's run, with its result

The result is the one entry the finishing region leaves, read by the last host line; the finishing region sums
the rows' losses, each computed from the row and the two numbers the mining region left for it; the mining
region's inputs are the scaled rows and the labels the first host lines left. Put together, the result is the
loss of the specification. -/

variable (m : (ℓ : Loc nD τ sig) → Buf (Elt Ideal) ℓ)

/-- The finishing region reads the inputs' rows as launched: no item before it writes them. -/
theorem Vent1_arg0 (c : Dev nD) : Vent1 m c main_arg0 = m ((c : Thread nD τ).loc main_arg0) := by
  show W3 m c (Proc.devRef .tc main_arg0) = _
  dsimp only [W3]
  rw [Function.update_of_ne (StableHlo.devRef_ne_of_ne (by decide : main_arg0 ≠ main_v7_1)),
    Function.update_of_ne (StableHlo.devRef_ne_of_ne (by decide : main_arg0 ≠ main_v7_0))]
  exact (V2_of m c main_arg0 (by decide)).trans ((V1_of m c main_arg0 (by decide)).trans rfl)

/-- It reads the mining region's two results. -/
theorem Vent1_v7_0 (c : Dev nD) : Vent1 m c main_v7_0 = (dat0 (Vent0 m) c).arrAt 4 cfg0.N := (hF0_4 m c).symm
theorem Vent1_v7_1 (c : Dev nD) : Vent1 m c main_v7_1 = (dat0 (Vent0 m) c).arrAt 5 cfg0.N := (hF0_5 m c).symm

/-- The labels the mining region reads are the labels as launched. -/
theorem labOf_eq (c : Dev nD) : labOf (Vent0 m c main_v6) = m ((c : Thread nD τ).loc main_arg1) := by
  funext i
  unfold labOf
  refine (labels_row m c _).trans ?_
  exact congrArg _ (funext fun d => by match d with | ⟨0, _⟩ => rfl)

/-- THE RESULT: what the last valuation holds in the result buffer is the specification's loss. -/
theorem result_eq (c : Dev nD) :
    V5 m (outs m) c main_v9 = Cert.Triplet.result (m ((c : Thread nD τ).loc main_arg0)) (m ((c : Thread nD τ).loc main_arg1)) := by
  funext j
  show StableHlo.after (hostOps2 (F := Ideal)) (V4 m (outs m) c) (Proc.devRef .tc main_v9) j = _
  rw [reshaped, V4_eq]
  show W4 m c (Proc.devRef .tc main_v8) _ = _
  dsimp only [W4]
  rw [Function.update_self]
  show (dat1 (Vent1 m) c).arrAt 3 cfg1.N _ = _
  rw [finished (Vent1 m) c]
  unfold Cert.Triplet.result Cert.Triplet.loss Cert.Triplet.rowLoss
  refine congrArg (Cert.Triplet.zero + ·) (Finset.sum_congr rfl fun a _ => ?_)
  rw [Vent1_arg0, Vent1_v7_0, Vent1_v7_1, mined_pos (Vent0 m) c a, mined_neg (Vent0 m) c a, labOf_eq]
  rw [show Vent0 m c main_v5 = Cert.Triplet.xnorm (m ((c : Thread nD τ).loc main_arg0)) from scaled m c]

set_option backward.isDefEq.respectTransparency.types false in
/-- THE RUN: from any memory with zero counters every weakly fair execution of the idealized program terminates,
    nothing faulting, with the result buffer at the specification's loss of the two arguments and both arguments
    as launched. -/
theorem run_value (ρ : Dev nD → PrngReg) :
    θ_run defs (onTc (τ := τ) (main (F := Ideal))) ⟨m, fun _ => 0, ρ⟩ (fun r => ∀ c : Dev nD,
      r.2.mem ((c.tc : Thread nD τ).loc main_v9) = Cert.Triplet.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m c), (h c).2⟩)
    (value_cond m emb₁ () 𝒱₀ L lv (fun _ _ => rfl) ρ (outs m) (pdats m) 0 (fun _ => iprop(emp))
      (initOf (Pipeline.cells cfgs cellOf_inj) (Pipeline.launchToks cfgs cellOf_inj)) hu₀
      (fun _ c => R c) (hE0 ρ) (fun c => by iintro ⟨-, H⟩; iexact H)
      (reg0 m) (fun c => .rfl) (fun c => by rw [V3_eq]; exact .rfl)
      (reg1 m) (fun c => by rw [V3_eq]; exact .rfl) (fun c => by rw [V4_eq]; exact .rfl))

end Cert.KernelIdeal.Frm

end
-- ==== Proof.lean ====
/-
  The certificate of the hard-mining triplet loss: the kernel (a mining pallas_call that keeps, per row, a running
  minimum over the rows with the same label and a running maximum over the others, block of columns by block of
  columns; then a finishing pallas_call that sums the rows' losses block of rows by block of rows) against the
  plain reference, equal over the extended reals.

  Both programs run to the end from any memory with finite inputs, faulting nowhere, and leave their arguments as
  launched (the three frames). The idealized kernel is the kernel's own text read over the extended reals (nothing
  was rewritten). And the two idealized programs end with the same number, `Cert.Triplet.result` of the two
  arguments: the kernel's minimum of block minima is the minimum over all columns, its sum of block sums the sum
  over all rows, and every other operation is the reference's own, entry by entry.
-/
import proofs.«163277_j61710090109327_1_alg».proof.Defs
import proofs.«163277_j61710090109327_1_alg».proof.Proof.Gen.Kernel
import proofs.«163277_j61710090109327_1_alg».proof.Proof.Gen.KernelIdeal
import proofs.«163277_j61710090109327_1_alg».proof.Proof.Gen.ReferenceIdeal
import proofs.«163277_j61710090109327_1_alg».proof.Proof.Gen.Pre_finite_inputs
import proofs.«163277_j61710090109327_1_alg».proof.Proof.Kernel.Segs
import proofs.«163277_j61710090109327_1_alg».proof.Proof.KernelIdeal.Segs
import proofs.«163277_j61710090109327_1_alg».proof.Proof.KernelIdeal.ValueRun
import proofs.«163277_j61710090109327_1_alg».proof.Proof.RefSide
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Frm.frame (F := Bits) m ρ

/-- So does the idealized kernel. -/
theorem frame_ki : Cert.frame_KernelIdeal := fun m ρ _ => Cert.KernelIdeal.Frm.frame (F := Ideal) m ρ

/-- So does the idealized reference: its run with the result dropped. -/
theorem frame_ri : Cert.frame_ReferenceIdeal := fun m ρ _ =>
  (θ_run Cert.ReferenceIdeal.defs _ _).mono (fun _ h c => (h c).2) (Cert.RefSide.run m ρ)

/-- From memories that agree on the arguments the two idealized programs end with the specification's loss of
    those arguments. -/
theorem algebraic : Cert.algebraic_KernelIdeal_ReferenceIdeal := by
  intro m ρ m' ρ' _ hagree
  refine ⟨fun c => Cert.Triplet.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Frm.run_value m ρ, ?_⟩
  refine (θ_run Cert.ReferenceIdeal.defs _ _).mono (fun _ h c => ⟨(h c).1.trans ?_, (h c).2⟩) (Cert.RefSide.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
